-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x600000 : Shape := ⟨2, ![2, 600000]⟩
abbrev S600000 : Shape := ⟨1, ![600000]⟩
abbrev S512x128 : Shape := ⟨2, ![512, 128]⟩
abbrev S128x128 : Shape := ⟨2, ![128, 128]⟩
abbrev S128 : Shape := ⟨1, ![128]⟩
abbrev S_ : Shape := ⟨0, ![]⟩

class Facts : Prop where
  bcast_S_S600000 : S_.BroadcastsInDim S600000 (![] : Fin 0 → Fin S600000.rank)
  reducesTo_S600000_S_d0 : S600000.ReducesTo [0] S_
  h_S_ : 0 < S_.numel
  bcast_S_S512x128 : S_.BroadcastsInDim S512x128 (![] : Fin 0 → Fin S512x128.rank)
  reducesTo_S512x128_S_d0_1 : S512x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S50000 : S_.BroadcastsInDim S50000 (![] : Fin 0 → Fin S50000.rank)
  reducesTo_S50000_S_d0 : S50000.ReducesTo [0] S_

variable [Facts]

def fn_part3 {F : FTy → Type} [FloatOps F] (main_arg0 : IVec S50000 32) (main_v48 : IVec S_ 1) (main_v50 : IVec S50000 1) : IVec S_ 1 :=
  let main_c_19 : IVec S_ 32 := constantI S_ 32 512#32
  let main_v51 : IVec S50000 32 := broadcastInDim S50000 ![] bcast_S_S50000 main_c_19
  let main_v52 : IVec S50000 1 := cmpi .slt main_arg0 main_v51
  let main_v53 : IVec S50000 1 := andi main_v50 main_v52
  let main_c_20 : IVec S_ 1 := constantI S_ 1 1#1
  let main_v54 : IVec S_ 1 := (fun x v => Host.reduce IntOp.andi x v reducesTo_S50000_S_d0 h_S_) main_v53 main_c_20
  let main_v55 : IVec S_ 1 := andi main_v48 main_v54
  main_v55

def fn_part2 {F : FTy → Type} [FloatOps F] (main_arg0 : IVec S50000 32) (main_arg9 : FVec F S128 .f32) (main_arg10 : FVec F S128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S50000 32 := broadcastInDim S50000 ![] bcast_S_S50000 main_c_18
  let main_v50 : IVec S50000 1 := cmpi .sge main_arg0 main_v49
  fn_part3 (F := F) main_arg0 main_v48 main_v50

def fn_part1 {F : FTy → Type} [FloatOps F] (main_arg0 : IVec S50000 32) (main_arg6 : FVec F S128x128 .f32) (main_arg7 : FVec F S128 .f32) (main_arg8 : FVec F S128 .f32) (main_arg9 : FVec F S128 .f32) (main_arg10 : FVec F S128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg9 main_arg10 main_arg11 main_v33

def fn {F : FTy → Type} [FloatOps F] (main_arg0 : IVec S50000 32) (main_arg1 : IVec S2x600000 32) (main_arg2 : FVec F S600000 .f32) (main_arg3 : FVec F S512x128 .f32) (main_arg4 : FVec F S128x128 .f32) (main_arg5 : FVec F S128 .f32) (main_arg6 : FVec F S128x128 .f32) (main_arg7 : FVec F S128 .f32) (main_arg8 : FVec F S128 .f32) (main_arg9 : FVec F S128 .f32) (main_arg10 : FVec F S128 .f32) (main_arg11 : FVec F S128 .f32) : IVec S_ 1 :=
  let main_v0 : FVec F S600000 .f32 := Host.absf main_arg2
  let main_cst : FVec F S_ .f32 := constant S_ .f32 0x7F800000#32
  let main_v1 : FVec F S600000 .f32 := broadcastInDim S600000 ![] bcast_S_S600000 main_cst
  let main_v2 : IVec S600000 1 := cmpf .olt main_v0 main_v1
  let main_c : IVec S_ 1 := constantI S_ 1 1#1
  let main_v3 : IVec S_ 1 := (fun x v => Host.reduce IntOp.andi x v reducesTo_S600000_S_d0 h_S_) main_v2 main_c
  let main_v4 : FVec F S512x128 .f32 := Host.absf main_arg3
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg6 main_arg7 main_arg8 main_arg9 main_arg10 main_arg11 main_v13 main_v16
-- ==== Kernel.lean ====
abbrev S50000 : Shape := ⟨1, ![50000]⟩
abbrev S2x600000 : Shape := ⟨2, ![2, 600000]⟩
abbrev S600000 : Shape := ⟨1, ![600000]⟩
abbrev S512x128 : Shape := ⟨2, ![512, 128]⟩
abbrev S128x128 : Shape := ⟨2, ![128, 128]⟩
abbrev S128 : Shape := ⟨1, ![128]⟩
abbrev S1x600000 : Shape := ⟨2, ![1, 600000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S50000x128 : Shape := ⟨2, ![50000, 128]⟩
abbrev S5000x1 : Shape := ⟨2, ![5000, 1]⟩
abbrev S5000x128 : Shape := ⟨2, ![5000, 128]⟩
abbrev S1x512 : Shape := ⟨2, ![1, 512]⟩
abbrev S5000x512 : Shape := ⟨2, ![5000, 512]⟩
abbrev S650000x128 : Shape := ⟨2, ![650000, 128]⟩
abbrev S1x128 : Shape := ⟨2, ![1, 128]⟩
abbrev S5000 : Shape := ⟨1, ![5000]⟩

abbrev nBuf : Space → Nat
  | .hbm => 104
  | .vmem => 29
  | .smem => 0
  | _ => 0

abbrev bufTy : (tb : Table) → Fin (tcTables nBuf tb) → BufTy
  | .hbm, ⟨0, _⟩ => ⟨S50000, .i32⟩
  | .hbm, ⟨1, _⟩ => ⟨S2x600000, .i32⟩
  | .hbm, ⟨2, _⟩ => ⟨S600000, .f32⟩
  | .hbm, ⟨3, _⟩ => ⟨S512x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S50000, .i32⟩
  | .hbm, ⟨17, _⟩ => ⟨S650000, .i32⟩
  | .hbm, ⟨18, _⟩ => ⟨S650000, .i32⟩
  | .hbm, ⟨19, _⟩ => ⟨S_, .f32⟩
  | .hbm, ⟨20, _⟩ => ⟨S50000, .f32⟩
  | .hbm, ⟨21, _⟩ => ⟨S650000, .f32⟩
  | .hbm, ⟨22, _⟩ => ⟨S_, .f32⟩
  | .hbm, ⟨23, _⟩ => ⟨S50000, .f32⟩
  | .hbm, ⟨24, _⟩ => ⟨S650000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .i32⟩
  | .hbm, ⟨38, _⟩ => ⟨S650000, .i32⟩
  | .hbm, ⟨39, _⟩ => ⟨S650000, .i1⟩
  | .hbm, ⟨40, _⟩ => ⟨S_, .i32⟩
  | .hbm, ⟨41, _⟩ => ⟨S650000, .i32⟩
  | .hbm, ⟨42, _⟩ => ⟨S650000, .i32⟩
  | .hbm, ⟨43, _⟩ => ⟨S650000, .i32⟩
  | .hbm, ⟨44, _⟩ => ⟨S650000x1, .i32⟩
  | .hbm, ⟨45, _⟩ => ⟨S650000, .f32⟩
  | .hbm, ⟨46, _⟩ => ⟨S650000, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000, .f32⟩
  | .hbm, ⟨56, _⟩ => ⟨S650000, .f32⟩
  | .hbm, ⟨57, _⟩ => ⟨S512x128, .f32⟩
  | .hbm, ⟨58, _⟩ => ⟨S50000x1, .i32⟩
  | .hbm, ⟨59, _⟩ => ⟨S50000x128, .f32⟩
  | .hbm, ⟨60, _⟩ => ⟨S50000x128, .bf16⟩
  | .hbm, ⟨61, _⟩ => ⟨S_, .i32⟩
  | .hbm, ⟨62, _⟩ => ⟨S650000, .i32⟩
  | .hbm, ⟨63, _⟩ => ⟨S650000, .i1⟩
  | .hbm, ⟨64, _⟩ => ⟨S_, .i32⟩
  | .hbm, ⟨65, _⟩ => ⟨S650000, .i32⟩
  | .hbm, ⟨66, _⟩ => ⟨S650000, .i32⟩
  | .hbm, ⟨67, _⟩ => ⟨S650000, .i32⟩
  | .hbm, ⟨68, _⟩ => ⟨S650000x1, .i32⟩
  | .hbm, ⟨69, _⟩ => ⟨S650000x128, .bf16⟩
  | .hbm, ⟨70, _⟩ => ⟨S650000x128, .f32⟩
  | .hbm, ⟨71, _⟩ => ⟨S650000x1, .f32⟩
  | .hbm, ⟨72, _⟩ => ⟨S650000x128, .f32⟩
  | .hbm, ⟨73, _⟩ => ⟨S650000x128, .f32⟩
  | .hbm, ⟨74, _⟩ => ⟨S_, .f32⟩
  | .hbm, ⟨75, _⟩ => ⟨S50000x128, .f32⟩
  | .hbm, ⟨76, _⟩ => ⟨S650000x1, .i32⟩
  | .hbm, ⟨77, _⟩ => ⟨S50000x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S50000x128, .f32⟩
  | .hbm, ⟨82, _⟩ => ⟨S50000x128, .bf16⟩
  | .hbm, ⟨83, _⟩ => ⟨S_, .i32⟩
  | .hbm, ⟨84, _⟩ => ⟨S650000, .i32⟩
  | .hbm, ⟨85, _⟩ => ⟨S650000, .i1⟩
  | .hbm, ⟨86, _⟩ => ⟨S_, .i32⟩
  | .hbm, ⟨87, _⟩ => ⟨S650000, .i32⟩
  | .hbm, ⟨88, _⟩ => ⟨S650000, .i32⟩
  | .hbm, ⟨89, _⟩ => ⟨S650000, .i32⟩
  | .hbm, ⟨90, _⟩ => ⟨S650000x1, .i32⟩
  | .hbm, ⟨91, _⟩ => ⟨S650000x128, .bf16⟩
  | .hbm, ⟨92, _⟩ => ⟨S650000x128, .f32⟩
  | .hbm, ⟨93, _⟩ => ⟨S650000x1, .f32⟩
  | .hbm, ⟨94, _⟩ => ⟨S650000x128, .f32⟩
  | .hbm, ⟨95, _⟩ => ⟨S650000x128, .f32⟩
  | .hbm, ⟨96, _⟩ => ⟨S_, .f32⟩
  | .hbm, ⟨97, _⟩ => ⟨S50000x128, .f32⟩
  | .hbm, ⟨98, _⟩ => ⟨S650000x1, .i32⟩
  | .hbm, ⟨99, _⟩ => ⟨S50000x128, .f32⟩
  | .hbm, ⟨100, _⟩ => ⟨S1x128, .f32⟩
  | .hbm, ⟨101, _⟩ => ⟨S1x128, .f32⟩
  | .hbm, ⟨102, _⟩ => ⟨S1x128, .f32⟩
  | .hbm, ⟨103, _⟩ => ⟨S50000x128, .f32⟩
  | .local _ .vmem, ⟨0, _⟩ => ⟨S5000x1, .i32⟩
  | .local _ .vmem, ⟨1, _⟩ => ⟨S5000x1, .i32⟩
  | .local _ .vmem, ⟨2, _⟩ => ⟨S512x128, .f32⟩
  | .local _ .vmem, ⟨3, _⟩ => ⟨S512x128, .f32⟩
  | .local _ .vmem, ⟨4, _⟩ => ⟨S5000x128, .f32⟩
  | .local _ .vmem, ⟨5, _⟩ => ⟨S5000x128, .f32⟩
  | .local _ .vmem, ⟨6, _⟩ => ⟨S5000x128, .bf16⟩
  | .local _ .vmem, ⟨7, _⟩ => ⟨S5000x128, .bf16⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .bf16⟩
  | .local _ .vmem, ⟨19, _⟩ => ⟨S5000x128, .bf16⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36_0 : Ref sig .tc := ⟨.hbm, 59, rfl⟩
abbrev main_v36_1 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_c_8 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54_0 : Ref sig .tc := ⟨.hbm, 81, rfl⟩
abbrev main_v54_1 : Ref sig .tc := ⟨.hbm, 82, rfl⟩
abbrev main_c_10 : Ref sig .tc := ⟨.hbm, 83, rfl⟩
abbrev main_v55 : Ref sig .tc := ⟨.hbm, 84, rfl⟩
abbrev main_v56 : Ref sig .tc := ⟨.hbm, 85, rfl⟩
abbrev main_c_11 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_12 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x512_d1_w32 : S1x512.Iotas .tc 32 [1]
  broadcasts_S5000x1_S5000x512 : S5000x1.Broadcasts S5000x512
  broadcasts_S1x512_S5000x512 : S1x512.Broadcasts S5000x512
  natLt_1_32 : 1 < 32
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S512x128_S128x128_S512x128_1_0_0_1_n_n_wf : DotDims.WF S512x128 S128x128 S512x128 [1] [0] [0] [1] [] []
  dot_S5000x512_S512x128_S5000x128_1_0_0_1_n_n_wf : DotDims.WF S5000x512 S512x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S50000x1.size a
  hwx0_0 : ∀ i : grid0.Coords, EltTy.bits .i32 = 32 ∨ (Rect.block (s := S50000x1) S5000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .bf16 = 32 ∨ (Rect.block (s := S50000x128) S5000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .bf16 = 32 ∨ (Rect.block (s := S50000x128) S5000x128.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v35) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v36_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v36_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v54_1) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v54_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v69) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000 : Shape := ⟨1, ![50000]⟩
abbrev S2x600000 : Shape := ⟨2, ![2, 600000]⟩
abbrev S600000 : Shape := ⟨1, ![600000]⟩
abbrev S512x128 : Shape := ⟨2, ![512, 128]⟩
abbrev S128x128 : Shape := ⟨2, ![128, 128]⟩
abbrev S128 : Shape := ⟨1, ![128]⟩
abbrev S1x600000 : Shape := ⟨2, ![1, 600000]⟩
abbrev S_ : Shape := ⟨0, ![]⟩
abbrev S50000x1 : Shape := ⟨2, ![50000, 1]⟩
abbrev S50000x128 : Shape := ⟨2, ![50000, 128]⟩
abbrev S650000 : Shape := ⟨1, ![650000]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 207
  | .vmem => 0
  | .smem => 0
  | _ => 0

abbrev hbmTy0_0 (i : Nat) : BufTy := match i % 128 with
  | 0 => ⟨S50000, .i32⟩
  | 1 => ⟨S2x600000, .i32⟩
  | 2 => ⟨S600000, .f32⟩
  | 3 => ⟨S512x128, .f32⟩
  | 4 => ⟨S128x128, .f32⟩
  | 5 => ⟨S128, .f32⟩
  | 6 => ⟨S128x128, .f32⟩
  | 7 => ⟨S128, .f32⟩
  | 8 => ⟨S128, .f32⟩
  | 9 => ⟨S128, .f32⟩
  | 10 => ⟨S128, .f32⟩
  | 11 => ⟨S128, .f32⟩
  | 12 => ⟨S1x600000, .i32⟩
  | 13 => ⟨S600000, .i32⟩
  | 14 => ⟨S1x600000, .i32⟩
  | 15 => ⟨S600000, .i32⟩
  | 16 => ⟨S_, .i32⟩
  | 17 => ⟨S50000, .i32⟩
  | 18 => ⟨S50000, .i1⟩
  | 19 => ⟨S_, .i32⟩
  | 20 => ⟨S50000, .i32⟩
  | 21 => ⟨S50000, .i32⟩
  | 22 => ⟨S50000, .i32⟩
  | 23 => ⟨S50000x1, .i32⟩
  | 24 => ⟨S50000x128, .f32⟩
  | 25 => ⟨S50000x128, .f32⟩
  | 26 => ⟨S50000, .i32⟩
  | 27 => ⟨S650000, .i32⟩
  | 28 => ⟨S650000, .i32⟩
  | 29 => ⟨S_, .f32⟩
  | 30 => ⟨S50000, .f32⟩
  | 31 => ⟨S650000, .f32⟩
  | 32 => ⟨S_, .f32⟩
  | 33 => ⟨S50000, .f32⟩
  | 34 => ⟨S650000x1, .i32⟩
  | 35 => ⟨S50000, .f32⟩
  | 36 => ⟨S_, .f32⟩
  | 37 => ⟨S50000, .f32⟩
  | 38 => ⟨S50000, .i1⟩
  | 39 => ⟨S_, .f32⟩
  | 40 => ⟨S50000, .f32⟩
  | 41 => ⟨S50000, .f32⟩
  | 42 => ⟨S50000, .f32⟩
  | 43 => ⟨S_, .f32⟩
  | 44 => ⟨S_, .f32⟩
  | 45 => ⟨S50000, .f32⟩
  | 46 => ⟨S50000, .f32⟩
  | 47 => ⟨S_, .i32⟩
  | 48 => ⟨S650000, .i32⟩
  | 49 => ⟨S650000, .i1⟩
  | 50 => ⟨S_, .i32⟩
  | 51 => ⟨S650000, .i32⟩
  | 52 => ⟨S650000, .i32⟩
  | 53 => ⟨S650000, .i32⟩
  | 54 => ⟨S650000x1, .i32⟩
  | 55 => ⟨S650000, .f32⟩
  | 56 => ⟨S650000, .f32⟩
  | 57 => ⟨S_, .i32⟩
  | 58 => ⟨S650000, .i32⟩
  | 59 => ⟨S650000, .i1⟩
  | 60 => ⟨S_, .i32⟩
  | 61 => ⟨S650000, .i32⟩
  | 62 => ⟨S650000, .i32⟩
  | 63 => ⟨S650000, .i32⟩
  | 64 => ⟨S650000x1, .i32⟩
  | 65 => ⟨S650000, .f32⟩
  | 66 => ⟨S650000, .f32⟩
  | 67 => ⟨S650000x1, .f32⟩
  | 68 => ⟨S_, .i32⟩
  | 69 => ⟨S650000, .i32⟩
  | 70 => ⟨S650000, .i1⟩
  | 71 => ⟨S_, .i32⟩
  | 72 => ⟨S650000, .i32⟩
  | 73 => ⟨S650000, .i32⟩
  | 74 => ⟨S650000, .i32⟩
  | 75 => ⟨S650000x1, .i32⟩
  | 76 => ⟨S650000x128, .f32⟩
  | 77 => ⟨S650000x128, .f32⟩
  | 78 => ⟨S650000x128, .f32⟩
  | 79 => ⟨S_, .f32⟩
  | 80 => ⟨S50000x128, .f32⟩
  | 81 => ⟨S650000x1, .i32⟩
  | 82 => ⟨S50000x128, .f32⟩
  | 83 => ⟨S1x128, .f32⟩
  | 84 => ⟨S50000x128, .f32⟩
  | 85 => ⟨S50000x128, .f32⟩
  | 86 => ⟨S50000x128, .f32⟩
  | 87 => ⟨S_, .f32⟩
  | 88 => ⟨S50000, .f32⟩
  | 89 => ⟨S50000x1, .f32⟩
  | 90 => ⟨S_, .f32⟩
  | 91 => ⟨S50000x1, .f32⟩
  | 92 => ⟨S50000x1, .f32⟩
  | 93 => ⟨S50000x128, .f32⟩
  | 94 => ⟨S50000x128, .f32⟩
  | 95 => ⟨S50000x128, .f32⟩
  | 96 => ⟨S_, .f32⟩
  | 97 => ⟨S50000, .f32⟩
  | 98 => ⟨S50000x1, .f32⟩
  | 99 => ⟨S_, .f32⟩
  | 100 => ⟨S50000x1, .f32⟩
  | 101 => ⟨S50000x1, .f32⟩
  | 102 => ⟨S50000x128, .f32⟩
  | 103 => ⟨S50000x128, .f32⟩
  | 104 => ⟨S_, .f32⟩
  | 105 => ⟨S50000x1, .f32⟩
  | 106 => ⟨S50000x1, .f32⟩
  | 107 => ⟨S50000x1, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S50000x128, .f32⟩
  | 117 => ⟨S50000, .i32⟩
  | 118 => ⟨S650000, .i32⟩
  | 119 => ⟨S650000, .i32⟩
  | 120 => ⟨S_, .f32⟩
  | 121 => ⟨S50000, .f32⟩
  | 122 => ⟨S650000, .f32⟩
  | 123 => ⟨S_, .f32⟩
  | 124 => ⟨S50000, .f32⟩
  | 125 => ⟨S650000x1, .i32⟩
  | 126 => ⟨S50000, .f32⟩
  | 127 => ⟨S_, .f32⟩
  | _ => ⟨S50000, .i32⟩

abbrev hbmTy0_1 (i : Nat) : BufTy := match i % 128 with
  | 0 => ⟨S50000, .f32⟩
  | 1 => ⟨S50000, .i1⟩
  | 2 => ⟨S_, .f32⟩
  | 3 => ⟨S50000, .f32⟩
  | 4 => ⟨S50000, .f32⟩
  | 5 => ⟨S50000, .f32⟩
  | 6 => ⟨S_, .f32⟩
  | 7 => ⟨S_, .f32⟩
  | 8 => ⟨S50000, .f32⟩
  | 9 => ⟨S50000, .f32⟩
  | 10 => ⟨S_, .i32⟩
  | 11 => ⟨S650000, .i32⟩
  | 12 => ⟨S650000, .i1⟩
  | 13 => ⟨S_, .i32⟩
  | 14 => ⟨S650000, .i32⟩
  | 15 => ⟨S650000, .i32⟩
  | 16 => ⟨S650000, .i32⟩
  | 17 => ⟨S650000x1, .i32⟩
  | 18 => ⟨S650000, .f32⟩
  | 19 => ⟨S650000, .f32⟩
  | 20 => ⟨S_, .i32⟩
  | 21 => ⟨S650000, .i32⟩
  | 22 => ⟨S650000, .i1⟩
  | 23 => ⟨S_, .i32⟩
  | 24 => ⟨S650000, .i32⟩
  | 25 => ⟨S650000, .i32⟩
  | 26 => ⟨S650000, .i32⟩
  | 27 => ⟨S650000x1, .i32⟩
  | 28 => ⟨S650000, .f32⟩
  | 29 => ⟨S650000, .f32⟩
  | 30 => ⟨S650000x1, .f32⟩
  | 31 => ⟨S_, .i32⟩
  | 32 => ⟨S650000, .i32⟩
  | 33 => ⟨S650000, .i1⟩
  | 34 => ⟨S_, .i32⟩
  | 35 => ⟨S650000, .i32⟩
  | 36 => ⟨S650000, .i32⟩
  | 37 => ⟨S650000, .i32⟩
  | 38 => ⟨S650000x1, .i32⟩
  | 39 => ⟨S650000x128, .f32⟩
  | 40 => ⟨S650000x128, .f32⟩
  | 41 => ⟨S650000x128, .f32⟩
  | 42 => ⟨S_, .f32⟩
  | 43 => ⟨S50000x128, .f32⟩
  | 44 => ⟨S650000x1, .i32⟩
  | 45 => ⟨S50000x128, .f32⟩
  | 46 => ⟨S1x128, .f32⟩
  | 47 => ⟨S50000x128, .f32⟩
  | 48 => ⟨S50000x128, .f32⟩
  | 49 => ⟨S50000x128, .f32⟩
  | 50 => ⟨S_, .f32⟩
  | 51 => ⟨S50000, .f32⟩
  | 52 => ⟨S50000x1, .f32⟩
  | 53 => ⟨S_, .f32⟩
  | 54 => ⟨S50000x1, .f32⟩
  | 55 => ⟨S50000x1, .f32⟩
  | 56 => ⟨S50000x128, .f32⟩
  | 57 => ⟨S50000x128, .f32⟩
  | 58 => ⟨S50000x128, .f32⟩
  | 59 => ⟨S_, .f32⟩
  | 60 => ⟨S50000, .f32⟩
  | 61 => ⟨S50000x1, .f32⟩
  | 62 => ⟨S_, .f32⟩
  | 63 => ⟨S50000x1, .f32⟩
  | 64 => ⟨S50000x1, .f32⟩
  | 65 => ⟨S50000x128, .f32⟩
  | 66 => ⟨S50000x128, .f32⟩
  | 67 => ⟨S_, .f32⟩
  | 68 => ⟨S50000x1, .f32⟩
  | 69 => ⟨S50000x1, .f32⟩
  | 70 => ⟨S50000x1, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_call0_v0 : Ref sig .tc := ⟨.hbm, 44, rfl⟩
abbrev main_call0_v1 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_c_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_v59 : Ref sig .tc := ⟨.hbm, 88, rfl⟩
abbrev main_v60 : Ref sig .tc := ⟨.hbm, 89, rfl⟩
abbrev main_cst_13 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_14 : Ref sig .tc := ⟨.hbm, 96, rfl⟩
abbrev main_v66 : Ref sig .tc := ⟨.hbm, 97, rfl⟩
abbrev main_v67 : Ref sig .tc := ⟨.hbm, 98, rfl⟩
abbrev main_cst_15 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_16 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_17 : Ref sig .tc := ⟨.hbm, 120, rfl⟩
abbrev main_v87 : Ref sig .tc := ⟨.hbm, 121, rfl⟩
abbrev main_v88 : Ref sig .tc := ⟨.hbm, 122, rfl⟩
abbrev main_cst_18 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_19 : Ref sig .tc := ⟨.hbm, 127, rfl⟩
abbrev main_v92 : Ref sig .tc := ⟨.hbm, 128, rfl⟩
abbrev main_v93 : Ref sig .tc := ⟨.hbm, 129, rfl⟩
abbrev main_cst_20 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_21 : Ref sig .tc := ⟨.hbm, 134, rfl⟩
abbrev main_call1_v0 : Ref sig .tc := ⟨.hbm, 135, rfl⟩
abbrev main_call1_v1 : Ref sig .tc := ⟨.hbm, 136, rfl⟩
abbrev main_v97 : Ref sig .tc := ⟨.hbm, 137, rfl⟩
abbrev main_c_22 : Ref sig .tc := ⟨.hbm, 138, rfl⟩
abbrev main_v98 : Ref sig .tc := ⟨.hbm, 139, rfl⟩
abbrev main_v99 : Ref sig .tc := ⟨.hbm, 140, rfl⟩
abbrev main_c_23 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_c_24 : Ref sig .tc := ⟨.hbm, 148, rfl⟩
abbrev main_v106 : Ref sig .tc := ⟨.hbm, 149, rfl⟩
abbrev main_v107 : Ref sig .tc := ⟨.hbm, 150, rfl⟩
abbrev main_c_25 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_c_26 : Ref sig .tc := ⟨.hbm, 159, rfl⟩
abbrev main_v115 : Ref sig .tc := ⟨.hbm, 160, rfl⟩
abbrev main_v116 : Ref sig .tc := ⟨.hbm, 161, rfl⟩
abbrev main_c_27 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_cst_28 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_29 : Ref sig .tc := ⟨.hbm, 178, rfl⟩
abbrev main_v131 : Ref sig .tc := ⟨.hbm, 179, rfl⟩
abbrev main_v132 : Ref sig .tc := ⟨.hbm, 180, rfl⟩
abbrev main_cst_30 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_cst_31 : Ref sig .tc := ⟨.hbm, 187, rfl⟩
abbrev main_v138 : Ref sig .tc := ⟨.hbm, 188, rfl⟩
abbrev main_v139 : Ref sig .tc := ⟨.hbm, 189, rfl⟩
abbrev main_cst_32 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_cst_33 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S50000_S50000x1_0 : S50000.BroadcastsInDim S50000x1 (![0] : Fin 1 → Fin S50000x1.rank)
  concatenates_S600000_S50000_S650000_d0 : Shape.Concatenates [S600000, S50000] S650000 0
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S512x128_S50000x1_S50000x128_1_0_n_n_0_1_1128_wf : GatherDims.WF S512x128 S50000x1 S50000x128 [1] [0] [] [0] [] 1 ![1, 128]
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def gather_S512x128_S50000x1_S50000x128_1_0_n_n_0_1_1128 : GatherDims S512x128 S50000x1 S50000x128 where
  offsetDims := [1]
  collapsedSliceDims := [0]
  operandBatchingDims := []
  startIndicesBatchingDims := []
  startIndexMap := [0]
  indexVectorDim := 1
  sliceSizes := ![1, 128]
  wf := gather_S512x128_S50000x1_S50000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.RefRunHand.lean ====
/-
  The reference program's run: every weakly fair execution of its straight line of host operations terminates with
  the result array at the last stage function of the launch arguments, the arguments unchanged.

  A straight line of host operations ends with every buffer at the operations' fold over the launch contents. What
  the fold leaves in the result buffer is read one stretch at a time: the line is cut before each of its six
  concatenations (a concatenation's operands are read where it stands, so after a cut they are contents of a
  boundary, already named), and each stretch's buffers are the stage functions of the buffers it starts from.
-/
import proofs.«405743_j19215683682347_2_alg».proof.Proof.RefRead
import Idealize.ShloMosaic.Lib.StableHlo.Run

set_option maxRecDepth 16384

noncomputable section

namespace Cert.ReferenceIdeal.RunHand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The seven stretches -/

/-- The launch contents of device `c`. -/
def Y0 (c : Dev nD) : Valuation τ sig (Elt F) := launchContents m c
/-- After the first fifteen operations (the slices, the wrapped ids, the lookup, the first product, the iota). -/
def Y1 (c : Dev nD) : Valuation τ sig (Elt F) := after ((ops (F := F)).take 15) (Y0 m c)
/-- After the sources' concatenation. -/
def Y2 (c : Dev nD) : Valuation τ sig (Elt F) := after (((ops (F := F)).drop 15).take 1) (Y1 m c)
/-- After the destinations' concatenation and the ones. -/
def Y3 (c : Dev nD) : Valuation τ sig (Elt F) := after (((ops (F := F)).drop 16).take 3) (Y2 m c)
/-- After the first layer (the weights' concatenation up to the second iota). -/
def Y4 (c : Dev nD) : Valuation τ sig (Elt F) := after (((ops (F := F)).drop 19).take 87) (Y3 m c)
/-- After the sources' second concatenation. -/
def Y5 (c : Dev nD) : Valuation τ sig (Elt F) := after (((ops (F := F)).drop 106).take 1) (Y4 m c)
/-- After the destinations' second concatenation and the ones. -/
def Y6 (c : Dev nD) : Valuation τ sig (Elt F) := after (((ops (F := F)).drop 107).take 3) (Y5 m c)
/-- After the second layer: the end of the line. -/
def Y7 (c : Dev nD) : Valuation τ sig (Elt F) := after ((ops (F := F)).drop 110) (Y6 m c)

theorem after_ops (c : Dev nD) : after (ops (F := F)) (launchContents m c) = Y7 m c := by
  unfold Y7 Y6 Y5 Y4 Y3 Y2 Y1 Y0; rfl

/-! ## The first stretch -/

theorem Y1_v1 (c : Dev nD) : Y1 m c (Proc.devRef .tc main_v1) = val_main_v1 (F := F) (m ((c.tc : Thread nD τ).loc main_arg1)) := by
  unfold Y1 Y0
  simp only [ops, List.take_succ_cons, List.take_zero, List.drop_succ_cons, List.drop_zero]
  after_results_simp
  all_goals rfl

theorem Y1_v3 (c : Dev nD) : Y1 m c (Proc.devRef .tc main_v3) = val_main_v3 (F := F) (m ((c.tc : Thread nD τ).loc main_arg1)) := by
  unfold Y1 Y0
  simp only [ops, List.take_succ_cons, List.take_zero, List.drop_succ_cons, List.drop_zero]
  after_results_simp
  all_goals rfl

theorem Y1_v12 (c : Dev nD) : Y1 m c (Proc.devRef .tc main_v12) = val_main_v12 (F := F) := by
  unfold Y1 Y0
  simp only [ops, List.take_succ_cons, List.take_zero, List.drop_succ_cons, List.drop_zero]
  after_results_simp
  all_goals rfl

theorem Y1_v10 (c : Dev nD) : Y1 m c (Proc.devRef .tc main_v10) = val_main_v10 (F := F) (m ((c.tc : Thread nD τ).loc main_arg0)) (m ((c.tc : Thread nD τ).loc main_arg3)) := by
  unfold Y1 Y0
  simp only [ops, List.take_succ_cons, List.take_zero, List.drop_succ_cons, List.drop_zero]
  after_results_simp
  all_goals rfl

theorem Y1_v11 (c : Dev nD) : Y1 m c (Proc.devRef .tc main_v11) = val_main_v11 (F := F) (m ((c.tc : Thread nD τ).loc main_arg0)) (m ((c.tc : Thread nD τ).loc main_arg3)) (m ((c.tc : Thread nD τ).loc main_arg4)) := by
  unfold Y1 Y0
  simp only [ops, List.take_succ_cons, List.take_zero, List.drop_succ_cons, List.drop_zero]
  after_results_simp
  all_goals rfl

theorem Y1_arg (c : Dev nD) (b : Ref sig .tc) (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11) :
    Y1 m c (Proc.devRef .tc b) = m ((c.tc : Thread nD τ).loc b) := by
  unfold Y1 Y0
  rcases hb with h | h | h | h | h | h | h | h | h | h | h | h <;> subst h <;>
    (simp only [ops, List.take_succ_cons, List.take_zero, List.drop_succ_cons, List.drop_zero]; after_results_simp <;> rfl)

/-! ## The sources' concatenation -/

theorem Y2_v13 (c : Dev nD) : Y2 m c (Proc.devRef .tc main_v13) = val_main_v13 (F := F) (m ((c.tc : Thread nD τ).loc main_arg1)) := by
  unfold Y2
  simp only [ops, List.take_succ_cons, List.take_zero, List.drop_succ_cons, List.drop_zero]
  after_results_simp
  rw [Y1_v1, Y1_v12]
  all_goals rfl

theorem Y2_keep (c : Dev nD) (b : Ref sig .tc) (hb : b = main_v1 ∨ b = main_v3 ∨ b = main_v12 ∨ b = main_v10 ∨ b = main_v11 ∨ b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11) :
    Y2 m c (Proc.devRef .tc b) = Y1 m c (Proc.devRef .tc b) := by
  unfold Y2
  rcases hb with h | h | h | h | h | h | h | h | h | h | h | h | h | h | h | h | h <;> subst h <;>
    (simp only [ops, List.take_succ_cons, List.take_zero, List.drop_succ_cons, List.drop_zero]; after_results_simp)

theorem Y2_arg (c : Dev nD) (b : Ref sig .tc) (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11) :
    Y2 m c (Proc.devRef .tc b) = m ((c.tc : Thread nD τ).loc b) :=
  (Y2_keep m c b (by rcases hb with h | h | h | h | h | h | h | h | h | h | h | h <;> subst h <;> decide)).trans (Y1_arg m c b hb)

/-! ## The destinations' concatenation and the ones -/

theorem Y3_v14 (c : Dev nD) : Y3 m c (Proc.devRef .tc main_v14) = val_main_v14 (F := F) (m ((c.tc : Thread nD τ).loc main_arg1)) := by
  unfold Y3
  simp only [ops, List.take_succ_cons, List.take_zero, List.drop_succ_cons, List.drop_zero]
  after_results_simp
  rw [Y2_keep m c main_v3 (by decide), Y2_keep m c main_v12 (by decide), Y1_v3, Y1_v12]
  all_goals rfl

theorem Y3_v15 (c : Dev nD) : Y3 m c (Proc.devRef .tc main_v15) = val_main_v15 (F := F) := by
  unfold Y3
  simp only [ops, List.take_succ_cons, List.take_zero, List.drop_succ_cons, List.drop_zero]
  after_results_simp
  all_goals rfl

theorem Y3_keep (c : Dev nD) (b : Ref sig .tc) (hb : b = main_v1 ∨ b = main_v3 ∨ b = main_v13 ∨ b = main_v10 ∨ b = main_v11 ∨ b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11) :
    Y3 m c (Proc.devRef .tc b) = Y2 m c (Proc.devRef .tc b) := by
  unfold Y3
  rcases hb with h | h | h | h | h | h | h | h | h | h | h | h | h | h | h | h | h <;> subst h <;>
    (simp only [ops, List.take_succ_cons, List.take_zero, List.drop_succ_cons, List.drop_zero]; after_results_simp)

theorem Y3_arg (c : Dev nD) (b : Ref sig .tc) (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11) :
    Y3 m c (Proc.devRef .tc b) = m ((c.tc : Thread nD τ).loc b) :=
  (Y3_keep m c b (by rcases hb with h | h | h | h | h | h | h | h | h | h | h | h <;> subst h <;> decide)).trans (Y2_arg m c b hb)

theorem Y3_v13 (c : Dev nD) : Y3 m c (Proc.devRef .tc main_v13) = val_main_v13 (F := F) (m ((c.tc : Thread nD τ).loc main_arg1)) :=
  (Y3_keep m c main_v13 (by decide)).trans (Y2_v13 m c)
theorem Y3_v10 (c : Dev nD) : Y3 m c (Proc.devRef .tc main_v10) = val_main_v10 (F := F) (m ((c.tc : Thread nD τ).loc main_arg0)) (m ((c.tc : Thread nD τ).loc main_arg3)) :=
  (Y3_keep m c main_v10 (by decide)).trans ((Y2_keep m c main_v10 (by decide)).trans (Y1_v10 m c))
theorem Y3_v11 (c : Dev nD) : Y3 m c (Proc.devRef .tc main_v11) = val_main_v11 (F := F) (m ((c.tc : Thread nD τ).loc main_arg0)) (m ((c.tc : Thread nD τ).loc main_arg3)) (m ((c.tc : Thread nD τ).loc main_arg4)) :=
  (Y3_keep m c main_v11 (by decide)).trans ((Y2_keep m c main_v11 (by decide)).trans (Y1_v11 m c))
theorem Y3_v1 (c : Dev nD) : Y3 m c (Proc.devRef .tc main_v1) = val_main_v1 (F := F) (m ((c.tc : Thread nD τ).loc main_arg1)) :=
  (Y3_keep m c main_v1 (by decide)).trans ((Y2_keep m c main_v1 (by decide)).trans (Y1_v1 m c))
theorem Y3_v3 (c : Dev nD) : Y3 m c (Proc.devRef .tc main_v3) = val_main_v3 (F := F) (m ((c.tc : Thread nD τ).loc main_arg1)) :=
  (Y3_keep m c main_v3 (by decide)).trans ((Y2_keep m c main_v3 (by decide)).trans (Y1_v3 m c))

/-! ## The first layer -/

set_option maxHeartbeats 20000000 in
theorem Y4_v82 (c : Dev nD) : Y4 m c (Proc.devRef .tc main_v82) = val_main_v82 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) := by
  unfold Y4
  simp only [ops, List.take_succ_cons, List.take_zero, List.drop_succ_cons, List.drop_zero]
  after_results_simp
  simp only [TRef.ofBuf, TRef.toBuf, cast_eq]
  rw [Y3_v13, Y3_v14, Y3_v15, Y3_v10, Y3_v11, Y3_arg m c main_arg2 (by decide), Y3_arg m c main_arg5 (by decide), Y3_arg m c main_arg8 (by decide), Y3_arg m c main_arg9 (by decide)]
  all_goals rfl

set_option maxHeartbeats 20000000 in
theorem Y4_v83 (c : Dev nD) : Y4 m c (Proc.devRef .tc main_v83) = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) := by
  unfold Y4
  simp only [ops, List.take_succ_cons, List.take_zero, List.drop_succ_cons, List.drop_zero]
  after_results_simp
  simp only [TRef.ofBuf, TRef.toBuf, cast_eq]
  rw [Y3_v13, Y3_v14, Y3_v15, Y3_v10, Y3_v11, Y3_arg m c main_arg2 (by decide), Y3_arg m c main_arg5 (by decide), Y3_arg m c main_arg6 (by decide), Y3_arg m c main_arg8 (by decide), Y3_arg m c main_arg9 (by decide)]
  all_goals rfl

set_option maxHeartbeats 20000000 in
theorem Y4_v84 (c : Dev nD) : Y4 m c (Proc.devRef .tc main_v84) = val_main_v84 (F := F) := by
  unfold Y4
  simp only [ops, List.take_succ_cons, List.take_zero, List.drop_succ_cons, List.drop_zero]
  after_results_simp
  all_goals rfl

set_option maxHeartbeats 20000000 in
theorem Y4_keep (c : Dev nD) (b : Ref sig .tc) (hb : b = main_v1 ∨ b = main_v3 ∨ b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11) :
    Y4 m c (Proc.devRef .tc b) = Y3 m c (Proc.devRef .tc b) := by
  unfold Y4
  rcases hb with h | h | h | h | h | h | h | h | h | h | h | h | h | h <;> subst h <;>
    (simp only [ops, List.take_succ_cons, List.take_zero, List.drop_succ_cons, List.drop_zero]; after_results_simp)

theorem Y4_arg (c : Dev nD) (b : Ref sig .tc) (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11) :
    Y4 m c (Proc.devRef .tc b) = m ((c.tc : Thread nD τ).loc b) :=
  (Y4_keep m c b (by rcases hb with h | h | h | h | h | h | h | h | h | h | h | h <;> subst h <;> decide)).trans (Y3_arg m c b hb)

/-! ## The sources' second concatenation -/

theorem Y5_v85 (c : Dev nD) : Y5 m c (Proc.devRef .tc main_v85) = val_main_v85 (F := F) (m ((c.tc : Thread nD τ).loc main_arg1)) := by
  unfold Y5
  simp only [ops, List.take_succ_cons, List.take_zero, List.drop_succ_cons, List.drop_zero]
  after_results_simp
  rw [Y4_keep m c main_v1 (by decide), Y3_v1, Y4_v84]
  all_goals rfl

theorem Y5_keep (c : Dev nD) (b : Ref sig .tc) (hb : b = main_v3 ∨ b = main_v84 ∨ b = main_v82 ∨ b = main_v83 ∨ b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11) :
    Y5 m c (Proc.devRef .tc b) = Y4 m c (Proc.devRef .tc b) := by
  unfold Y5
  rcases hb with h | h | h | h | h | h | h | h | h | h | h | h | h | h | h | h <;> subst h <;>
    (simp only [ops, List.take_succ_cons, List.take_zero, List.drop_succ_cons, List.drop_zero]; after_results_simp)

theorem Y5_arg (c : Dev nD) (b : Ref sig .tc) (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11) :
    Y5 m c (Proc.devRef .tc b) = m ((c.tc : Thread nD τ).loc b) :=
  (Y5_keep m c b (by rcases hb with h | h | h | h | h | h | h | h | h | h | h | h <;> subst h <;> decide)).trans (Y4_arg m c b hb)

/-! ## The destinations' second concatenation and the ones -/

theorem Y6_v86 (c : Dev nD) : Y6 m c (Proc.devRef .tc main_v86) = val_main_v86 (F := F) (m ((c.tc : Thread nD τ).loc main_arg1)) := by
  unfold Y6
  simp only [ops, List.take_succ_cons, List.take_zero, List.drop_succ_cons, List.drop_zero]
  after_results_simp
  rw [Y5_keep m c main_v3 (by decide), Y5_keep m c main_v84 (by decide), Y4_keep m c main_v3 (by decide), Y3_v3, Y4_v84]
  all_goals rfl

theorem Y6_v87 (c : Dev nD) : Y6 m c (Proc.devRef .tc main_v87) = val_main_v87 (F := F) := by
  unfold Y6
  simp only [ops, List.take_succ_cons, List.take_zero, List.drop_succ_cons, List.drop_zero]
  after_results_simp
  all_goals rfl

theorem Y6_keep (c : Dev nD) (b : Ref sig .tc) (hb : b = main_v85 ∨ b = main_v82 ∨ b = main_v83 ∨ b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11) :
    Y6 m c (Proc.devRef .tc b) = Y5 m c (Proc.devRef .tc b) := by
  unfold Y6
  rcases hb with h | h | h | h | h | h | h | h | h | h | h | h | h | h | h <;> subst h <;>
    (simp only [ops, List.take_succ_cons, List.take_zero, List.drop_succ_cons, List.drop_zero]; after_results_simp)

theorem Y6_arg (c : Dev nD) (b : Ref sig .tc) (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11) :
    Y6 m c (Proc.devRef .tc b) = m ((c.tc : Thread nD τ).loc b) :=
  (Y6_keep m c b (by rcases hb with h | h | h | h | h | h | h | h | h | h | h | h <;> subst h <;> decide)).trans (Y5_arg m c b hb)

theorem Y6_v85 (c : Dev nD) : Y6 m c (Proc.devRef .tc main_v85) = val_main_v85 (F := F) (m ((c.tc : Thread nD τ).loc main_arg1)) :=
  (Y6_keep m c main_v85 (by decide)).trans (Y5_v85 m c)
theorem Y6_v82 (c : Dev nD) : Y6 m c (Proc.devRef .tc main_v82) = val_main_v82 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) :=
  (Y6_keep m c main_v82 (by decide)).trans ((Y5_keep m c main_v82 (by decide)).trans (Y4_v82 m c))
theorem Y6_v83 (c : Dev nD) : Y6 m c (Proc.devRef .tc main_v83) = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) :=
  (Y6_keep m c main_v83 (by decide)).trans ((Y5_keep m c main_v83 (by decide)).trans (Y4_v83 m c))

/-! ## The second layer -/

set_option maxHeartbeats 20000000 in
theorem Y7_v154 (c : Dev nD) : Y7 m c (Proc.devRef .tc main_v154) = val_main_v154 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Y7
  simp only [ops, List.take_succ_cons, List.take_zero, List.drop_succ_cons, List.drop_zero]
  after_results_simp
  simp only [TRef.ofBuf, TRef.toBuf, cast_eq]
  rw [Y6_v85, Y6_v86, Y6_v87, Y6_v82, Y6_v83, Y6_arg m c main_arg2 (by decide), Y6_arg m c main_arg7 (by decide), Y6_arg m c main_arg10 (by decide), Y6_arg m c main_arg11 (by decide)]
  all_goals rfl

set_option maxHeartbeats 20000000 in
theorem Y7_arg (c : Dev nD) (b : Ref sig .tc) (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11) :
    Y7 m c (Proc.devRef .tc b) = m ((c.tc : Thread nD τ).loc b) := by
  refine Eq.trans ?_ (Y6_arg m c b hb)
  unfold Y7
  rcases hb with h | h | h | h | h | h | h | h | h | h | h | h <;> subst h <;>
    (simp only [ops, List.take_succ_cons, List.take_zero, List.drop_succ_cons, List.drop_zero]; after_results_simp)

/-! ## The run -/

/-- No operation of the line allocates a buffer. -/
theorem ops_fresh : (ops : List (HloOp τ sig (Elt F))).Forall fun op => op.fresh = ∅ := by
  simp only [List.Forall]; repeat' constructor

/-- On every device, for any float values, from any memory with zero counters: every weakly fair execution of
    @main terminates with the result at the last stage function of the arguments and the arguments unchanged. -/
theorem run : θ_run defs (onTc (τ := τ) (main (F := F))) ⟨m, fun _ => 0, ρ⟩ fun r => ∀ c : Dev nD,
      r.2.mem ((c.tc : Thread nD τ).loc main_v154)
        = val_main_v154 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun r h c => ?_)
    (run_seq scopedRefs_eq scopedSems_eq defs main (fun _ => ops) main_eq (fun _ => ops_sub) m ρ
      (fun _ op hop => (List.forall_iff_forall_mem.mp ops_fresh) op hop))
  have hv : ∀ b : Ref sig .tc, r.2.mem ((c.tc : Thread nD τ).loc b) = Y7 m c (Proc.devRef .tc b) := fun b => by
    rw [← after_ops m c]; exact h c b
  exact ⟨(hv main_v154).trans (Y7_v154 m c),
    (hv main_arg0).trans (Y7_arg m c main_arg0 (by decide)),
    (hv main_arg1).trans (Y7_arg m c main_arg1 (by decide)),
    (hv main_arg2).trans (Y7_arg m c main_arg2 (by decide)),
    (hv main_arg3).trans (Y7_arg m c main_arg3 (by decide)),
    (hv main_arg4).trans (Y7_arg m c main_arg4 (by decide)),
    (hv main_arg5).trans (Y7_arg m c main_arg5 (by decide)),
    (hv main_arg6).trans (Y7_arg m c main_arg6 (by decide)),
    (hv main_arg7).trans (Y7_arg m c main_arg7 (by decide)),
    (hv main_arg8).trans (Y7_arg m c main_arg8 (by decide)),
    (hv main_arg9).trans (Y7_arg m c main_arg9 (by decide)),
    (hv main_arg10).trans (Y7_arg m c main_arg10 (by decide)),
    (hv main_arg11).trans (Y7_arg m c main_arg11 (by decide))⟩

end Cert.ReferenceIdeal.RunHand

end
-- ==== Proof.Spec.lean ====
/-
  The stages of the two-layer graph convolution as functions of arrays, index by index, on the extended reals.

  * `takeRow ids tbl`: row `n` of the result is row `ids n` of the table (an embedding lookup).
  * `rowDot x W`: row `n` of the result is row `n` of `x` times the matrix `W`.
  * `layerNorm x a b g be`: with `y = (x + a) + b` along a row, the row's mean `μ` and its mean squared
    deviation `v`, the entry is `(y - μ) · rsqrt (v + ε) · g + be`.
  Each is the value one stage of the network has at one index; no program is mentioned here.
-/
import Idealize.ShloMosaic.PureOps.Ideal
import Idealize.ShloMosaic.Lib.ValueIdx

noncomputable section

namespace Cert.Spec

open Idealize.ShloMosaic Idealize.ShloMosaic.ValueIdx

/-- node ids as a column -/
abbrev SN1 : Shape := ⟨2, ![50000, 1]⟩
/-- one row of features per node -/
abbrev SND : Shape := ⟨2, ![50000, 128]⟩
/-- the embedding table -/
abbrev SVD : Shape := ⟨2, ![512, 128]⟩
/-- a square weight matrix -/
abbrev SDD : Shape := ⟨2, ![128, 128]⟩
/-- a bias or scale, as one row -/
abbrev S1D : Shape := ⟨2, ![1, 128]⟩

/-- The lookup: row `n` of the result is the table's row number `ids n` (read as a natural number, and taken
    modulo the table's height so that the function is total; under `ids n < 512` the modulus does nothing). -/
def takeRow (ids : SN1.Idx → BitVec 32) (tbl : SVD.Idx → EReal) : SND.Idx → EReal :=
  fun i => tbl (ix2 ⟨(ids (ix2 (i 0) 0)).toNat % 512, Nat.mod_lt _ (by decide)⟩ (i 1))

/-- Row times matrix: entry `(n, j)` is `∑ k, x (n, k) · W (k, j)`. -/
def rowDot (x : SND.Idx → EReal) (W : SDD.Idx → EReal) : SND.Idx → EReal :=
  fun i => ∑ k : Fin 128, x (ix2 (i 0) k) * W (ix2 k (i 1))

/-- The number of features, `128`, as the single-precision word both programs divide by. -/
abbrev c128 : EReal := Ideal.ofBits .f32 0x43000000#32
/-- The layer norm's `ε`: the single-precision word nearest `1e-5`, the same in both programs. -/
abbrev cEps : EReal := Ideal.ofBits .f32 0x3727C5AC#32

/-- The residual sum along row `n`: `(x + a) + b`. -/
def resid (x a : SND.Idx → EReal) (b : S1D.Idx → EReal) (n : Fin 50000) : Fin 128 → EReal :=
  fun k => x (ix2 n k) + a (ix2 n k) + b (ix2 0 k)

/-- A row's mean: its sum divided by `128`. -/
def rowMean (y : Fin 128 → EReal) : EReal := Ideal.div (∑ k : Fin 128, y k) c128

/-- A row's mean squared deviation from its mean. -/
def rowVar (y : Fin 128 → EReal) : EReal :=
  Ideal.div (∑ k : Fin 128, (y k - rowMean y) * (y k - rowMean y)) c128

/-- Residual sum and layer norm: `(y - μ) · rsqrt (v + ε) · g + be` with `y = (x + a) + b` along the row. -/
def layerNorm (x a : SND.Idx → EReal) (b g be : S1D.Idx → EReal) : SND.Idx → EReal :=
  fun i =>
    (resid x a b (i 0) (i 1) - rowMean (resid x a b (i 0))) * Ideal.rsqrt (rowVar (resid x a b (i 0)) + cEps)
      * g (ix2 0 (i 1)) + be (ix2 0 (i 1))

end Cert.Spec

end
-- ==== Proof.R0Value.lean ====
/-
  The lookup region's two output arrays after its ten grid points, as functions of the arrays it enters with.
  Point `t` holds rows `5000 t … 5000 t + 4999`; the body multiplies the one-hot matrix of its 5000 ids (row `p` has
  a one in column `ids p`, zeros elsewhere) with a 512-row table, so row `p` of the product is the table's row `ids p`
  whenever `ids p < 512`: a sum with one non-zero term. The blocks tile the array, so the whole array is the lookup.
-/
import proofs.«405743_j19215683682347_2_alg».proof.Proof.Gen.KernelIdeal.Frame
import proofs.«405743_j19215683682347_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R0Value

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-- The ids column spread along the rows reads, at `(p, k)`, the id of row `p`. -/
theorem ids_spread_apply (v0 : Vec Ideal S5000x1 .i32) (p : Fin 5000) (k : Fin 512) :
    broadcastTo S5000x512 v0 broadcasts_S5000x1_S5000x512 (ix2 p k) = v0 (ix2 p 0) :=
  broadcastTo_apply v0 broadcasts_S5000x1_S5000x512 (ix2 p k) (ix2 p 0) (fun a => match a with
    | ⟨0, _⟩ => by show p.val = if (5000 : Nat) = 1 then 0 else p.val; rw [if_neg (by decide)]
    | ⟨1, _⟩ => by show (0 : Nat) = if (1 : Nat) = 1 then 0 else k.val; rw [if_pos rfl])

/-- The column numbers spread down the rows read, at `(p, k)`, the number `k`. -/
theorem cols_spread_apply (p : Fin 5000) (k : Fin 512) :
    broadcastTo S5000x512 (iota .tc S1x512 32 [1] iota_S1x512_d1_w32) broadcasts_S1x512_S5000x512 (ix2 p k) = BitVec.ofNat 32 k.val := by
  rw [broadcastTo_apply _ broadcasts_S1x512_S5000x512 (ix2 p k) (ix2 0 k) (fun a => match a with
    | ⟨0, _⟩ => by show (0 : Nat) = if (1 : Nat) = 1 then 0 else p.val; rw [if_pos rfl]
    | ⟨1, _⟩ => by show k.val = if (512 : Nat) = 1 then 0 else k.val; rw [if_neg (by decide)])]
  rw [iota_single_apply]

/-- An entry of the one-hot matrix: one where the row's id is the column number, zero elsewhere. -/
theorem onehot_apply (v0 : Vec Ideal S5000x1 .i32) (p : Fin 5000) (k : Fin 512) :
    k0_pay1 (F := Ideal) v0 (ix2 p k) = if v0 (ix2 p 0) = BitVec.ofNat 32 k.val then (1 : EReal) else 0 := by
  unfold k0_pay1
  rw [shapeCast_self]
  rw [truncf_apply, sitofp_apply, extui_apply]
  show FloatOps.sitofp .f32 ((IntOp.cmpi .eq (broadcastTo S5000x512 v0 broadcasts_S5000x1_S5000x512 (ix2 p k)) (broadcastTo S5000x512 (iota .tc S1x512 32 [1] iota_S1x512_d1_w32) broadcasts_S1x512_S5000x512 (ix2 p k))).setWidth 32) = _
  rw [ids_spread_apply, cols_spread_apply]
  show (((((BitVec.ofBool (v0 (ix2 p 0) == BitVec.ofNat 32 k.val)).setWidth 32).toInt : ℝ)) : EReal) = _
  by_cases h : v0 (ix2 p 0) = BitVec.ofNat 32 k.val
  · rw [if_pos h, h, beq_self_eq_true]
    show ((((1#32 : BitVec 32).toInt : ℝ)) : EReal) = 1
    simp
  · rw [if_neg h, beq_eq_false_iff_ne.mpr h]
    show ((((0#32 : BitVec 32).toInt : ℝ)) : EReal) = 0
    simp

/-! The product's index bookkeeping: the left operand is read at (row, contraction), the right at (contraction, column). -/

theorem lhs_axis0 (i : S5000x128.Idx) (q : dot_S5000x512_S512x128_S5000x128_1_0_0_1_n_n.contr.Idx) :
    (dot_S5000x512_S512x128_S5000x128_1_0_0_1_n_n.lhsIdx i q 0).val = (i 0).val := by
  unfold DotDims.lhsIdx
  rw [dif_neg (show ¬(0 : Fin S5000x512.rank) ∈ dot_S5000x512_S512x128_S5000x128_1_0_0_1_n_n.lhsBatch by decide), dif_pos (show (0 : Fin S5000x512.rank) ∈ dot_S5000x512_S512x128_S5000x128_1_0_0_1_n_n.lhsNonContracting by decide)]
  rfl
theorem lhs_axis1 (i : S5000x128.Idx) (q : dot_S5000x512_S512x128_S5000x128_1_0_0_1_n_n.contr.Idx) :
    (dot_S5000x512_S512x128_S5000x128_1_0_0_1_n_n.lhsIdx i q 1).val = (q ⟨0, by decide⟩).val :=
  dot_S5000x512_S512x128_S5000x128_1_0_0_1_n_n.lhsIdx_val_of_single rfl i q
theorem rhs_axis0 (i : S5000x128.Idx) (q : dot_S5000x512_S512x128_S5000x128_1_0_0_1_n_n.contr.Idx) :
    (dot_S5000x512_S512x128_S5000x128_1_0_0_1_n_n.rhsIdx i q 0).val = (q ⟨0, by decide⟩).val :=
  dot_S5000x512_S512x128_S5000x128_1_0_0_1_n_n.rhsIdx_val_of_single rfl i q
theorem rhs_axis1 (i : S5000x128.Idx) (q : dot_S5000x512_S512x128_S5000x128_1_0_0_1_n_n.contr.Idx) :
    (dot_S5000x512_S512x128_S5000x128_1_0_0_1_n_n.rhsIdx i q 1).val = (i 1).val := by
  unfold DotDims.rhsIdx
  rw [dif_neg (show ¬(1 : Fin S512x128.rank) ∈ dot_S5000x512_S512x128_S5000x128_1_0_0_1_n_n.rhsBatch by decide), dif_pos (show (1 : Fin S512x128.rank) ∈ dot_S5000x512_S512x128_S5000x128_1_0_0_1_n_n.rhsNonContracting by decide)]
  rfl

/-- The block product into a zero accumulator, at `(p, q)`: the sum over the 512 columns of the left operand's row `p`
    against the right operand's column `q`. -/
theorem product_apply (A : FVec Ideal S5000x512 .bf16) (T : FVec Ideal S512x128 .bf16) (p : Fin 5000) (q : Fin 128) :
    matmul dot_S5000x512_S512x128_S5000x128_1_0_0_1_n_n none A T (constant (F := Ideal) S5000x128 .f32 0x00000000#32) (ix2 p q)
      = ∑ k : Fin 512, A (ix2 p k) * T (ix2 k q) := by
  simp only [matmul]
  rw [Ideal.matmul_constant_zero_apply, ← Equiv.sum_comp (contrEquiv1 dot_S5000x512_S512x128_S5000x128_1_0_0_1_n_n 512 rfl rfl).symm]
  refine Finset.sum_congr rfl fun k _ => ?_
  have hk := contrEquiv1_symm_val dot_S5000x512_S512x128_S5000x128_1_0_0_1_n_n 512 rfl rfl k
  have el : dot_S5000x512_S512x128_S5000x128_1_0_0_1_n_n.lhsIdx (ix2 p q) ((contrEquiv1 dot_S5000x512_S512x128_S5000x128_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S5000x512_S512x128_S5000x128_1_0_0_1_n_n.rhsIdx (ix2 p q) ((contrEquiv1 dot_S5000x512_S512x128_S5000x128_1_0_0_1_n_n 512 rfl rfl).symm k) = ix2 k q := funext fun a => Fin.ext (by
    match a with
    | ⟨0, _⟩ => exact (rhs_axis0 _ _).trans hk
    | ⟨1, _⟩ => exact rhs_axis1 _ _)
  rw [el, er]

/-- A row of the one-hot matrix against a column of a 512-row table: the sum has one non-zero term, the table's entry in
    the row the id names. -/
theorem onehot_row_sum (v0 : Vec Ideal S5000x1 .i32) (T : FVec Ideal S512x128 .bf16) (p : Fin 5000) (q : Fin 128)
    (h : (v0 (ix2 p 0)).toNat < 512) :
    ∑ k : Fin 512, k0_pay1 (F := Ideal) v0 (ix2 p k) * T (ix2 k q) = T (ix2 ⟨(v0 (ix2 p 0)).toNat, h⟩ q) := by
  rw [Finset.sum_eq_single (⟨(v0 (ix2 p 0)).toNat, h⟩ : Fin 512)]
  · rw [onehot_apply, if_pos (BitVec.eq_of_toNat_eq (by rw [BitVec.toNat_ofNat]; exact (Nat.mod_eq_of_lt (v0 (ix2 p 0)).isLt).symm)), one_mul]
  · intro k _ hk
    rw [onehot_apply, if_neg, zero_mul]
    intro e
    apply hk
    apply Fin.ext
    show k.val = (v0 (ix2 p 0)).toNat
    rw [e, BitVec.toNat_ofNat]
    have := k.isLt
    omega
  · intro hn
    exact absurd (Finset.mem_univ _) hn

/-- The first output's payload at `(p, q)`: the first table's entry in the row the id of row `p` names. -/
theorem pay2_apply (v0 : Vec Ideal S5000x1 .i32) (v9 : Vec Ideal S512x128 .f32) (p : Fin 5000) (q : Fin 128)
    (h : (v0 (ix2 p 0)).toNat < 512) :
    k0_pay2 (F := Ideal) v0 v9 (ix2 p q) = v9 (ix2 ⟨(v0 (ix2 p 0)).toNat, h⟩ q) := by
  unfold k0_pay2
  rw [product_apply, onehot_row_sum v0 _ p q h, truncf_apply]

/-- The second output's payload at `(p, q)`: the second table's entry in the row the id of row `p` names. -/
theorem pay3_apply (v0 : Vec Ideal S5000x1 .i32) (v11 : Vec Ideal S512x128 .f32) (p : Fin 5000) (q : Fin 128)
    (h : (v0 (ix2 p 0)).toNat < 512) :
    k0_pay3 (F := Ideal) v0 v11 (ix2 p q) = v11 (ix2 ⟨(v0 (ix2 p 0)).toNat, h⟩ q) := by
  unfold k0_pay3
  rw [shapeCast_self, truncf_apply, product_apply, onehot_row_sum v0 _ p q h, truncf_apply]

theorem offsets_zero : (![0, 0] : Fin 2 → Nat) = fun _ => 0 := funext fun a => by fin_cases a <;> rfl

/-- The printed index maps over the grid: point `t` takes block `(t, 0)` of the 50000-row arrays and block `(0, 0)` of the
    tables. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The ids window's block at point `t` is rows `5000 t … 5000 t + 4999` of the ids column. -/
theorem ids_block (c : Dev nD) (t : Fin cfg0.N) (p : Fin 5000) (n : Fin 50000) (hn : n.val = 5000 * t.val + p.val) :
    (iblk0 (F := Ideal) V c 0 t : Vec Ideal S5000x1 .i32) (ix2 p 0) = V c main_v35 (ix2 n 0) := by
  obtain ⟨e0, e1, -⟩ := index_facts t
  unfold iblk0
  rw [View.read_apply]
  show V c main_v35 _ = V c main_v35 _
  congr 1
  funext a
  apply Fin.ext
  match a with
  | ⟨0, _⟩ => show win0_0.index t (0 : Fin 2) * 5000 + 1 * p.val = n.val; rw [e0, hn]; omega
  | ⟨1, _⟩ => show win0_0.index t (1 : Fin 2) * 1 + 1 * 0 = 0; rw [e1]

/-- The first table's window holds the whole table at every point. -/
theorem table1_block (c : Dev nD) (t : Fin cfg0.N) (k : Fin 512) (q : Fin 128) :
    (iblk0 (F := Ideal) V c 1 t : Vec Ideal S512x128 .f32) (ix2 k q) = V c main_arg3 (ix2 k q) := by
  obtain ⟨-, -, e0, e1, -⟩ := index_facts t
  unfold iblk0
  rw [View.read_apply]
  show V c main_arg3 _ = V c main_arg3 _
  congr 1
  funext a
  apply Fin.ext
  match a with
  | ⟨0, _⟩ => show win0_1.index t (0 : Fin 2) * 512 + 1 * k.val = k.val; rw [e0]; omega
  | ⟨1, _⟩ => show win0_1.index t (1 : Fin 2) * 128 + 1 * q.val = q.val; rw [e1]; omega

/-- The second table's window holds the whole table at every point. -/
theorem table2_block (c : Dev nD) (t : Fin cfg0.N) (k : Fin 512) (q : Fin 128) :
    (iblk0 (F := Ideal) V c 2 t : Vec Ideal S512x128 .f32) (ix2 k q) = V c main_v34 (ix2 k q) := by
  obtain ⟨-, -, -, -, e0, e1, -⟩ := index_facts t
  unfold iblk0
  rw [View.read_apply]
  show V c main_v34 _ = V c main_v34 _
  congr 1
  funext a
  apply Fin.ext
  match a with
  | ⟨0, _⟩ => show win0_2.index t (0 : Fin 2) * 512 + 1 * k.val = k.val; rw [e0]; omega
  | ⟨1, _⟩ => show win0_2.index t (1 : Fin 2) * 128 + 1 * q.val = q.val; rw [e1]; omega

/-- A grid point's number is below ten. -/
theorem point_lt (t : Fin cfg0.N) : t.val < 10 := lt_of_lt_of_eq t.isLt N_0

/-- The lookup at `(n, q)`, where the id of row `n` is a row number of the table: the modulus does nothing. -/
theorem takeRow_apply (ids : Spec.SN1.Idx → BitVec 32) (tbl : Spec.SVD.Idx → EReal) (n : Fin 50000) (q : Fin 128)
    (h : (ids (ix2 n 0)).toNat < 512) :
    Spec.takeRow ids tbl (ix2 n q) = tbl (ix2 ⟨(ids (ix2 n 0)).toNat, h⟩ q) := by
  unfold Spec.takeRow
  congr 1
  funext a
  apply Fin.ext
  match a with
  | ⟨0, _⟩ => exact Nat.mod_eq_of_lt h
  | ⟨1, _⟩ => rfl

/-- The first payload at `(p, q)` with the id of row `p` and the table's entry named: the form the blocks are put in. -/
theorem pay2_at (v0 : Vec Ideal S5000x1 .i32) (v9 : Vec Ideal S512x128 .f32) (p : Fin 5000) (q : Fin 128)
    (b : BitVec 32) (hb : v0 (ix2 p 0) = b) (h : b.toNat < 512) (y : EReal) (hy : v9 (ix2 ⟨b.toNat, h⟩ q) = y) :
    k0_pay2 (F := Ideal) v0 v9 (ix2 p q) = y := by
  subst hb
  exact (pay2_apply v0 v9 p q h).trans hy

/-- The second payload at `(p, q)` with the id of row `p` and the table's entry named. -/
theorem pay3_at (v0 : Vec Ideal S5000x1 .i32) (v11 : Vec Ideal S512x128 .f32) (p : Fin 5000) (q : Fin 128)
    (b : BitVec 32) (hb : v0 (ix2 p 0) = b) (h : b.toNat < 512) (y : EReal) (hy : v11 (ix2 ⟨b.toNat, h⟩ q) = y) :
    k0_pay3 (F := Ideal) v0 v11 (ix2 p q) = y := by
  subst hb
  exact (pay3_apply v0 v11 p q h).trans hy

/-- What point `t` writes back through window 3 is block `t` of the lookup into the first table. -/
theorem flushed3_eq (c : Dev nD) (hr : ∀ n : Fin 50000, (V c main_v35 (ix2 n 0)).toNat < 512) (t : Fin cfg0.N) :
    (dat0 (F := Ideal) V c).flushed 3 t
      = ((cfg0.win 3).blk t).view.read (Elt Ideal) (Spec.takeRow (V c main_v35) (V c main_arg3)) := by
  show (cfg0.win 3).cut (grid0.coords t) ((dat0 V c).after 3 t) = _
  rw [after0_3]
  unfold out0_3
  rw [View.canon_unit_zero offsets_zero]
  simp only [View.ld_unit_zero (S := S5000x1) offsets_zero, View.ld_unit_zero (S := S512x128) offsets_zero]
  obtain ⟨-, -, -, -, -, -, e0, e1, -⟩ := index_facts t
  have ht := point_lt t
  funext j
  obtain ⟨p, q, rfl⟩ : ∃ (p : Fin 5000) (q : Fin 128), j = ix2 p q := ⟨j 0, j 1, eq_ix2 j⟩
  have hp := p.isLt
  have hq := q.isLt
  show k0_pay2 (F := Ideal) (iblk0 V c 0 t) (iblk0 V c 1 t) (ix2 p q)
    = Spec.takeRow (V c main_v35) (V c main_arg3) (((cfg0.win 3).blk t).view.emb (ix2 p q))
  have hemb : ((cfg0.win 3).blk t).view.emb (ix2 p q) = (ix2 (⟨5000 * t.val + p.val, by omega⟩ : Fin 50000) q : S50000x128.Idx) := by
    funext a
    apply Fin.ext
    match a with
    | ⟨0, _⟩ => show win0_3.index t (0 : Fin 2) * 5000 + 1 * p.val = 5000 * t.val + p.val; rw [e0]; omega
    | ⟨1, _⟩ => show win0_3.index t (1 : Fin 2) * 128 + 1 * q.val = q.val; rw [e1]; omega
  rw [hemb, takeRow_apply _ _ _ q (hr _)]
  exact pay2_at _ _ p q _ (ids_block V c t p ⟨5000 * t.val + p.val, by omega⟩ rfl) (hr _) _ (table1_block V c t _ q)

/-- What point `t` writes back through window 4 is block `t` of the lookup into the second table. -/
theorem flushed4_eq (c : Dev nD) (hr : ∀ n : Fin 50000, (V c main_v35 (ix2 n 0)).toNat < 512) (t : Fin cfg0.N) :
    (dat0 (F := Ideal) V c).flushed 4 t
      = ((cfg0.win 4).blk t).view.read (Elt Ideal) (Spec.takeRow (V c main_v35) (V c main_v34)) := by
  show (cfg0.win 4).cut (grid0.coords t) ((dat0 V c).after 4 t) = _
  rw [after0_4]
  unfold out0_4
  rw [View.canon_unit_zero offsets_zero]
  simp only [View.ld_unit_zero (S := S5000x1) offsets_zero, View.ld_unit_zero (S := S512x128) offsets_zero]
  obtain ⟨-, -, -, -, -, -, -, -, e0, e1⟩ := index_facts t
  have ht := point_lt t
  funext j
  obtain ⟨p, q, rfl⟩ : ∃ (p : Fin 5000) (q : Fin 128), j = ix2 p q := ⟨j 0, j 1, eq_ix2 j⟩
  have hp := p.isLt
  have hq := q.isLt
  show k0_pay3 (F := Ideal) (iblk0 V c 0 t) (iblk0 V c 2 t) (ix2 p q)
    = Spec.takeRow (V c main_v35) (V c main_v34) (((cfg0.win 4).blk t).view.emb (ix2 p q))
  have hemb : ((cfg0.win 4).blk t).view.emb (ix2 p q) = (ix2 (⟨5000 * t.val + p.val, by omega⟩ : Fin 50000) q : S50000x128.Idx) := by
    funext a
    apply Fin.ext
    match a with
    | ⟨0, _⟩ => show win0_4.index t (0 : Fin 2) * 5000 + 1 * p.val = 5000 * t.val + p.val; rw [e0]; omega
    | ⟨1, _⟩ => show win0_4.index t (1 : Fin 2) * 128 + 1 * q.val = q.val; rw [e1]; omega
  rw [hemb, takeRow_apply _ _ _ q (hr _)]
  exact pay3_at _ _ p q _ (ids_block V c t p ⟨5000 * t.val + p.val, by omega⟩ rfl) (hr _) _ (table2_block V c t _ q)

/-- An index of the first output array is in point `t`'s block iff each coordinate is in the block's range on its axis. -/
theorem mem_block3 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v36_0).slice (win0_3.rect t)).set ↔ _
  rw [View.set_slice_whole, Rect.mem_set_unit]
  exact Iff.rfl

/-- The same for the second output array. -/
theorem mem_block4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v36_1).slice (win0_4.rect t)).set ↔ _
  rw [View.set_slice_whole, Rect.mem_set_unit]
  exact Iff.rfl

/-- Every index of the first output array is in the block of the point its row number divided by 5000 names. -/
theorem cover3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : (i 0).val / 5000 < cfg0.N := lt_of_lt_of_eq (show (i 0).val / 5000 < 10 by omega) N_0.symm
  refine ⟨⟨(i 0).val / 5000, hN⟩, flush0_3 _, ?_⟩
  obtain ⟨-, -, -, -, -, -, e0, e1, -⟩ := index_facts ⟨(i 0).val / 5000, hN⟩
  rw [mem_block3]
  intro a
  match a with
  | ⟨0, _⟩ =>
    show win0_3.index ⟨(i 0).val / 5000, hN⟩ (0 : Fin 2) * 5000 ≤ (i 0).val ∧ (i 0).val < win0_3.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win0_3.index ⟨(i 0).val / 5000, hN⟩ (1 : Fin 2) * 128 ≤ (i 1).val ∧ (i 1).val < win0_3.index ⟨(i 0).val / 5000, hN⟩ (1 : Fin 2) * 128 + 128
    rw [e1]
    omega

/-- The same for the second output array. -/
theorem cover4 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : (i 0).val / 5000 < cfg0.N := lt_of_lt_of_eq (show (i 0).val / 5000 < 10 by omega) N_0.symm
  refine ⟨⟨(i 0).val / 5000, hN⟩, flush0_4 _, ?_⟩
  obtain ⟨-, -, -, -, -, -, -, -, e0, e1⟩ := index_facts ⟨(i 0).val / 5000, hN⟩
  rw [mem_block4]
  intro a
  match a with
  | ⟨0, _⟩ =>
    show win0_4.index ⟨(i 0).val / 5000, hN⟩ (0 : Fin 2) * 5000 ≤ (i 0).val ∧ (i 0).val < win0_4.index ⟨(i 0).val / 5000, hN⟩ (0 : Fin 2) * 5000 + 5000
    rw [e0]
    show (i 0).val / 5000 * 5000 ≤ (i 0).val ∧ (i 0).val < (i 0).val / 5000 * 5000 + 5000
    omega
  | ⟨1, _⟩ =>
    show win0_4.index ⟨(i 0).val / 5000, hN⟩ (1 : Fin 2) * 128 ≤ (i 1).val ∧ (i 1).val < win0_4.index ⟨(i 0).val / 5000, hN⟩ (1 : Fin 2) * 128 + 128
    rw [e1]
    omega

/-- The looked-up embeddings: output window 3 ends at the table's rows taken by the ids. -/
theorem arr3 (c : Dev nD) (hr : ∀ n : Fin 50000, (V c main_v35 (ix2 n 0)).toNat < 512) :
    (dat0 (F := Ideal) V c).arrAt 3 cfg0.N = Spec.takeRow (V c main_v35) (V c main_arg3) :=
  (dat0 (F := Ideal) V c).arrAt_eq_of_cover 3 (Spec.takeRow (V c main_v35) (V c main_arg3))
    (fun t _ => flushed3_eq V c hr t) cover3

/-- The same lookup into the second table (the embeddings already multiplied by the first weight matrix): window 4. -/
theorem arr4 (c : Dev nD) (hr : ∀ n : Fin 50000, (V c main_v35 (ix2 n 0)).toNat < 512) :
    (dat0 (F := Ideal) V c).arrAt 4 cfg0.N = Spec.takeRow (V c main_v35) (V c main_v34) :=
  (dat0 (F := Ideal) V c).arrAt_eq_of_cover 4 (Spec.takeRow (V c main_v35) (V c main_v34))
    (fun t _ => flushed4_eq V c hr t) cover4

end Cert.KernelIdeal.R0Value

end
-- ==== Proof.R1Value.lean ====
/-
  The first residual-layer-norm region's two output arrays after its ten grid points, as functions of the arrays
  it enters with. Point `t` holds rows `5000 t … 5000 t + 4999`; every operation of the body acts along a row, so a
  row of the output depends on the same row of the two inputs and on the three one-row parameters: the layer norm of
  `(x + a) + b`, and (second output) that row times the weight matrix. The blocks tile the array.
-/
import proofs.«405743_j19215683682347_2_alg».proof.Proof.Gen.KernelIdeal.Frame
import proofs.«405743_j19215683682347_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1Value

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## Layout: a column kept by a row reduction -/

section Layout
variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The body's payload at an index -/

/-- A lane sum kept as a column: entry `(p, u)` is the sum of row `p`. -/
theorem rowSum_at (v : FVec Ideal S5000x128 .f32) (hr : S5000x128.Reduces [1] S5000) (hφ : FKind.Formats .f32)
    (hacc : (0x00000000#32 : BitVec 32) = 0x00000000#32) (hc : S5000.ShapeCasts S5000x1) (p : Fin 5000) (u : Fin 1) :
    shapeCast S5000x1 (multiReduction (F := Ideal) .add [1] S5000 v 0x00000000#32 hr hφ hacc) hc (ix2 p u)
      = ∑ k : Fin 128, v (ix2 p k) := by
  refine (shapeCast_a_a1_apply _ hc p u).trans ?_
  refine (Ideal.multiReduction_add_single v 0x00000000#32 hr hφ hacc (ix1 p)).trans ?_
  refine Finset.sum_congr rfl fun k _ => congrArg v ?_
  funext c
  apply Fin.ext
  match c with
  | ⟨0, _⟩ => rfl
  | ⟨1, _⟩ => rfl

/-- The mean kept as a column: entry `(p, u)` is the mean of row `p`. -/
theorem rowMean_at (v : FVec Ideal S5000x128 .f32) (hr : S5000x128.Reduces [1] S5000) (hφ : FKind.Formats .f32)
    (hacc : (0x00000000#32 : BitVec 32) = 0x00000000#32) (hc : S5000.ShapeCasts S5000x1) (p : Fin 5000) (u : Fin 1)
    (y : Fin 128 → EReal) (hy : ∀ k, v (ix2 p k) = y k) :
    divf (shapeCast S5000x1 (multiReduction (F := Ideal) .add [1] S5000 v 0x00000000#32 hr hφ hacc) hc)
        (broadcast S5000x1 (Scalar.ofBits (F := Ideal) .f32 0x43000000#32)) (ix2 p u)
      = Ideal.div (∑ k : Fin 128, y k) Spec.c128 := by
  refine (divf_apply _ _ _).trans ?_
  refine congrArg₂ Ideal.div ?_ rfl
  refine (rowSum_at v hr hφ hacc hc p u).trans ?_
  exact Finset.sum_congr rfl fun k _ => hy k

/-- The reciprocal square root at an index. -/
theorem rsqrt_at {s : Shape} (v : FVec Ideal s .f32) (i : s.Idx) : rsqrt v i = Ideal.rsqrt (v i) := rfl

/-- A row's entries less the row's mean. -/
theorem centered_at (v : FVec Ideal S5000x128 .f32) (hr : S5000x128.Reduces [1] S5000) (hφ : FKind.Formats .f32)
    (hacc : (0x00000000#32 : BitVec 32) = 0x00000000#32) (hc : S5000.ShapeCasts S5000x1) (hb : S5000x1.Broadcasts S5000x128)
    (p : Fin 5000) (q : Fin 128) (y : Fin 128 → EReal) (hy : ∀ k, v (ix2 p k) = y k) :
    subf v (broadcastTo S5000x128
        (divf (shapeCast S5000x1 (multiReduction (F := Ideal) .add [1] S5000 v 0x00000000#32 hr hφ hacc) hc)
          (broadcast S5000x1 (Scalar.ofBits (F := Ideal) .f32 0x43000000#32))) hb) (ix2 p q)
      = y q - Spec.rowMean y := by
  refine (subf_apply _ _ _).trans ?_
  refine congrArg₂ (· - ·) (hy q) ?_
  refine (broadcastTo_a1_ab_apply _ hb p q).trans ?_
  exact rowMean_at v hr hφ hacc hc p 0 y hy

/-- The reciprocal standard deviation kept as a column, from the centred entries. -/
theorem rstd_at (d : FVec Ideal S5000x128 .f32) (hr : S5000x128.Reduces [1] S5000) (hφ : FKind.Formats .f32)
    (hacc : (0x00000000#32 : BitVec 32) = 0x00000000#32) (hc : S5000.ShapeCasts S5000x1)
    (p : Fin 5000) (u : Fin 1) (y : Fin 128 → EReal) (hd : ∀ k, d (ix2 p k) = y k - Spec.rowMean y) :
    rsqrt (addf
        (divf (shapeCast S5000x1 (multiReduction (F := Ideal) .add [1] S5000 (mulf d d) 0x00000000#32 hr hφ hacc) hc)
          (broadcast S5000x1 (Scalar.ofBits (F := Ideal) .f32 0x43000000#32)))
        (broadcast S5000x1 (Scalar.ofBits (F := Ideal) .f32 0x3727C5AC#32))) (ix2 p u)
      = Ideal.rsqrt (Spec.rowVar y + Spec.cEps) := by
  refine (rsqrt_at _ _).trans (congrArg Ideal.rsqrt ?_)
  refine (addf_apply _ _ _).trans ?_
  refine congrArg₂ (· + ·) ?_ rfl
  exact rowMean_at (mulf d d) hr hφ hacc hc p u (fun k => (y k - Spec.rowMean y) * (y k - Spec.rowMean y))
    fun k => (mulf_apply d d _).trans (congrArg₂ (· * ·) (hd k) (hd k))

/-- A one-row parameter, cast to its own shape and broadcast over the rows, at an index. -/
theorem rowParam_at (g : Vec Ideal S1x128 .f32) (hs : S1x128.ShapeCasts S1x128) (hb : S1x128.Broadcasts S5000x128)
    (p : Fin 5000) (q : Fin 128) :
    broadcastTo S5000x128 (shapeCast S1x128 g hs) hb (ix2 p q) = g (ix2 0 q) :=
  (broadcastTo_1b_ab_apply _ hb p q).trans (congrFun (shapeCast_self g hs) _)

/-- The residual sum `(x + a) + b` at an index. -/
theorem resid_at (x a : Vec Ideal S5000x128 .f32) (b : Vec Ideal S1x128 .f32) (hs : S5000x128.ShapeCasts S5000x128)
    (hs1 : S1x128.ShapeCasts S1x128) (hb : S1x128.Broadcasts S5000x128) (p : Fin 5000) (k : Fin 128) :
    addf (F := Ideal) (addf (shapeCast S5000x128 x hs : FVec Ideal S5000x128 .f32) (shapeCast S5000x128 a hs : FVec Ideal S5000x128 .f32))
        (broadcastTo S5000x128 (shapeCast S1x128 b hs1 : FVec Ideal S1x128 .f32) hb) (ix2 p k)
      = x (ix2 p k) + a (ix2 p k) + b (ix2 0 k) := by
  refine (addf_apply _ _ _).trans (congrArg₂ (· + ·) ?_ (rowParam_at b hs1 hb p k))
  refine (addf_apply _ _ _).trans (congrArg₂ (· + ·) ?_ ?_)
  · exact congrFun (shapeCast_self x hs) _
  · exact congrFun (shapeCast_self a hs) _

/-- The first output's payload at `(p, q)`: the layer norm of the residual sum along row `p` of the blocks. -/
theorem pay2_at (x a : Vec Ideal S5000x128 .f32) (b g be : Vec Ideal S1x128 .f32) (p : Fin 5000) (q : Fin 128)
    (y : Fin 128 → EReal) (hy : ∀ k, x (ix2 p k) + a (ix2 p k) + b (ix2 0 k) = y k) :
    k1_pay2 (F := Ideal) x a b g be (ix2 p q)
      = (y q - Spec.rowMean y) * Ideal.rsqrt (Spec.rowVar y + Spec.cEps) * g (ix2 0 q) + be (ix2 0 q) := by
  have h8 := fun k => (resid_at x a b Facts₀.shapeCasts_S5000x128_S5000x128 Facts₀.shapeCasts_S1x128_S1x128
    Facts₀.broadcasts_S1x128_S5000x128 p k).trans (hy k)
  unfold k1_pay2
  refine (addf_apply _ _ _).trans (congrArg₂ (· + ·) ?_ (rowParam_at be _ _ p q))
  refine (mulf_apply _ _ _).trans (congrArg₂ (· * ·) ?_ (rowParam_at g _ _ p q))
  refine (mulf_apply _ _ _).trans (congrArg₂ (· * ·) ?_ ?_)
  · exact centered_at _ _ _ _ _ _ p q y h8
  · refine (broadcastTo_a1_ab_apply _ _ p q).trans ?_
    exact rstd_at _ _ _ _ _ p 0 y fun k => centered_at _ _ _ _ _ _ p k y h8

/-- The first output at rows of the arrays: where row `p` of the two blocks is row `r` of the two arrays and the
    one-row parameters are the arrays', the payload at `(p, q)` is the layer norm of the arrays at `(r, q)`. -/
theorem pay2_rows (X A : Spec.SND.Idx → EReal) (B G BE : Spec.S1D.Idx → EReal)
    (x a : Vec Ideal S5000x128 .f32) (b g be : Vec Ideal S1x128 .f32) (p : Fin 5000) (r : Fin 50000)
    (hx : ∀ k : Fin 128, x (ix2 p k) = X (ix2 r k)) (ha : ∀ k : Fin 128, a (ix2 p k) = A (ix2 r k))
    (hb : ∀ k : Fin 128, b (ix2 0 k) = B (ix2 0 k)) (hg : ∀ k : Fin 128, g (ix2 0 k) = G (ix2 0 k))
    (hbe : ∀ k : Fin 128, be (ix2 0 k) = BE (ix2 0 k)) (q : Fin 128) :
    k1_pay2 (F := Ideal) x a b g be (ix2 p q) = Spec.layerNorm X A B G BE (ix2 r q) := by
  refine (pay2_at x a b g be p q (Spec.resid X A B r) fun k => ?_).trans ?_
  · show _ = X (ix2 r k) + A (ix2 r k) + B (ix2 0 k)
    rw [hx, ha, hb]
  · rw [hg, hbe]; rfl

/-! ## The second output: the layer norm's rows times the weight matrix -/

/-- The product's left index keeps the result's row. -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The product's left index runs along the contraction on its second axis. -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The product's right index runs along the contraction on its first axis. -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- The product's right index keeps the result's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The second output's payload at `(p, q)`: row `p` of the first output's payload times column `q` of the weights. -/
theorem pay1_at (w : Vec Ideal S128x128 .f32) (x a : Vec Ideal S5000x128 .f32) (b g be : Vec Ideal S1x128 .f32)
    (p : Fin 5000) (q : Fin 128) (L : Fin 128 → EReal) (hL : ∀ k, k1_pay2 (F := Ideal) x a b g be (ix2 p k) = L k) :
    k1_pay1 (F := Ideal) (k1_pay3 w) (k1_pay4 x a b g be) (ix2 p q) = ∑ k : Fin 128, L k * w (ix2 k q) := by
  unfold k1_pay1
  refine (truncf_apply (φ := .f32) (ψ := .bf16) _ Facts₀.bitsLt_bf16_f32 (ix2 p q)).trans ?_
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact lhs_axis0 _ _
      | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (rhs_axis0 _ _).trans hk
      | ⟨1, _⟩ => exact rhs_axis1 _ _)
  rw [el, er]
  show k1_pay2 (F := Ideal) x a b g be (ix2 p k) * w (ix2 k q) = L k * w (ix2 k q)
  rw [hL]

/-- The second output at rows of the arrays. -/
theorem pay1_rows (X A : Spec.SND.Idx → EReal) (B G BE : Spec.S1D.Idx → EReal) (W : Spec.SDD.Idx → EReal)
    (w : Vec Ideal S128x128 .f32) (x a : Vec Ideal S5000x128 .f32) (b g be : Vec Ideal S1x128 .f32) (p : Fin 5000) (r : Fin 50000)
    (hx : ∀ k : Fin 128, x (ix2 p k) = X (ix2 r k)) (ha : ∀ k : Fin 128, a (ix2 p k) = A (ix2 r k))
    (hb : ∀ k : Fin 128, b (ix2 0 k) = B (ix2 0 k)) (hg : ∀ k : Fin 128, g (ix2 0 k) = G (ix2 0 k))
    (hbe : ∀ k : Fin 128, be (ix2 0 k) = BE (ix2 0 k)) (hw : ∀ k q : Fin 128, w (ix2 k q) = W (ix2 k q)) (q : Fin 128) :
    k1_pay1 (F := Ideal) (k1_pay3 w) (k1_pay4 x a b g be) (ix2 p q)
      = Spec.rowDot (Spec.layerNorm X A B G BE) W (ix2 r q) := by
  refine (pay1_at w x a b g be p q (fun k => Spec.layerNorm X A B G BE (ix2 r k))
    fun k => pay2_rows X A B G BE x a b g be p r hx ha hb hg hbe k).trans ?_
  show _ = ∑ k : Fin 128, Spec.layerNorm X A B G BE (ix2 r k) * W (ix2 k q)
  exact Finset.sum_congr rfl fun k _ => by rw [hw]

/-! ## From blocks to the arrays -/

-- the TensorCore's buffer contents when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the row windows move with the point, the small operands stay at block (0, 0). -/
theorem index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0)
    ∧ (win1_7.index t (0 : Fin 2) = t.val ∧ win1_7.index t (1 : Fin 2) = 0) :=
  (by decide +kernel : ∀ t : Fin grid1.N, _)

/-- Block `t` of the first row input: row `p` of the block is row `5000 t + p` of the array. -/
theorem iblk_x (c : Dev nD) (t : Fin cfg1.N) (p : Fin 5000) (k : Fin 128) (r : Fin 50000) (hr : r.val = 5000 * t.val + p.val) :
    (iblk1 V c 0 t : Vec Ideal S5000x128 .f32) (ix2 p k) = (V c main_v36_0 : S50000x128.Idx → EReal) (ix2 r k) := by
  obtain ⟨⟨e0, e1⟩, -⟩ := index_facts t
  unfold iblk1
  rw [View.read_apply]
  show V c main_v36_0 _ = V c main_v36_0 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Block `t` of the second row input: row `p` of the block is row `5000 t + p` of the array. -/
theorem iblk_a (c : Dev nD) (t : Fin cfg1.N) (p : Fin 5000) (k : Fin 128) (r : Fin 50000) (hr : r.val = 5000 * t.val + p.val) :
    (iblk1 V c 1 t : Vec Ideal S5000x128 .f32) (ix2 p k) = (V c main_v50 : S50000x128.Idx → EReal) (ix2 r k) := by
  obtain ⟨-, ⟨e0, e1⟩, -⟩ := index_facts t
  unfold iblk1
  rw [View.read_apply]
  show V c main_v50 _ = V c main_v50 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- The bias window's block at any point is the whole one-row array. -/
theorem iblk_b (c : Dev nD) (t : Fin cfg1.N) (k : Fin 128) :
    (iblk1 V c 2 t : Vec Ideal S1x128 .f32) (ix2 0 k) = (V c main_v51 : S1x128.Idx → EReal) (ix2 0 k) := by
  obtain ⟨-, -, ⟨e0, e1⟩, -⟩ := index_facts t
  unfold iblk1
  rw [View.read_apply]
  show V c main_v51 _ = V c main_v51 _
  congr 1
  funext a
  apply Fin.ext
  match a with
  | ⟨0, _⟩ => show win1_2.index t (0 : Fin 2) * 1 + 1 * 0 = 0; rw [e0]
  | ⟨1, _⟩ => show win1_2.index t (1 : Fin 2) * 128 + 1 * k.val = k.val; rw [e1]; omega

/-- The scale window's block at any point is the whole one-row array. -/
theorem iblk_g (c : Dev nD) (t : Fin cfg1.N) (k : Fin 128) :
    (iblk1 V c 3 t : Vec Ideal S1x128 .f32) (ix2 0 k) = (V c main_v52 : S1x128.Idx → EReal) (ix2 0 k) := by
  obtain ⟨-, -, -, ⟨e0, e1⟩, -⟩ := index_facts t
  unfold iblk1
  rw [View.read_apply]
  show V c main_v52 _ = V c main_v52 _
  congr 1
  funext a
  apply Fin.ext
  match a with
  | ⟨0, _⟩ => show win1_3.index t (0 : Fin 2) * 1 + 1 * 0 = 0; rw [e0]
  | ⟨1, _⟩ => show win1_3.index t (1 : Fin 2) * 128 + 1 * k.val = k.val; rw [e1]; omega

/-- The shift window's block at any point is the whole one-row array. -/
theorem iblk_be (c : Dev nD) (t : Fin cfg1.N) (k : Fin 128) :
    (iblk1 V c 4 t : Vec Ideal S1x128 .f32) (ix2 0 k) = (V c main_v53 : S1x128.Idx → EReal) (ix2 0 k) := by
  obtain ⟨-, -, -, -, ⟨e0, e1⟩, -⟩ := index_facts t
  unfold iblk1
  rw [View.read_apply]
  show V c main_v53 _ = V c main_v53 _
  congr 1
  funext a
  apply Fin.ext
  match a with
  | ⟨0, _⟩ => show win1_4.index t (0 : Fin 2) * 1 + 1 * 0 = 0; rw [e0]
  | ⟨1, _⟩ => show win1_4.index t (1 : Fin 2) * 128 + 1 * k.val = k.val; rw [e1]; omega

/-- The weight window's block at any point is the whole matrix. -/
theorem iblk_w (c : Dev nD) (t : Fin cfg1.N) (k q : Fin 128) :
    (iblk1 V c 5 t : Vec Ideal S128x128 .f32) (ix2 k q) = (V c main_arg6 : S128x128.Idx → EReal) (ix2 k q) := by
  obtain ⟨-, -, -, -, -, ⟨e0, e1⟩, -⟩ := index_facts t
  unfold iblk1
  rw [View.read_apply]
  show V c main_arg6 _ = V c main_arg6 _
  congr 1
  funext a
  apply Fin.ext
  match a with
  | ⟨0, _⟩ => show win1_5.index t (0 : Fin 2) * 128 + 1 * k.val = k.val; rw [e0]; omega
  | ⟨1, _⟩ => show win1_5.index t (1 : Fin 2) * 128 + 1 * q.val = q.val; rw [e1]; omega

/-- Where the first output's block `t` sits in its array: its `(p, q)` is the array's `(5000 t + p, q)`. -/
theorem emb_out6 (t : Fin cfg1.N) (p : Fin 5000) (q : Fin 128) (r : Fin 50000) (hr : r.val = 5000 * t.val + p.val) :
    ((cfg1.win 6).blk t).view.emb (ix2 p q : S5000x128.Idx) = (ix2 r q : S50000x128.Idx) := by
  obtain ⟨-, -, -, -, -, -, ⟨e0, e1⟩, -⟩ := index_facts t
  funext a
  apply Fin.ext
  match a with
  | ⟨0, _⟩ => show win1_6.index t (0 : Fin 2) * 5000 + 1 * p.val = r.val; rw [e0, hr]; omega
  | ⟨1, _⟩ => show win1_6.index t (1 : Fin 2) * 128 + 1 * q.val = q.val; rw [e1]; omega

/-- What point `t` writes back through the first output window: block `t` of the layer norm of the arrays the region finds. -/
theorem flushed6_eq (c : Dev nD) (t : Fin cfg1.N) :
    (dat1 (F := Ideal) V c).flushed 6 t = ((cfg1.win 6).blk t).view.read (Elt Ideal)
      (Spec.layerNorm (V c main_v36_0) (V c main_v50) (V c main_v51) (V c main_v52) (V c main_v53)) := by
  show (cfg1.win 6).cut (grid1.coords t) ((dat1 V c).after 6 t) = _
  rw [after1_6]
  unfold out1_6
  rw [View.canon_unit_zero zero_offsets]
  simp only [View.ld_unit_zero (S := S5000x128) zero_offsets, View.ld_unit_zero (S := S1x128) zero_offsets]
  have ht : t.val < 10 := lt_of_lt_of_eq t.isLt (N_1 : cfg1.N = 10)
  have key : (k1_pay2 (F := Ideal) (iblk1 V c 0 t) (iblk1 V c 1 t) (iblk1 V c 2 t) (iblk1 V c 3 t) (iblk1 V c 4 t) : S5000x128.Idx → EReal)
      = fun j : S5000x128.Idx => Spec.layerNorm (V c main_v36_0) (V c main_v50) (V c main_v51) (V c main_v52) (V c main_v53)
          (((cfg1.win 6).blk t).view.emb j) := by
    funext j
    obtain ⟨p, q, rfl⟩ : ∃ (p : Fin 5000) (q : Fin 128), j = ix2 p q := ⟨j 0, j 1, eq_ix2 j⟩
    have hp : p.val < 5000 := p.isLt
    rw [emb_out6 t p q ⟨5000 * t.val + p.val, by omega⟩ rfl]
    exact pay2_rows _ _ _ _ _ _ _ _ _ _ p ⟨5000 * t.val + p.val, by omega⟩
      (fun k => iblk_x V c t p k _ rfl) (fun k => iblk_a V c t p k _ rfl)
      (fun k => iblk_b V c t k) (fun k => iblk_g V c t k) (fun k => iblk_be V c t k) q
  exact key

/-- An index of the first output's array is in point `t`'s block iff each coordinate is in the block's range on its axis. -/
theorem mem_blk6 (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v54_0).slice (win1_6.rect t)).set ↔ _
  rw [View.set_slice_whole, Rect.mem_set_unit]
  exact Iff.rfl

/-- Every index of the first output's array is in the block of the point its row falls in. -/
theorem cover6 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega) (N_1 : cfg1.N = 10).symm⟩, rfl⟩
  obtain ⟨-, -, -, -, -, -, ⟨e0, e1⟩, -⟩ := index_facts t
  refine ⟨t, flush1_6 t, ?_⟩
  rw [mem_blk6]
  intro a
  match a with
  | ⟨0, _⟩ =>
    show win1_6.index t (0 : Fin 2) * 5000 ≤ (i 0).val ∧ (i 0).val < win1_6.index t (0 : Fin 2) * 5000 + 5000
    rw [e0, ht]; omega
  | ⟨1, _⟩ =>
    show win1_6.index t (1 : Fin 2) * 128 ≤ (i 1).val ∧ (i 1).val < win1_6.index t (1 : Fin 2) * 128 + 128
    rw [e1]; omega

/-- Output window 6: the residual layer norm of the lookup and the aggregation. -/
theorem arr6 (c : Dev nD) :
    (dat1 (F := Ideal) V c).arrAt 6 cfg1.N
      = Spec.layerNorm (V c main_v36_0) (V c main_v50) (V c main_v51) (V c main_v52) (V c main_v53) :=
  (dat1 (F := Ideal) V c).arrAt_eq_of_cover 6 _ (fun t _ => flushed6_eq V c t) cover6

/-- Where the second output's block `t` sits in its array: its `(p, q)` is the array's `(5000 t + p, q)`. -/
theorem emb_out7 (t : Fin cfg1.N) (p : Fin 5000) (q : Fin 128) (r : Fin 50000) (hr : r.val = 5000 * t.val + p.val) :
    ((cfg1.win 7).blk t).view.emb (ix2 p q : S5000x128.Idx) = (ix2 r q : S50000x128.Idx) := by
  obtain ⟨-, -, -, -, -, -, -, ⟨e0, e1⟩⟩ := index_facts t
  funext a
  apply Fin.ext
  match a with
  | ⟨0, _⟩ => show win1_7.index t (0 : Fin 2) * 5000 + 1 * p.val = r.val; rw [e0, hr]; omega
  | ⟨1, _⟩ => show win1_7.index t (1 : Fin 2) * 128 + 1 * q.val = q.val; rw [e1]; omega

/-- What point `t` writes back through the second output window: block `t` of the layer norm's rows times the weights. -/
theorem flushed7_eq (c : Dev nD) (t : Fin cfg1.N) :
    (dat1 (F := Ideal) V c).flushed 7 t = ((cfg1.win 7).blk t).view.read (Elt Ideal)
      (Spec.rowDot (Spec.layerNorm (V c main_v36_0) (V c main_v50) (V c main_v51) (V c main_v52) (V c main_v53)) (V c main_arg6)) := by
  show (cfg1.win 7).cut (grid1.coords t) ((dat1 V c).after 7 t) = _
  rw [after1_7]
  unfold out1_7
  rw [View.canon_unit_zero zero_offsets]
  simp only [View.ld_unit_zero (S := S5000x128) zero_offsets, View.ld_unit_zero (S := S1x128) zero_offsets,
    View.ld_unit_zero (S := S128x128) zero_offsets]
  have ht : t.val < 10 := lt_of_lt_of_eq t.isLt (N_1 : cfg1.N = 10)
  have key : (k1_pay1 (F := Ideal) (k1_pay3 (iblk1 V c 5 t))
        (k1_pay4 (iblk1 V c 0 t) (iblk1 V c 1 t) (iblk1 V c 2 t) (iblk1 V c 3 t) (iblk1 V c 4 t)) : S5000x128.Idx → EReal)
      = fun j : S5000x128.Idx => Spec.rowDot
          (Spec.layerNorm (V c main_v36_0) (V c main_v50) (V c main_v51) (V c main_v52) (V c main_v53)) (V c main_arg6)
          (((cfg1.win 7).blk t).view.emb j) := by
    funext j
    obtain ⟨p, q, rfl⟩ : ∃ (p : Fin 5000) (q : Fin 128), j = ix2 p q := ⟨j 0, j 1, eq_ix2 j⟩
    have hp : p.val < 5000 := p.isLt
    rw [emb_out7 t p q ⟨5000 * t.val + p.val, by omega⟩ rfl]
    exact pay1_rows _ _ _ _ _ _ _ _ _ _ _ _ p ⟨5000 * t.val + p.val, by omega⟩
      (fun k => iblk_x V c t p k _ rfl) (fun k => iblk_a V c t p k _ rfl)
      (fun k => iblk_b V c t k) (fun k => iblk_g V c t k) (fun k => iblk_be V c t k)
      (fun k q => iblk_w V c t k q) q
  exact key

/-- An index of the second output's array is in point `t`'s block iff each coordinate is in the block's range on its axis. -/
theorem mem_blk7 (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v54_1).slice (win1_7.rect t)).set ↔ _
  rw [View.set_slice_whole, Rect.mem_set_unit]
  exact Iff.rfl

/-- Every index of the second output's array is in the block of the point its row falls in. -/
theorem cover7 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega) (N_1 : cfg1.N = 10).symm⟩, rfl⟩
  obtain ⟨-, -, -, -, -, -, -, ⟨e0, e1⟩⟩ := index_facts t
  refine ⟨t, flush1_7 t, ?_⟩
  rw [mem_blk7]
  intro a
  match a with
  | ⟨0, _⟩ =>
    show win1_7.index t (0 : Fin 2) * 5000 ≤ (i 0).val ∧ (i 0).val < win1_7.index t (0 : Fin 2) * 5000 + 5000
    rw [e0, ht]; omega
  | ⟨1, _⟩ =>
    show win1_7.index t (1 : Fin 2) * 128 ≤ (i 1).val ∧ (i 1).val < win1_7.index t (1 : Fin 2) * 128 + 128
    rw [e1]; omega

/-- Output window 7: that layer norm's rows times the second weight matrix. -/
theorem arr7 (c : Dev nD) :
    (dat1 (F := Ideal) V c).arrAt 7 cfg1.N
      = Spec.rowDot (Spec.layerNorm (V c main_v36_0) (V c main_v50) (V c main_v51) (V c main_v52) (V c main_v53)) (V c main_arg6) :=
  (dat1 (F := Ideal) V c).arrAt_eq_of_cover 7 _ (fun t _ => flushed7_eq V c t) cover7

end Cert.KernelIdeal.R1Value

end
-- ==== Proof.R2Value.lean ====
/-
  The second residual-layer-norm region's output array after its ten grid points, as a function of the arrays it
  enters with. Point `t` holds rows `5000 t … 5000 t + 4999`; every operation of the body acts along a row: the
  layer norm of `(x + a) + b`. The blocks tile the array.
-/
import proofs.«405743_j19215683682347_2_alg».proof.Proof.Gen.KernelIdeal.Frame
import proofs.«405743_j19215683682347_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R2Value

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## The layout operations of the body, read at an index -/

/-- A column read back from a vector of row values: `[a] → [a, 1]` at `(p, u)` is the operand at `p`. -/
theorem colCast_apply (v : FVec Ideal S5000 .f32) (h : S5000.ShapeCasts S5000x1) (p : Fin 5000) (u : Fin 1) :
    shapeCast S5000x1 v h (ix2 p u) = v (ix1 p) :=
  shapeCast_apply v h _ _ (by
    have hu : u.val = 0 := by omega
    rw [Shape.rowMajor_val_one, Shape.rowMajor_val_two]
    show p.val = p.val * 1 + u.val
    omega)

/-- A column spread along the rows: `[a, 1] → [a, b]` at `(p, q)` is the operand at `(p, 0)`. -/
theorem colBroadcast_apply (v : FVec Ideal S5000x1 .f32) (h : S5000x1.Broadcasts S5000x128) (p : Fin 5000) (q : Fin 128) :
    broadcastTo S5000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The sum along a row: the lane reduction at row `p` is the sum over the row's 128 entries. -/
theorem rowSum_apply (v : FVec Ideal S5000x128 .f32) (h : S5000x128.Reduces [1] S5000) (hφ : FKind.Formats .f32)
    (hacc : (0x00000000#32 : BitVec 32) = 0x00000000#32) (p : Fin 5000) :
    multiReduction (F := Ideal) .add [1] S5000 v 0x00000000#32 h hφ hacc (ix1 p) = ∑ k : Fin 128, v (ix2 p k) := by
  refine (Ideal.multiReduction_add_single v 0x00000000#32 h hφ hacc (ix1 p)).trans ?_
  refine Finset.sum_congr rfl fun k _ => congrArg v ?_
  funext a
  apply Fin.ext
  match a with
  | ⟨0, _⟩ => rfl
  | ⟨1, _⟩ => rfl

/-- The reciprocal square root acts entry by entry. -/
theorem rsqrt_apply {s : Shape} {φ : FTy} (v : FVec Ideal s φ) (i : s.Idx) : rsqrt v i = Ideal.rsqrt (v i) := rfl

/-! ## The body's payload at an index -/

/-- The body's payload at `(p, q)` is the layer norm of row `p` of `(x + a) + b`, read at lane `q`. -/
theorem pay_apply (x a : Vec Ideal S5000x128 .f32) (b g be : Vec Ideal S1x128 .f32) (p : Fin 5000) (q : Fin 128) :
    k2_pay1 (F := Ideal) x a b g be (ix2 p q)
      = ((x (ix2 p q) + a (ix2 p q) + b (ix2 0 q)) - Spec.rowMean (fun k => x (ix2 p k) + a (ix2 p k) + b (ix2 0 k)))
          * Ideal.rsqrt (Spec.rowVar (fun k => x (ix2 p k) + a (ix2 p k) + b (ix2 0 k)) + Spec.cEps)
          * g (ix2 0 q) + be (ix2 0 q) := by
  unfold k2_pay1
  simp only [shapeCast_self, addf_apply, subf_apply, mulf_apply, divf_apply, broadcast_apply, rsqrt_apply,
    broadcastTo_1b_ab_apply, colBroadcast_apply, colCast_apply]
  rw [rowSum_apply, rowSum_apply]
  simp only [addf_apply, subf_apply, mulf_apply, divf_apply, broadcast_apply,
    broadcastTo_1b_ab_apply, colBroadcast_apply, colCast_apply]
  rw [rowSum_apply]
  simp only [addf_apply, broadcastTo_1b_ab_apply]
  rfl

/-! ## The blocks of the windows, read off the arrays -/

theorem off_zero : (![0, 0] : Fin 2 → Nat) = fun _ => 0 :=
  funext fun a => match a with | ⟨0, _⟩ => rfl | ⟨1, _⟩ => rfl

/-- The printed index maps over the grid: the row windows move with the point, the one-row operands stay. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of point `t`'s block is row `5000 t + p` of the array. -/
theorem row_lt (t : Fin cfg2.N) (p : Fin 5000) : 5000 * t.val + p.val < 50000 := by
  have ht : t.val < 10 := Nat.lt_of_lt_of_eq t.isLt N_2
  omega

/-- Window 0's block at point `t`: rows `5000 t …` of `x`. -/
theorem iblk_x (c : Dev nD) (t : Fin cfg2.N) (p : Fin 5000) (q : Fin 128) :
    (iblk2 (F := Ideal) V c 0 t : Vec Ideal S5000x128 .f32) (ix2 p q)
      = (V c main_v54_0 : S50000x128.Idx → EReal) (ix2 ⟨5000 * t.val + p.val, row_lt t p⟩ q) := by
  obtain ⟨e0, e1, -⟩ := index_facts t
  unfold iblk2
  rw [View.read_apply]
  show V c main_v54_0 _ = V c main_v54_0 _
  congr 1
  funext a
  apply Fin.ext
  match a with
  | ⟨0, _⟩ => show win2_0.index t 0 * 5000 + 1 * p.val = 5000 * t.val + p.val; rw [e0]; omega
  | ⟨1, _⟩ => show win2_0.index t 1 * 128 + 1 * q.val = q.val; rw [e1]; omega

/-- Window 1's block at point `t`: rows `5000 t …` of the aggregation. -/
theorem iblk_a (c : Dev nD) (t : Fin cfg2.N) (p : Fin 5000) (q : Fin 128) :
    (iblk2 (F := Ideal) V c 1 t : Vec Ideal S5000x128 .f32) (ix2 p q)
      = (V c main_v68 : S50000x128.Idx → EReal) (ix2 ⟨5000 * t.val + p.val, row_lt t p⟩ q) := by
  obtain ⟨-, -, e0, e1, -⟩ := index_facts t
  unfold iblk2
  rw [View.read_apply]
  show V c main_v68 _ = V c main_v68 _
  congr 1
  funext a
  apply Fin.ext
  match a with
  | ⟨0, _⟩ => show win2_1.index t 0 * 5000 + 1 * p.val = 5000 * t.val + p.val; rw [e0]; omega
  | ⟨1, _⟩ => show win2_1.index t 1 * 128 + 1 * q.val = q.val; rw [e1]; omega

/-- Window 2's block is the whole bias row. -/
theorem iblk_b (c : Dev nD) (t : Fin cfg2.N) (u : Fin 1) (q : Fin 128) :
    (iblk2 (F := Ideal) V c 2 t : Vec Ideal S1x128 .f32) (ix2 u q) = (V c main_v69 : S1x128.Idx → EReal) (ix2 u q) := by
  obtain ⟨-, -, -, -, e0, e1, -⟩ := index_facts t
  unfold iblk2
  rw [View.read_apply]
  show V c main_v69 _ = V c main_v69 _
  congr 1
  funext a
  apply Fin.ext
  match a with
  | ⟨0, _⟩ => show win2_2.index t 0 * 1 + 1 * u.val = u.val; rw [e0]; omega
  | ⟨1, _⟩ => show win2_2.index t 1 * 128 + 1 * q.val = q.val; rw [e1]; omega

/-- Window 3's block is the whole scale row. -/
theorem iblk_g (c : Dev nD) (t : Fin cfg2.N) (u : Fin 1) (q : Fin 128) :
    (iblk2 (F := Ideal) V c 3 t : Vec Ideal S1x128 .f32) (ix2 u q) = (V c main_v70 : S1x128.Idx → EReal) (ix2 u q) := by
  obtain ⟨-, -, -, -, -, -, e0, e1, -⟩ := index_facts t
  unfold iblk2
  rw [View.read_apply]
  show V c main_v70 _ = V c main_v70 _
  congr 1
  funext a
  apply Fin.ext
  match a with
  | ⟨0, _⟩ => show win2_3.index t 0 * 1 + 1 * u.val = u.val; rw [e0]; omega
  | ⟨1, _⟩ => show win2_3.index t 1 * 128 + 1 * q.val = q.val; rw [e1]; omega

/-- Window 4's block is the whole shift row. -/
theorem iblk_be (c : Dev nD) (t : Fin cfg2.N) (u : Fin 1) (q : Fin 128) :
    (iblk2 (F := Ideal) V c 4 t : Vec Ideal S1x128 .f32) (ix2 u q) = (V c main_v71 : S1x128.Idx → EReal) (ix2 u q) := by
  obtain ⟨-, -, -, -, -, -, -, -, e0, e1, -⟩ := index_facts t
  unfold iblk2
  rw [View.read_apply]
  show V c main_v71 _ = V c main_v71 _
  congr 1
  funext a
  apply Fin.ext
  match a with
  | ⟨0, _⟩ => show win2_4.index t 0 * 1 + 1 * u.val = u.val; rw [e0]; omega
  | ⟨1, _⟩ => show win2_4.index t 1 * 128 + 1 * q.val = q.val; rw [e1]; omega

/-! ## What a point writes back -/

/-- Point `t` writes back block `t` of the layer norm of the arrays the region enters with. -/
theorem flushed_eq (c : Dev nD) (t : Fin cfg2.N) :
    (dat2 (F := Ideal) V c).flushed 5 t
      = ((cfg2.win 5).blk t).view.read (Elt Ideal)
          (Spec.layerNorm (V c main_v54_0) (V c main_v68) (V c main_v69) (V c main_v70) (V c main_v71)) := by
  show (cfg2.win 5).cut (grid2.coords t) ((dat2 (F := Ideal) V c).after 5 t) = _
  rw [after2_5]
  unfold out2_5
  rw [View.canon_unit_zero off_zero]
  simp only [View.ld_unit_zero (S := S5000x128) off_zero, View.ld_unit_zero (S := S1x128) off_zero]
  obtain ⟨-, -, -, -, -, -, -, -, -, -, e0, e1⟩ := index_facts t
  funext j
  obtain ⟨p, q, rfl⟩ : ∃ (p : Fin 5000) (q : Fin 128), j = ix2 p q := ⟨j 0, j 1, eq_ix2 j⟩
  have hi : ((cfg2.win 5).blk t).view.emb (ix2 p q) = (ix2 ⟨5000 * t.val + p.val, row_lt t p⟩ q : S50000x128.Idx) := by
    funext a
    apply Fin.ext
    match a with
    | ⟨0, _⟩ => show win2_5.index t 0 * 5000 + 1 * p.val = 5000 * t.val + p.val; rw [e0]; omega
    | ⟨1, _⟩ => show win2_5.index t 1 * 128 + 1 * q.val = q.val; rw [e1]; omega
  rw [View.read_apply, hi]
  refine (pay_apply _ _ _ _ _ p q).trans ?_
  simp only [iblk_x, iblk_a, iblk_b, iblk_g, iblk_be]
  rfl

/-! ## The blocks tile the array -/

/-- An index of the array is in point `t`'s block iff each coordinate is in the block's range on its axis. -/
theorem mem_blk (t : Fin cfg2.N) (i : S50000x128.Idx) :
    i ∈ ((cfg2.win 5).blk t).view.set
      ↔ ∀ a : Fin 2, win2_5.index t a * S5000x128.size a ≤ (i a).val
          ∧ (i a).val < win2_5.index t a * S5000x128.size a + S5000x128.size a := by
  show i ∈ ((View.whole main_v72).slice (win2_5.rect t)).set ↔ _
  rw [View.set_slice_whole, Rect.mem_set_unit]
  exact Iff.rfl

/-- Row `r` lies in the block of point `r / 5000`. -/
theorem covered (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, -, -, -, -, -, -, e0, e1⟩ := index_facts t
  have ht : t.val = (i 0).val / 5000 := rfl
  refine ⟨t, flush2_5 t, ?_⟩
  rw [mem_blk]
  intro a
  match a with
  | ⟨0, _⟩ =>
    show win2_5.index t 0 * 5000 ≤ (i 0).val ∧ (i 0).val < win2_5.index t 0 * 5000 + 5000
    rw [e0, ht]; omega
  | ⟨1, _⟩ =>
    show win2_5.index t 1 * 128 ≤ (i 1).val ∧ (i 1).val < win2_5.index t 1 * 128 + 128
    rw [e1]; omega

/-- Output window 5: the residual layer norm of the first layer's output and the second aggregation. -/
theorem arr5 (c : Dev nD) :
    (dat2 (F := Ideal) V c).arrAt 5 cfg2.N
      = Spec.layerNorm (V c main_v54_0) (V c main_v68) (V c main_v69) (V c main_v70) (V c main_v71) :=
  (dat2 (F := Ideal) V c).arrAt_eq_of_cover 5
    (Spec.layerNorm (V c main_v54_0) (V c main_v68) (V c main_v69) (V c main_v70) (V c main_v71))
    (fun t _ => flushed_eq V c t) (fun i => covered i)

end Cert.KernelIdeal.R2Value

end
-- ==== Proof.Chain.lean ====
/-
  The graph aggregation as ONE function of the gathered messages, and the whole network as a composition of stages.

  Both programs aggregate in the same way. From the edge list they take the sources and the destinations, each with
  the self loops `0 … 49999` appended (`rowF`, `colF`), and from the edge weights the weights with ones appended
  (`ewF`). The degree of a node is the sum of the weights of the edges arriving at it (`deg`); `dis` is
  `deg^(-1/2)` where the degree is positive (guarded below by `1e-12`) and zero elsewhere; an edge's normalised weight
  is `dis[src] · w · dis[dst]` (`norm`; an index is wrapped once by the number of nodes when negative, `wrap`). The
  aggregation scales the gathered row of every edge by that weight and adds it into the destination's row
  (`aggCore`, a function of the gathered rows; `agg h` gathers the sources' rows of `h` first).
  These are spelt with the host operations themselves and never opened: the two programs feed them equal arrays.

  `final` is the network: lookup, then twice (product with a weight matrix, aggregation, residual layer norm).
-/
import proofs.«405743_j19215683682347_2_alg».proof.Proof.Gen.KernelIdeal
import proofs.«405743_j19215683682347_2_alg».proof.Proof.Spec

noncomputable section

namespace Cert.Chain

open Cert.KernelIdeal Cert.KernelIdeal.Gen Idealize.ShloMosaic Idealize.ShloMosaic.ValueIdx

section Generic

variable {F : FTy → Type} [FloatOps F]

/-- The edges' sources, the self loops appended. -/
def rowF (ei : (⟨S2x600000, .i32⟩ : BufTy).Contents (Elt F)) : (⟨S650000, .i32⟩ : BufTy).Contents (Elt F) :=
  concatenate S650000 0
    [⟨S600000, shapeCast S600000 (extractStridedSlice S1x600000 ![0, 0] ei slices_S2x600000_S1x600000_0_0) shapeCasts_S1x600000_S600000⟩,
     ⟨S50000, iotaInDim S50000 32 0⟩] concatenates_S600000_S50000_S650000_d0

/-- The edges' destinations, the self loops appended. -/
def colF (ei : (⟨S2x600000, .i32⟩ : BufTy).Contents (Elt F)) : (⟨S650000, .i32⟩ : BufTy).Contents (Elt F) :=
  concatenate S650000 0
    [⟨S600000, shapeCast S600000 (extractStridedSlice S1x600000 ![1, 0] ei slices_S2x600000_S1x600000_1_0) shapeCasts_S1x600000_S600000⟩,
     ⟨S50000, iotaInDim S50000 32 0⟩] concatenates_S600000_S50000_S650000_d0

/-- The edge weights, a one appended for every self loop. -/
def ewF (ew : (⟨S600000, .f32⟩ : BufTy).Contents (Elt F)) : (⟨S650000, .f32⟩ : BufTy).Contents (Elt F) :=
  concatenate S650000 0
    [⟨S600000, ew⟩, ⟨S50000, broadcastInDim S50000 ![] bcast_S_S50000 (constant S_ .f32 0x3F800000#32)⟩]
    concatenates_S600000_S50000_S650000_d0

/-- A node's degree: the sum of the weights of the edges arriving at it. -/
def deg (ei : (⟨S2x600000, .i32⟩ : BufTy).Contents (Elt F)) (ew : (⟨S600000, .f32⟩ : BufTy).Contents (Elt F)) : (⟨S50000, .f32⟩ : BufTy).Contents (Elt F) :=
  Host.scatterAdd scatter_S50000_S650000x1_S650000_n_0_0_1
    (broadcastInDim S50000 ![] bcast_S_S50000 (constant S_ .f32 0x00000000#32))
    (broadcastInDim S650000x1 ![0] bcast_S650000_S650000x1_0 (colF ei)) (ewF ew)

/-- `deg^(-1/2)` where the degree is positive (the degree guarded below by `1e-12`), zero elsewhere. -/
def dis (ei : (⟨S2x600000, .i32⟩ : BufTy).Contents (Elt F)) (ew : (⟨S600000, .f32⟩ : BufTy).Contents (Elt F)) : (⟨S50000, .f32⟩ : BufTy).Contents (Elt F) :=
  select (cmpf .ogt (deg ei ew) (broadcastInDim S50000 ![] bcast_S_S50000 (constant S_ .f32 0x00000000#32)))
    (Host.rsqrt (maximumf (deg ei ew) (broadcastInDim S50000 ![] bcast_S_S50000 (constant S_ .f32 0x2B8CBCCC#32))))
    (broadcastInDim S50000 ![] bcast_S_S50000 (id (constant S_ .f32 0x00000000#32)))

/-- An index vector as a gather takes it: a negative index moved up by the number of nodes, as a column. -/
def wrap (v : (⟨S650000, .i32⟩ : BufTy).Contents (Elt F)) : (⟨S650000x1, .i32⟩ : BufTy).Contents (Elt F) :=
  broadcastInDim S650000x1 ![0] bcast_S650000_S650000x1_0
    (select (cmpi .slt v (broadcastInDim S650000 ![] bcast_S_S650000 (constantI S_ 32 0#32)))
      (addi v (broadcastInDim S650000 ![] bcast_S_S650000 (constantI S_ 32 50000#32))) v)

/-- An edge's normalised weight: `dis[src] · w · dis[dst]`. -/
def norm (ei : (⟨S2x600000, .i32⟩ : BufTy).Contents (Elt F)) (ew : (⟨S600000, .f32⟩ : BufTy).Contents (Elt F)) : (⟨S650000, .f32⟩ : BufTy).Contents (Elt F) :=
  mulf (mulf (Host.gather gather_S50000_S650000x1_S650000_n_0_n_n_0_1_1 (dis ei ew) (wrap (rowF ei))) (ewF ew))
    (Host.gather gather_S50000_S650000x1_S650000_n_0_n_n_0_1_1 (dis ei ew) (wrap (colF ei)))

/-- Scale every edge's gathered row `g` by the edge's normalised weight and add it into the destination's row. -/
def aggCore (g : (⟨S650000x128, .f32⟩ : BufTy).Contents (Elt F)) (ei : (⟨S2x600000, .i32⟩ : BufTy).Contents (Elt F)) (ew : (⟨S600000, .f32⟩ : BufTy).Contents (Elt F)) :
    (⟨S50000x128, .f32⟩ : BufTy).Contents (Elt F) :=
  Host.scatterAdd scatter_S50000x128_S650000x1_S650000x128_1_0_0_1
    (broadcastInDim S50000x128 ![] bcast_S_S50000x128 (constant S_ .f32 0x00000000#32))
    (broadcastInDim S650000x1 ![0] bcast_S650000_S650000x1_0 (colF ei))
    (mulf (broadcastInDim S650000x128 ![0, 1] bcast_S650000x1_S650000x128_0_1
        (broadcastInDim S650000x1 ![0] bcast_S650000_S650000x1_0 (norm ei ew))) g)

end Generic

/-- The aggregation of `h`: gather the sources' rows, then `aggCore`:
    `out[d] = ∑_{e : dst e = d} norm e · h[src e]`. -/
def agg (h : (⟨S50000x128, .f32⟩ : BufTy).Contents (Elt Ideal)) (ei : (⟨S2x600000, .i32⟩ : BufTy).Contents (Elt Ideal)) (ew : (⟨S600000, .f32⟩ : BufTy).Contents (Elt Ideal)) :
    (⟨S50000x128, .f32⟩ : BufTy).Contents (Elt Ideal) :=
  aggCore (F := Ideal) (Host.gather gather_S50000x128_S650000x1_S650000x128_1_0_n_n_0_1_1128 h (wrap (F := Ideal) (rowF (F := Ideal) ei))) ei ew

/-- A vector of `128` numbers read as a one-row matrix. -/
def row (v : (⟨S128, .f32⟩ : BufTy).Contents (Elt Ideal)) : Spec.S1D.Idx → EReal := fun i => v (ix1 (i 1))

/-- A vector of node ids read as a one-column matrix. -/
def col (ids : (⟨S50000, .i32⟩ : BufTy).Contents (Elt Ideal)) : Spec.SN1.Idx → BitVec 32 := fun i => ids (ix1 (i 0))

/-- The first layer's output: lookup `x`, product with `W1`, aggregation, residual layer norm. -/
def layer1 (ids : (⟨S50000, .i32⟩ : BufTy).Contents (Elt Ideal)) (ei : (⟨S2x600000, .i32⟩ : BufTy).Contents (Elt Ideal)) (ew : (⟨S600000, .f32⟩ : BufTy).Contents (Elt Ideal))
    (emb : (⟨S512x128, .f32⟩ : BufTy).Contents (Elt Ideal)) (W1 : (⟨S128x128, .f32⟩ : BufTy).Contents (Elt Ideal)) (b1 g1 be1 : (⟨S128, .f32⟩ : BufTy).Contents (Elt Ideal)) :
    Spec.SND.Idx → EReal :=
  Spec.layerNorm (Spec.takeRow (col ids) emb) (agg (Spec.rowDot (Spec.takeRow (col ids) emb) W1) ei ew) (row b1) (row g1) (row be1)

/-- The network's result: the second layer applied to the first layer's output. -/
def final (ids : (⟨S50000, .i32⟩ : BufTy).Contents (Elt Ideal)) (ei : (⟨S2x600000, .i32⟩ : BufTy).Contents (Elt Ideal)) (ew : (⟨S600000, .f32⟩ : BufTy).Contents (Elt Ideal))
    (emb : (⟨S512x128, .f32⟩ : BufTy).Contents (Elt Ideal)) (W1 : (⟨S128x128, .f32⟩ : BufTy).Contents (Elt Ideal)) (b1 : (⟨S128, .f32⟩ : BufTy).Contents (Elt Ideal))
    (W2 : (⟨S128x128, .f32⟩ : BufTy).Contents (Elt Ideal)) (b2 g1 be1 g2 be2 : (⟨S128, .f32⟩ : BufTy).Contents (Elt Ideal)) : Spec.SND.Idx → EReal :=
  Spec.layerNorm (layer1 ids ei ew emb W1 b1 g1 be1)
    (agg (Spec.rowDot (layer1 ids ei ew emb W1 b1 g1 be1) W2) ei ew) (row b2) (row g2) (row be2)

end Cert.Chain

end
-- ==== Proof.KernelFold.lean ====
/-
  The kernel program's result array is the network's specification of its arguments.

  The program is three kernel regions among stretches of host operations. Walking back from the result: the last
  region leaves the layer norm of its entry arrays; those are the second region's first output, untouched since, and
  the aggregation the host formed from the second region's second output; and so on back to the launch. What each
  region leaves of its entry arrays is the three region modules'; what each host stretch computes is read off the
  stretch one operation at a time, at any float family; an array no operation of a stretch writes is what it was.
  On the extended reals a half-precision array read in single precision is the same array, and a lookup into the
  table already multiplied by the first weight matrix is the lookup times that matrix.
-/
import proofs.«405743_j19215683682347_2_alg».proof.Proof.Gen.KernelIdeal.Frame
import proofs.«405743_j19215683682347_2_alg».proof.Proof.R0Value
import proofs.«405743_j19215683682347_2_alg».proof.Proof.R1Value
import proofs.«405743_j19215683682347_2_alg».proof.Proof.R2Value
import proofs.«405743_j19215683682347_2_alg».proof.Proof.Chain
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo

section Host

variable {F : FTy → Type} [FloatOps F]
variable (m : (ℓ : Loc nD τ sig) → Buf (Elt F) ℓ) (ρ : Dev nD → PrngReg)

/-! ## The first stretch, cut before each of its three concatenations

A concatenation's two operands are read where the operation stands; cutting the stretch just before it makes them
contents of a boundary, which the earlier part has already named. -/

/-- After the slices, the reshapes and the iota (five operations). -/
def U1 (c : Dev nD) : Valuation τ sig (Elt F) := after ((hostOps0 (F := F)).take 5) (W0 m ρ c)
/-- After the sources' concatenation. -/
def U2 (c : Dev nD) : Valuation τ sig (Elt F) := after (((hostOps0 (F := F)).drop 5).take 1) (U1 m ρ c)
/-- After the destinations' concatenation and the ones. -/
def U3 (c : Dev nD) : Valuation τ sig (Elt F) := after (((hostOps0 (F := F)).drop 6).take 3) (U2 m ρ c)

theorem W1_eq (c : Dev nD) : W1 m ρ c = after ((hostOps0 (F := F)).drop 9) (U3 m ρ c) := by
  unfold U3 U2 U1; rfl

theorem U1_v1 (c : Dev nD) : U1 m ρ c (Proc.devRef .tc main_v1)
    = shapeCast S600000 (extractStridedSlice S1x600000 ![0, 0] (m ((c.tc : Thread nD τ).loc main_arg1)) slices_S2x600000_S1x600000_0_0) shapeCasts_S1x600000_S600000 := by
  unfold U1
  simp only [hostOps0, List.take_succ_cons, List.take_zero]
  after_results_simp <;> rfl

theorem U1_v3 (c : Dev nD) : U1 m ρ c (Proc.devRef .tc main_v3)
    = shapeCast S600000 (extractStridedSlice S1x600000 ![1, 0] (m ((c.tc : Thread nD τ).loc main_arg1)) slices_S2x600000_S1x600000_1_0) shapeCasts_S1x600000_S600000 := by
  unfold U1
  simp only [hostOps0, List.take_succ_cons, List.take_zero]
  after_results_simp <;> rfl

theorem U1_v4 (c : Dev nD) : U1 m ρ c (Proc.devRef .tc main_v4) = iotaInDim S50000 32 0 := by
  unfold U1
  simp only [hostOps0, List.take_succ_cons, List.take_zero]
  after_results_simp <;> rfl

theorem U1_arg2 (c : Dev nD) : U1 m ρ c (Proc.devRef .tc main_arg2) = (m ((c.tc : Thread nD τ).loc main_arg2)) := by
  unfold U1
  simp only [hostOps0, List.take_succ_cons, List.take_zero]
  after_results_simp <;> rfl

theorem U2_v5 (c : Dev nD) : U2 m ρ c (Proc.devRef .tc main_v5) = Chain.rowF (m ((c.tc : Thread nD τ).loc main_arg1)) := by
  unfold U2
  simp only [hostOps0, List.take_succ_cons, List.take_zero, List.drop_succ_cons, List.drop_zero]
  after_results_simp
  rw [U1_v1, U1_v4]
  rfl

theorem U2_v3 (c : Dev nD) : U2 m ρ c (Proc.devRef .tc main_v3) = U1 m ρ c (Proc.devRef .tc main_v3) := by
  unfold U2
  simp only [hostOps0, List.take_succ_cons, List.take_zero, List.drop_succ_cons, List.drop_zero]
  after_results_simp <;> rfl

theorem U2_v4 (c : Dev nD) : U2 m ρ c (Proc.devRef .tc main_v4) = U1 m ρ c (Proc.devRef .tc main_v4) := by
  unfold U2
  simp only [hostOps0, List.take_succ_cons, List.take_zero, List.drop_succ_cons, List.drop_zero]
  after_results_simp <;> rfl

theorem U2_arg2 (c : Dev nD) : U2 m ρ c (Proc.devRef .tc main_arg2) = U1 m ρ c (Proc.devRef .tc main_arg2) := by
  unfold U2
  simp only [hostOps0, List.take_succ_cons, List.take_zero, List.drop_succ_cons, List.drop_zero]
  after_results_simp <;> rfl

theorem U3_v6 (c : Dev nD) : U3 m ρ c (Proc.devRef .tc main_v6) = Chain.colF (m ((c.tc : Thread nD τ).loc main_arg1)) := by
  unfold U3
  simp only [hostOps0, List.take_succ_cons, List.take_zero, List.drop_succ_cons, List.drop_zero]
  after_results_simp
  rw [U2_v3, U2_v4, U1_v3, U1_v4]
  rfl

theorem U3_v5 (c : Dev nD) : U3 m ρ c (Proc.devRef .tc main_v5) = Chain.rowF (m ((c.tc : Thread nD τ).loc main_arg1)) := by
  unfold U3
  simp only [hostOps0, List.take_succ_cons, List.take_zero, List.drop_succ_cons, List.drop_zero]
  after_results_simp
  exact U2_v5 m ρ c

theorem U3_v7 (c : Dev nD) : U3 m ρ c (Proc.devRef .tc main_v7)
    = broadcastInDim S50000 ![] bcast_S_S50000 (constant S_ .f32 0x3F800000#32) := by
  unfold U3
  simp only [hostOps0, List.take_succ_cons, List.take_zero, List.drop_succ_cons, List.drop_zero]
  after_results_simp <;> rfl

theorem U3_arg2 (c : Dev nD) : U3 m ρ c (Proc.devRef .tc main_arg2) = (m ((c.tc : Thread nD τ).loc main_arg2)) := by
  unfold U3
  simp only [hostOps0, List.take_succ_cons, List.take_zero, List.drop_succ_cons, List.drop_zero]
  after_results_simp
  rw [U2_arg2, U1_arg2]

/-! ## The rest of the first stretch: the weights, the degree, its guard and inverse square root

Each boundary's contents are kept behind a name (`X1`, `X2`, `X3`), so that reading a later stretch stops at them. -/

/-- The contents after the first stretch. -/
def X1 (c : Dev nD) : Valuation τ sig (Elt F) := W1 m ρ c
/-- The contents after the outlined `where`. -/
def X2 (c : Dev nD) : Valuation τ sig (Elt F) := after hostOps0_1 (X1 m ρ c)
/-- The contents at the first region's entry. -/
def X3 (c : Dev nD) : Valuation τ sig (Elt F) := after hostOps0_2 (X2 m ρ c)

theorem X1_eq (c : Dev nD) : X1 m ρ c = after ((hostOps0 (F := F)).drop 9) (U3 m ρ c) := W1_eq m ρ c
theorem W3_eq (c : Dev nD) : W3 m ρ c = X3 m ρ c := rfl

theorem X1_v5 (c : Dev nD) : X1 m ρ c (Proc.devRef .tc main_v5) = Chain.rowF (m ((c.tc : Thread nD τ).loc main_arg1)) := by
  rw [X1_eq]
  simp only [hostOps0, List.drop_succ_cons, List.drop_zero]
  after_results_simp
  exact U3_v5 m ρ c

theorem X1_v6 (c : Dev nD) : X1 m ρ c (Proc.devRef .tc main_v6) = Chain.colF (m ((c.tc : Thread nD τ).loc main_arg1)) := by
  rw [X1_eq]
  simp only [hostOps0, List.drop_succ_cons, List.drop_zero]
  after_results_simp
  exact U3_v6 m ρ c

theorem X1_v8 (c : Dev nD) : X1 m ρ c (Proc.devRef .tc main_v8) = Chain.ewF (m ((c.tc : Thread nD τ).loc main_arg2)) := by
  rw [X1_eq]
  simp only [hostOps0, List.drop_succ_cons, List.drop_zero]
  after_results_simp
  rw [U3_arg2, U3_v7]
  rfl

theorem X1_v13 (c : Dev nD) : X1 m ρ c (Proc.devRef .tc main_v13)
    = cmpf .ogt (Chain.deg (m ((c.tc : Thread nD τ).loc main_arg1)) (m ((c.tc : Thread nD τ).loc main_arg2))) (broadcastInDim S50000 ![] bcast_S_S50000 (constant S_ .f32 0x00000000#32)) := by
  rw [X1_eq]
  simp only [hostOps0, List.drop_succ_cons, List.drop_zero]
  after_results_simp
  rw [U3_arg2, U3_v7, U3_v6]
  rfl

theorem X1_v16 (c : Dev nD) : X1 m ρ c (Proc.devRef .tc main_v16)
    = Host.rsqrt (maximumf (Chain.deg (m ((c.tc : Thread nD τ).loc main_arg1)) (m ((c.tc : Thread nD τ).loc main_arg2))) (broadcastInDim S50000 ![] bcast_S_S50000 (constant S_ .f32 0x2B8CBCCC#32))) := by
  rw [X1_eq]
  simp only [hostOps0, List.drop_succ_cons, List.drop_zero]
  after_results_simp
  rw [U3_arg2, U3_v7, U3_v6]
  rfl

theorem X1_cst3 (c : Dev nD) : X1 m ρ c (Proc.devRef .tc main_cst_3) = constant S_ .f32 0x00000000#32 := by
  rw [X1_eq]
  simp only [hostOps0, List.drop_succ_cons, List.drop_zero]
  after_results_simp <;> rfl

/-- An argument array is what was launched: no operation of the first stretch writes it. -/
theorem X1_arg (c : Dev nD) (b : Ref sig .tc) (hb : b = main_arg0 ∨ b = main_arg1 ∨ b = main_arg2 ∨ b = main_arg3 ∨ b = main_arg4
    ∨ b = main_arg5 ∨ b = main_arg6 ∨ b = main_arg7 ∨ b = main_arg8 ∨ b = main_arg9 ∨ b = main_arg10 ∨ b = main_arg11) :
    X1 m ρ c (Proc.devRef .tc b) = m ((c.tc : Thread nD τ).loc b) := by
  unfold X1
  rcases hb with h | h | h | h | h | h | h | h | h | h | h | h <;> subst h <;>
    (dsimp only [W1, W0, hostOps0]; after_results_simp <;> rfl)

/-! ## The outlined `where`: the inverse square root where the degree is positive, zero elsewhere -/

theorem X2_v17 (c : Dev nD) : X2 m ρ c (Proc.devRef .tc main_v17) = Chain.dis (m ((c.tc : Thread nD τ).loc main_arg1)) (m ((c.tc : Thread nD τ).loc main_arg2)) := by
  unfold X2
  simp only [hostOps0_1]
  after_results_simp
  simp only [TRef.ofBuf, TRef.toBuf, cast_eq]
  rw [X1_v13, X1_v16, X1_cst3]
  rfl

theorem X2_v5 (c : Dev nD) : X2 m ρ c (Proc.devRef .tc main_v5) = Chain.rowF (m ((c.tc : Thread nD τ).loc main_arg1)) := by
  unfold X2
  simp only [hostOps0_1]
  after_results_simp
  exact X1_v5 m ρ c

theorem X2_v6 (c : Dev nD) : X2 m ρ c (Proc.devRef .tc main_v6) = Chain.colF (m ((c.tc : Thread nD τ).loc main_arg1)) := by
  unfold X2
  simp only [hostOps0_1]
  after_results_simp
  exact X1_v6 m ρ c

theorem X2_v8 (c : Dev nD) : X2 m ρ c (Proc.devRef .tc main_v8) = Chain.ewF (m ((c.tc : Thread nD τ).loc main_arg2)) := by
  unfold X2
  simp only [hostOps0_1]
  after_results_simp
  exact X1_v8 m ρ c

theorem X2_arg (c : Dev nD) (b : Ref sig .tc) (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11) :
    X2 m ρ c (Proc.devRef .tc b) = m ((c.tc : Thread nD τ).loc b) := by
  refine Eq.trans ?_ (X1_arg m ρ c b hb)
  unfold X2
  rcases hb with h | h | h | h | h | h | h | h | h | h | h | h <;> subst h <;>
    (simp only [hostOps0_1]; after_results_simp)

/-! ## The second stretch: the edges' normalised weights, the table times the first weight matrix, the ids as a column -/

theorem X3_v33 (c : Dev nD) : X3 m ρ c (Proc.devRef .tc main_v33) = Chain.norm (m ((c.tc : Thread nD τ).loc main_arg1)) (m ((c.tc : Thread nD τ).loc main_arg2)) := by
  unfold X3
  simp only [hostOps0_2]
  after_results_simp
  rw [X2_v17, X2_v5, X2_v6, X2_v8]
  rfl

theorem X3_v5 (c : Dev nD) : X3 m ρ c (Proc.devRef .tc main_v5) = Chain.rowF (m ((c.tc : Thread nD τ).loc main_arg1)) := by
  unfold X3
  simp only [hostOps0_2]
  after_results_simp
  exact X2_v5 m ρ c

theorem X3_v6 (c : Dev nD) : X3 m ρ c (Proc.devRef .tc main_v6) = Chain.colF (m ((c.tc : Thread nD τ).loc main_arg1)) := by
  unfold X3
  simp only [hostOps0_2]
  after_results_simp
  exact X2_v6 m ρ c

theorem X3_arg (c : Dev nD) (b : Ref sig .tc) (hb : b = main_arg0 ∨ b = main_arg1 ∨ b = main_arg2 ∨ b = main_arg3 ∨ b = main_arg4 ∨ b = main_arg5 ∨ b = main_arg6 ∨ b = main_arg7 ∨ b = main_arg8 ∨ b = main_arg9 ∨ b = main_arg10 ∨ b = main_arg11) :
    X3 m ρ c (Proc.devRef .tc b) = m ((c.tc : Thread nD τ).loc b) := by
  refine Eq.trans ?_ (X2_arg m ρ c b hb)
  unfold X3
  rcases hb with h | h | h | h | h | h | h | h | h | h | h | h <;> subst h <;>
    (simp only [hostOps0_2]; after_results_simp)

theorem X3_v34 (c : Dev nD) : X3 m ρ c (Proc.devRef .tc main_v34)
    = Host.dotGeneral (φ₁ := .f32) (φ₂ := .f32) dot_S512x128_S128x128_S512x128_1_0_0_1_n_n none (m ((c.tc : Thread nD τ).loc main_arg3)) (m ((c.tc : Thread nD τ).loc main_arg4)) := by
  unfold X3
  simp only [hostOps0_2]
  after_results_simp
  rw [X2_arg m ρ c main_arg3 (by decide), X2_arg m ρ c main_arg4 (by decide)]

theorem X3_v35 (c : Dev nD) : X3 m ρ c (Proc.devRef .tc main_v35) = shapeCast S50000x1 (m ((c.tc : Thread nD τ).loc main_arg0)) shapeCasts_S50000_S50000x1 := by
  unfold X3
  simp only [hostOps0_2]
  after_results_simp
  rw [X2_arg m ρ c main_arg0 (by decide)]
  rfl

/-! ## Between the first and the second region: the first aggregation and the second region's one-row parameters -/

theorem W4_v5 (c : Dev nD) : W4 m ρ c (Proc.devRef .tc main_v5) = Chain.rowF (m ((c.tc : Thread nD τ).loc main_arg1)) := by
  rw [W4_of_ne m ρ c main_v5 (by decide), W3_eq, X3_v5]
theorem W4_v6 (c : Dev nD) : W4 m ρ c (Proc.devRef .tc main_v6) = Chain.colF (m ((c.tc : Thread nD τ).loc main_arg1)) := by
  rw [W4_of_ne m ρ c main_v6 (by decide), W3_eq, X3_v6]
theorem W4_v33 (c : Dev nD) : W4 m ρ c (Proc.devRef .tc main_v33) = Chain.norm (m ((c.tc : Thread nD τ).loc main_arg1)) (m ((c.tc : Thread nD τ).loc main_arg2)) := by
  rw [W4_of_ne m ρ c main_v33 (by decide), W3_eq, X3_v33]
theorem W4_arg (c : Dev nD) (b : Ref sig .tc) (hb : b = main_arg5 ∨ b = main_arg6 ∨ b = main_arg7 ∨ b = main_arg8 ∨ b = main_arg9 ∨ b = main_arg10 ∨ b = main_arg11) :
    W4 m ρ c (Proc.devRef .tc b) = m ((c.tc : Thread nD τ).loc b) := by
  rcases hb with h | h | h | h | h | h | h <;> subst h <;>
    (rw [W4_of_ne m ρ c _ (by decide), W3_eq]; exact X3_arg m ρ c _ (by decide))

/-- The first aggregation: the second output of the first region gathered at the edges' sources (and read in single
    precision), scaled and summed by destination. -/
theorem W5_v50 (c : Dev nD) : W5 m ρ c (Proc.devRef .tc main_v50)
    = Chain.aggCore (extf .f32 (Host.gather gather_S50000x128_S650000x1_S650000x128_1_0_n_n_0_1_1128 (W4 m ρ c (Proc.devRef .tc main_v36_1)) (Chain.wrap (Chain.rowF (m ((c.tc : Thread nD τ).loc main_arg1))))) bitsLt_bf16_f32) (m ((c.tc : Thread nD τ).loc main_arg1)) (m ((c.tc : Thread nD τ).loc main_arg2)) := by
  show after hostOps1 (W4 m ρ c) _ = _
  simp only [hostOps1]
  after_results_simp
  rw [W4_v5, W4_v6, W4_v33]
  rfl

theorem W5_v36_0 (c : Dev nD) : W5 m ρ c (Proc.devRef .tc main_v36_0) = W4 m ρ c (Proc.devRef .tc main_v36_0) := by
  show after hostOps1 (W4 m ρ c) _ = _
  simp only [hostOps1]
  after_results_simp

theorem W5_v51 (c : Dev nD) : W5 m ρ c (Proc.devRef .tc main_v51) = shapeCast S1x128 (m ((c.tc : Thread nD τ).loc main_arg5)) shapeCasts_S128_S1x128 := by
  show after hostOps1 (W4 m ρ c) _ = _
  simp only [hostOps1]
  after_results_simp
  rw [W4_arg m ρ c main_arg5 (by decide)]
  rfl
theorem W5_v52 (c : Dev nD) : W5 m ρ c (Proc.devRef .tc main_v52) = shapeCast S1x128 (m ((c.tc : Thread nD τ).loc main_arg8)) shapeCasts_S128_S1x128 := by
  show after hostOps1 (W4 m ρ c) _ = _
  simp only [hostOps1]
  after_results_simp
  rw [W4_arg m ρ c main_arg8 (by decide)]
  rfl
theorem W5_v53 (c : Dev nD) : W5 m ρ c (Proc.devRef .tc main_v53) = shapeCast S1x128 (m ((c.tc : Thread nD τ).loc main_arg9)) shapeCasts_S128_S1x128 := by
  show after hostOps1 (W4 m ρ c) _ = _
  simp only [hostOps1]
  after_results_simp
  rw [W4_arg m ρ c main_arg9 (by decide)]
  rfl
theorem W5_arg6 (c : Dev nD) : W5 m ρ c (Proc.devRef .tc main_arg6) = (m ((c.tc : Thread nD τ).loc main_arg6)) := by
  show after hostOps1 (W4 m ρ c) _ = _
  simp only [hostOps1]
  after_results_simp
  exact W4_arg m ρ c main_arg6 (by decide)

/-! ## Between the second and the third region: the second aggregation and the third region's one-row parameters -/

theorem W6_v5 (c : Dev nD) : W6 m ρ c (Proc.devRef .tc main_v5) = Chain.rowF (m ((c.tc : Thread nD τ).loc main_arg1)) := by
  rw [W6_of_ne m ρ c main_v5 (by decide)]
  show after hostOps1 (W4 m ρ c) _ = _
  simp only [hostOps1]
  after_results_simp
  exact W4_v5 m ρ c
theorem W6_v6 (c : Dev nD) : W6 m ρ c (Proc.devRef .tc main_v6) = Chain.colF (m ((c.tc : Thread nD τ).loc main_arg1)) := by
  rw [W6_of_ne m ρ c main_v6 (by decide)]
  show after hostOps1 (W4 m ρ c) _ = _
  simp only [hostOps1]
  after_results_simp
  exact W4_v6 m ρ c
theorem W6_v33 (c : Dev nD) : W6 m ρ c (Proc.devRef .tc main_v33) = Chain.norm (m ((c.tc : Thread nD τ).loc main_arg1)) (m ((c.tc : Thread nD τ).loc main_arg2)) := by
  rw [W6_of_ne m ρ c main_v33 (by decide)]
  show after hostOps1 (W4 m ρ c) _ = _
  simp only [hostOps1]
  after_results_simp
  exact W4_v33 m ρ c
theorem W6_arg (c : Dev nD) (b : Ref sig .tc) (hb : b = main_arg7 ∨ b = main_arg10 ∨ b = main_arg11) :
    W6 m ρ c (Proc.devRef .tc b) = m ((c.tc : Thread nD τ).loc b) := by
  rcases hb with h | h | h <;> subst h <;>
    (rw [W6_of_ne m ρ c _ (by decide)]
     show after hostOps1 (W4 m ρ c) _ = _
     simp only [hostOps1]
     after_results_simp
     exact W4_arg m ρ c _ (by decide))

/-- The second aggregation: the second output of the second region gathered, scaled and summed in the same way. -/
theorem W7_v68 (c : Dev nD) : W7 m ρ c (Proc.devRef .tc main_v68)
    = Chain.aggCore (extf .f32 (Host.gather gather_S50000x128_S650000x1_S650000x128_1_0_n_n_0_1_1128 (W6 m ρ c (Proc.devRef .tc main_v54_1)) (Chain.wrap (Chain.rowF (m ((c.tc : Thread nD τ).loc main_arg1))))) bitsLt_bf16_f32) (m ((c.tc : Thread nD τ).loc main_arg1)) (m ((c.tc : Thread nD τ).loc main_arg2)) := by
  show after hostOps2 (W6 m ρ c) _ = _
  simp only [hostOps2]
  after_results_simp
  rw [W6_v5, W6_v6, W6_v33]
  rfl

theorem W7_v54_0 (c : Dev nD) : W7 m ρ c (Proc.devRef .tc main_v54_0) = W6 m ρ c (Proc.devRef .tc main_v54_0) := by
  show after hostOps2 (W6 m ρ c) _ = _
  simp only [hostOps2]
  after_results_simp

theorem W7_v69 (c : Dev nD) : W7 m ρ c (Proc.devRef .tc main_v69) = shapeCast S1x128 (m ((c.tc : Thread nD τ).loc main_arg7)) shapeCasts_S128_S1x128 := by
  show after hostOps2 (W6 m ρ c) _ = _
  simp only [hostOps2]
  after_results_simp
  rw [W6_arg m ρ c main_arg7 (by decide)]
  rfl
theorem W7_v70 (c : Dev nD) : W7 m ρ c (Proc.devRef .tc main_v70) = shapeCast S1x128 (m ((c.tc : Thread nD τ).loc main_arg10)) shapeCasts_S128_S1x128 := by
  show after hostOps2 (W6 m ρ c) _ = _
  simp only [hostOps2]
  after_results_simp
  rw [W6_arg m ρ c main_arg10 (by decide)]
  rfl
theorem W7_v71 (c : Dev nD) : W7 m ρ c (Proc.devRef .tc main_v71) = shapeCast S1x128 (m ((c.tc : Thread nD τ).loc main_arg11)) shapeCasts_S128_S1x128 := by
  show after hostOps2 (W6 m ρ c) _ = _
  simp only [hostOps2]
  after_results_simp
  rw [W6_arg m ρ c main_arg11 (by decide)]
  rfl

end Host

section Assemble

variable (m : (ℓ : Loc nD τ sig) → Buf (Elt Ideal) ℓ) (ρ : Dev nD → PrngReg)

/-! ## Reshapes read at an index -/

/-- An `[a]` array cast to `[a, 1]` reads, at `(i, u)`, the operand at `i`. -/
theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The ids reshaped to a column are the ids read as a one-column matrix. -/
theorem col_eq (ids : (⟨S50000, .i32⟩ : BufTy).Contents (Elt Ideal)) :
    shapeCast S50000x1 ids shapeCasts_S50000_S50000x1 = Chain.col ids := by
  funext i
  rw [eq_ix2 i]
  exact shapeCast_col_apply ids _ (i 0) (i 1)

/-- A vector of 128 numbers reshaped to one row is the vector read as a one-row matrix. -/
theorem row_eq (v : (⟨S128, .f32⟩ : BufTy).Contents (Elt Ideal)) :
    shapeCast S1x128 v shapeCasts_S128_S1x128 = Chain.row v := by
  funext i
  rw [eq_ix2 i]
  exact shapeCast_a_1a_apply v _ (i 0) (i 1)

/-! ## The table times the first weight matrix, read at an index

The host's product of the 512×128 table with the 128×128 matrix, contracting the inner axis, is at `(r, q)` the sum
over `k` of `emb (r, k) · W (k, q)`; so a lookup into the product is the lookup times the matrix. -/

theorem lhs_ew_0 (i : S512x128.Idx) (q : dot_S512x128_S128x128_S512x128_1_0_0_1_n_n.contr.Idx) : (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhs_ew_1 (i : S512x128.Idx) (q : dot_S512x128_S128x128_S512x128_1_0_0_1_n_n.contr.Idx) : (dot_S512x128_S128x128_S512x128_1_0_0_1_n_n.lhsIdx i q 1).val = (q ⟨0, by decide⟩).val :=
  dot_S512x128_S128x128_S512x128_1_0_0_1_n_n.lhsIdx_val_of_single rfl i q
theorem rhs_ew_0 (i : S512x128.Idx) (q : dot_S512x128_S128x128_S512x128_1_0_0_1_n_n.contr.Idx) : (dot_S512x128_S128x128_S512x128_1_0_0_1_n_n.rhsIdx i q 0).val = (q ⟨0, by decide⟩).val :=
  dot_S512x128_S128x128_S512x128_1_0_0_1_n_n.rhsIdx_val_of_single rfl i q
theorem rhs_ew_1 (i : S512x128.Idx) (q : dot_S512x128_S128x128_S512x128_1_0_0_1_n_n.contr.Idx) : (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

theorem embW_apply (emb : (⟨S512x128, .f32⟩ : BufTy).Contents (Elt Ideal)) (W : (⟨S128x128, .f32⟩ : BufTy).Contents (Elt Ideal))
    (i : S512x128.Idx) :
    Host.dotGeneral (F := Ideal) (φ₁ := .f32) (φ₂ := .f32) dot_S512x128_S128x128_S512x128_1_0_0_1_n_n none emb W i
      = ∑ k : Fin 128, emb (ix2 (i 0) k) * W (ix2 k (i 1)) := by
  simp only [Host.dotGeneral]
  rw [Ideal.dotGeneral_apply, ← Equiv.sum_comp (ValueIdx.contrEquiv1 dot_S512x128_S128x128_S512x128_1_0_0_1_n_n 128 rfl rfl).symm]
  refine Finset.sum_congr rfl fun k _ => ?_
  have hk := ValueIdx.contrEquiv1_symm_val dot_S512x128_S128x128_S512x128_1_0_0_1_n_n 128 rfl rfl k
  have el : dot_S512x128_S128x128_S512x128_1_0_0_1_n_n.lhsIdx i ((ValueIdx.contrEquiv1 dot_S512x128_S128x128_S512x128_1_0_0_1_n_n 128 rfl rfl).symm k) = ix2 (i 0) k := funext fun a => Fin.ext (by
    match a with
    | ⟨0, _⟩ => exact lhs_ew_0 _ _
    | ⟨1, _⟩ => exact (lhs_ew_1 _ _).trans hk)
  have er : dot_S512x128_S128x128_S512x128_1_0_0_1_n_n.rhsIdx i ((ValueIdx.contrEquiv1 dot_S512x128_S128x128_S512x128_1_0_0_1_n_n 128 rfl rfl).symm k) = ix2 k (i 1) := funext fun a => Fin.ext (by
    match a with
    | ⟨0, _⟩ => exact (rhs_ew_0 _ _).trans hk
    | ⟨1, _⟩ => exact rhs_ew_1 _ _)
  rw [el, er]
  rfl

/-- A lookup into the table already multiplied by the matrix is the lookup, then the product. -/
theorem take_dot (ids : Spec.SN1.Idx → BitVec 32) (emb : (⟨S512x128, .f32⟩ : BufTy).Contents (Elt Ideal))
    (W : (⟨S128x128, .f32⟩ : BufTy).Contents (Elt Ideal)) :
    Spec.takeRow ids (Host.dotGeneral (F := Ideal) (φ₁ := .f32) (φ₂ := .f32) dot_S512x128_S128x128_S512x128_1_0_0_1_n_n none emb W)
      = Spec.rowDot (Spec.takeRow ids emb) W := by
  funext i
  unfold Spec.takeRow Spec.rowDot
  exact embW_apply emb W _

/-- Reading a half-precision array in single precision changes nothing on the extended reals. -/
theorem gather_ext (h : (⟨S50000x128, .bf16⟩ : BufTy).Contents (Elt Ideal)) (h' : (⟨S50000x128, .f32⟩ : BufTy).Contents (Elt Ideal))
    (e : (h : S50000x128.Idx → EReal) = h') (idx : (⟨S650000x1, .i32⟩ : BufTy).Contents (Elt Ideal)) :
    (extf (F := Ideal) .f32 (Host.gather gather_S50000x128_S650000x1_S650000x128_1_0_n_n_0_1_1128 h idx) bitsLt_bf16_f32 : S650000x128.Idx → EReal)
      = Host.gather gather_S50000x128_S650000x1_S650000x128_1_0_n_n_0_1_1128 h' idx := by
  subst e
  rfl

/-! ## The walk back from the result -/

/-- Under the precondition the ids column the first region enters with holds row numbers of the table. -/
theorem ids_ok (c : Dev nD) (hr : ∀ n : Fin 50000, ((m ((c.tc : Thread nD τ).loc main_arg0)) (ix1 n)).toNat < 512) :
    ∀ n : Fin 50000, (V3 m ρ c main_v35 (ix2 n 0)).toNat < 512 := by
  intro n
  have e : V3 m ρ c main_v35 = Chain.col (m ((c.tc : Thread nD τ).loc main_arg0)) := (X3_v35 m ρ c).trans (col_eq _)
  rw [e]
  exact hr n

/-- The first region's first output: the looked-up embeddings. -/
theorem x_eq (c : Dev nD) (hr : ∀ n : Fin 50000, ((m ((c.tc : Thread nD τ).loc main_arg0)) (ix1 n)).toNat < 512) :
    W4 m ρ c (Proc.devRef .tc main_v36_0) = Spec.takeRow (Chain.col (m ((c.tc : Thread nD τ).loc main_arg0))) (m ((c.tc : Thread nD τ).loc main_arg3)) := by
  refine (W4_arr m ρ c 3).trans ?_
  rw [R0Value.arr3 (V3 m ρ) c (ids_ok m ρ c hr)]
  have e : V3 m ρ c main_v35 = Chain.col (m ((c.tc : Thread nD τ).loc main_arg0)) := (X3_v35 m ρ c).trans (col_eq _)
  have e3 : V3 m ρ c main_arg3 = (m ((c.tc : Thread nD τ).loc main_arg3)) := X3_arg m ρ c main_arg3 (by decide)
  rw [e, e3]

/-- The first region's second output: the looked-up embeddings times the first weight matrix. -/
theorem h1_eq (c : Dev nD) (hr : ∀ n : Fin 50000, ((m ((c.tc : Thread nD τ).loc main_arg0)) (ix1 n)).toNat < 512) :
    (W4 m ρ c (Proc.devRef .tc main_v36_1) : S50000x128.Idx → EReal)
      = Spec.rowDot (Spec.takeRow (Chain.col (m ((c.tc : Thread nD τ).loc main_arg0))) (m ((c.tc : Thread nD τ).loc main_arg3))) (m ((c.tc : Thread nD τ).loc main_arg4)) := by
  refine (W4_arr m ρ c 4).trans ?_
  rw [R0Value.arr4 (V3 m ρ) c (ids_ok m ρ c hr)]
  have e : V3 m ρ c main_v35 = Chain.col (m ((c.tc : Thread nD τ).loc main_arg0)) := (X3_v35 m ρ c).trans (col_eq _)
  have e4 : V3 m ρ c main_v34 = Host.dotGeneral (F := Ideal) (φ₁ := .f32) (φ₂ := .f32) dot_S512x128_S128x128_S512x128_1_0_0_1_n_n none (m ((c.tc : Thread nD τ).loc main_arg3)) (m ((c.tc : Thread nD τ).loc main_arg4)) := X3_v34 m ρ c
  rw [e, e4]
  exact take_dot _ _ _

/-- The second region's first output: the first layer. -/
theorem l1_eq (c : Dev nD) (hr : ∀ n : Fin 50000, ((m ((c.tc : Thread nD τ).loc main_arg0)) (ix1 n)).toNat < 512) :
    W6 m ρ c (Proc.devRef .tc main_v54_0)
      = Chain.layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) := by
  refine (W6_arr m ρ c 6).trans ?_
  rw [R1Value.arr6 (V5 m ρ) c]
  have e0 : V5 m ρ c main_v36_0 = Spec.takeRow (Chain.col (m ((c.tc : Thread nD τ).loc main_arg0))) (m ((c.tc : Thread nD τ).loc main_arg3)) := (W5_v36_0 m ρ c).trans (x_eq m ρ c hr)
  have e1 : V5 m ρ c main_v50 = Chain.agg (Spec.rowDot (Spec.takeRow (Chain.col (m ((c.tc : Thread nD τ).loc main_arg0))) (m ((c.tc : Thread nD τ).loc main_arg3))) (m ((c.tc : Thread nD τ).loc main_arg4))) (m ((c.tc : Thread nD τ).loc main_arg1)) (m ((c.tc : Thread nD τ).loc main_arg2)) := by
    refine (W5_v50 m ρ c).trans ?_
    unfold Chain.agg
    rw [gather_ext _ _ (h1_eq m ρ c hr)]
  have e2 : V5 m ρ c main_v51 = Chain.row (m ((c.tc : Thread nD τ).loc main_arg5)) := (W5_v51 m ρ c).trans (row_eq _)
  have e3 : V5 m ρ c main_v52 = Chain.row (m ((c.tc : Thread nD τ).loc main_arg8)) := (W5_v52 m ρ c).trans (row_eq _)
  have e4 : V5 m ρ c main_v53 = Chain.row (m ((c.tc : Thread nD τ).loc main_arg9)) := (W5_v53 m ρ c).trans (row_eq _)
  rw [e0, e1, e2, e3, e4]
  rfl

/-- The second region's second output: the first layer times the second weight matrix. -/
theorem h2_eq (c : Dev nD) (hr : ∀ n : Fin 50000, ((m ((c.tc : Thread nD τ).loc main_arg0)) (ix1 n)).toNat < 512) :
    (W6 m ρ c (Proc.devRef .tc main_v54_1) : S50000x128.Idx → EReal)
      = Spec.rowDot (Chain.layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9))) (m ((c.tc : Thread nD τ).loc main_arg6)) := by
  refine (W6_arr m ρ c 7).trans ?_
  rw [R1Value.arr7 (V5 m ρ) c]
  have e0 : V5 m ρ c main_v36_0 = Spec.takeRow (Chain.col (m ((c.tc : Thread nD τ).loc main_arg0))) (m ((c.tc : Thread nD τ).loc main_arg3)) := (W5_v36_0 m ρ c).trans (x_eq m ρ c hr)
  have e1 : V5 m ρ c main_v50 = Chain.agg (Spec.rowDot (Spec.takeRow (Chain.col (m ((c.tc : Thread nD τ).loc main_arg0))) (m ((c.tc : Thread nD τ).loc main_arg3))) (m ((c.tc : Thread nD τ).loc main_arg4))) (m ((c.tc : Thread nD τ).loc main_arg1)) (m ((c.tc : Thread nD τ).loc main_arg2)) := by
    refine (W5_v50 m ρ c).trans ?_
    unfold Chain.agg
    rw [gather_ext _ _ (h1_eq m ρ c hr)]
  have e2 : V5 m ρ c main_v51 = Chain.row (m ((c.tc : Thread nD τ).loc main_arg5)) := (W5_v51 m ρ c).trans (row_eq _)
  have e3 : V5 m ρ c main_v52 = Chain.row (m ((c.tc : Thread nD τ).loc main_arg8)) := (W5_v52 m ρ c).trans (row_eq _)
  have e4 : V5 m ρ c main_v53 = Chain.row (m ((c.tc : Thread nD τ).loc main_arg9)) := (W5_v53 m ρ c).trans (row_eq _)
  have e5 : V5 m ρ c main_arg6 = (m ((c.tc : Thread nD τ).loc main_arg6)) := W5_arg6 m ρ c
  rw [e0, e1, e2, e3, e4, e5]
  rfl

/-- The result array after the last region is the network's specification of the launch arguments. -/
theorem result_eq (c : Dev nD) (hr : ∀ n : Fin 50000, ((m ((c.tc : Thread nD τ).loc main_arg0)) (ix1 n)).toNat < 512) :
    W8 (F := Ideal) m ρ c (Proc.devRef .tc main_v72)
      = Chain.final (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W8_arr m ρ c 5).trans ?_
  rw [R2Value.arr5 (V7 m ρ) c]
  have e0 : V7 m ρ c main_v54_0 = Chain.layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) :=
    (W7_v54_0 m ρ c).trans (l1_eq m ρ c hr)
  have e1 : V7 m ρ c main_v68 = Chain.agg (Spec.rowDot (Chain.layer1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9))) (m ((c.tc : Thread nD τ).loc main_arg6))) (m ((c.tc : Thread nD τ).loc main_arg1)) (m ((c.tc : Thread nD τ).loc main_arg2)) := by
    refine (W7_v68 m ρ c).trans ?_
    unfold Chain.agg
    rw [gather_ext _ _ (h2_eq m ρ c hr)]
  have e2 : V7 m ρ c main_v69 = Chain.row (m ((c.tc : Thread nD τ).loc main_arg7)) := (W7_v69 m ρ c).trans (row_eq _)
  have e3 : V7 m ρ c main_v70 = Chain.row (m ((c.tc : Thread nD τ).loc main_arg10)) := (W7_v70 m ρ c).trans (row_eq _)
  have e4 : V7 m ρ c main_v71 = Chain.row (m ((c.tc : Thread nD τ).loc main_arg11)) := (W7_v71 m ρ c).trans (row_eq _)
  rw [e0, e1, e2, e3, e4]
  rfl

end Assemble

end Cert.KernelIdeal.Fold

end
-- ==== Proof.RefLN.lean ====
/-
  The reference's two layer norms are the specification's.

  Each is a line of host operations on 50000×128 arrays: the residual sum `x + (a + b)`, the row sum, the quotient by
  128, the difference, its square, the row sum, the quotient, plus ε, the inverse square root, the products with the
  scale and the sum with the shift. Read at an index, every one of them depends on the operands at the same row, so
  the entry is `Spec.layerNorm`'s expression; the residual sum is associated the other way there, `(x + a) + b`, and
  addition of extended reals is associative.
-/
import proofs.«405743_j19215683682347_2_alg».proof.Proof.RefRead
import proofs.«405743_j19215683682347_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefLN

open Cert.ReferenceIdeal Cert.ReferenceIdeal.Gen Cert.ReferenceIdeal.ReadP
open Idealize.ShloMosaic Idealize.ShloMosaic.TcCoe Idealize.ShloMosaic.ValueIdx Idealize.SL.Sem

/-- A vector of `128` numbers read as a one-row matrix. -/
def row (v : (⟨S128, .f32⟩ : BufTy).Contents (Elt Ideal)) : Spec.S1D.Idx → EReal := fun i => v (ix1 (i 1))

/-! ### One entry -/

/-- The reference's arrangement of one entry — the residual sum associated `x + (a + b)`, the mean written out at
    each of its uses — is the specification's. The only law used is associativity of addition. -/
private theorem entry_eq (X A : Spec.SND.Idx → EReal) (b g be : (⟨S128, .f32⟩ : BufTy).Contents (Elt Ideal))
    (n : Fin 50000) (j : Fin 128) :
    (X (ix2 n j) + (A (ix2 n j) + b (ix1 j))
          - Ideal.div (∑ k : Fin 128, (X (ix2 n k) + (A (ix2 n k) + b (ix1 k)))) (Ideal.ofBits .f32 0x43000000#32))
        * Ideal.rsqrt
            (Ideal.div
                (∑ k : Fin 128,
                  (X (ix2 n k) + (A (ix2 n k) + b (ix1 k))
                      - Ideal.div (∑ k' : Fin 128, (X (ix2 n k') + (A (ix2 n k') + b (ix1 k'))))
                          (Ideal.ofBits .f32 0x43000000#32))
                    * (X (ix2 n k) + (A (ix2 n k) + b (ix1 k))
                      - Ideal.div (∑ k' : Fin 128, (X (ix2 n k') + (A (ix2 n k') + b (ix1 k'))))
                          (Ideal.ofBits .f32 0x43000000#32)))
                (Ideal.ofBits .f32 0x43000000#32)
              + Ideal.ofBits .f32 0x3727C5AC#32)
        * g (ix1 j) + be (ix1 j)
      = Spec.layerNorm X A (row b) (row g) (row be) (ix2 n j) := by
  have hres : Spec.resid X A (row b) n = fun k => X (ix2 n k) + (A (ix2 n k) + b (ix1 k)) :=
    funext fun k => by
      show X (ix2 n k) + A (ix2 n k) + b (ix1 k) = _
      exact add_assoc _ _ _
  show _ = (Spec.resid X A (row b) n j - Spec.rowMean (Spec.resid X A (row b) n))
      * Ideal.rsqrt (Spec.rowVar (Spec.resid X A (row b) n) + Spec.cEps) * g (ix1 j) + be (ix1 j)
  rw [hres]
  rfl

/-! ## The first layer norm

  Its layout operations, composed, at row `n` and column `j`; then its stages at an index, each from the stage before. -/

section first

variable (x0 : (⟨S50000, .i32⟩ : BufTy).Contents (Elt Ideal)) (x1 : (⟨S2x600000, .i32⟩ : BufTy).Contents (Elt Ideal)) (x2 : (⟨S600000, .f32⟩ : BufTy).Contents (Elt Ideal))
  (x3 : (⟨S512x128, .f32⟩ : BufTy).Contents (Elt Ideal)) (x4 : (⟨S128x128, .f32⟩ : BufTy).Contents (Elt Ideal)) (x5 x8 x9 : (⟨S128, .f32⟩ : BufTy).Contents (Elt Ideal))

/-- The bias, broadcast over the rows, is read at the column. -/
private theorem idx_bias_first (n : Fin 50000) (j : Fin 128) : idx_main_v55 (idx_main_v56 (ix2 n j)) = ix1 j :=
  funext fun a => Fin.ext (by match a with | ⟨0, _⟩ => rfl)
/-- The scale, broadcast over the rows, is read at the column. -/
private theorem idx_scale_first (n : Fin 50000) (j : Fin 128) : idx_main_v77 (idx_main_v78 (ix2 n j)) = ix1 j :=
  funext fun a => Fin.ext (by match a with | ⟨0, _⟩ => rfl)
/-- The shift, broadcast over the rows, is read at the column. -/
private theorem idx_shift_first (n : Fin 50000) (j : Fin 128) : idx_main_v80 (idx_main_v81 (ix2 n j)) = ix1 j :=
  funext fun a => Fin.ext (by match a with | ⟨0, _⟩ => rfl)
/-- A column of per-row numbers, broadcast along the rows, is read at the row (for the deviations that are squared). -/
private theorem idx_col_first (n : Fin 50000) (j : Fin 128) : idx_main_v63 (ix2 n j) = ix2 n (0 : Fin 1) :=
  funext fun a => Fin.ext (by match a with | ⟨0, _⟩ => rfl | ⟨1, _⟩ => rfl)
/-- The same for the second broadcast of the mean (for the entry that is normalized). -/
private theorem idx_col'_first (n : Fin 50000) (j : Fin 128) : idx_main_v70 (ix2 n j) = ix2 n (0 : Fin 1) :=
  funext fun a => Fin.ext (by match a with | ⟨0, _⟩ => rfl | ⟨1, _⟩ => rfl)
/-- The same for the broadcast of the inverse square root. -/
private theorem idx_col''_first (n : Fin 50000) (j : Fin 128) : idx_main_v75 (ix2 n j) = ix2 n (0 : Fin 1) :=
  funext fun a => Fin.ext (by match a with | ⟨0, _⟩ => rfl | ⟨1, _⟩ => rfl)
/-- The first row sum, kept as a column, runs over row `n`. -/
private theorem idx_sum_first (n : Fin 50000) (k : Fin 128) : idx_main_v59 (idx_main_v60 (ix2 n (0 : Fin 1))) k = ix2 n k :=
  funext fun a => Fin.ext (by match a with | ⟨0, _⟩ => rfl | ⟨1, _⟩ => rfl)
/-- The second row sum, kept as a column, runs over row `n`. -/
private theorem idx_sum'_first (n : Fin 50000) (k : Fin 128) : idx_main_v66 (idx_main_v67 (ix2 n (0 : Fin 1))) k = ix2 n k :=
  funext fun a => Fin.ext (by match a with | ⟨0, _⟩ => rfl | ⟨1, _⟩ => rfl)

/-- The residual sum, associated as the reference has it: `x + (a + b)`. -/
private theorem resid_first (n : Fin 50000) (k : Fin 128) :
    val_main_v58 (F := Ideal) x0 x1 x2 x3 x4 x5 (ix2 n k)
      = val_main_v10 (F := Ideal) x0 x3 (ix2 n k) + (val_main_v54 (F := Ideal) x0 x1 x2 x3 x4 (ix2 n k) + x5 (ix1 k)) := by
  rw [val_main_v58_apply, val_main_v57_apply, val_main_v56_apply, val_main_v55_apply, idx_bias_first, Ideal.addf_def, Ideal.addf_def]

/-- The row mean: the row's sum (from the zero word) divided by the word `128`. -/
private theorem mean_first (n : Fin 50000) :
    val_main_v62 (F := Ideal) x0 x1 x2 x3 x4 x5 (ix2 n (0 : Fin 1))
      = Ideal.div (∑ k : Fin 128, val_main_v58 (F := Ideal) x0 x1 x2 x3 x4 x5 (ix2 n k)) (Ideal.ofBits .f32 0x43000000#32) := by
  rw [val_main_v62_apply, val_main_v60_apply, val_main_v59_apply, val_main_v61_apply, val_main_cst_13_apply, val_main_cst_12_apply]
  simp only [idx_sum_first]
  rw [Ideal.hostDivf_def, Ideal.ofBits_def, Ideal.ofBits_def, Ideal.ofBits_zero_f32, zero_add]

/-- The deviation from the mean (the copy that is squared). -/
private theorem dev_first (n : Fin 50000) (k : Fin 128) :
    val_main_v64 (F := Ideal) x0 x1 x2 x3 x4 x5 (ix2 n k)
      = val_main_v58 (F := Ideal) x0 x1 x2 x3 x4 x5 (ix2 n k) - val_main_v62 (F := Ideal) x0 x1 x2 x3 x4 x5 (ix2 n (0 : Fin 1)) := by
  rw [val_main_v64_apply, val_main_v63_apply, idx_col_first, Ideal.subf_def]

/-- The deviation from the mean (the copy that is normalized). -/
private theorem dev'_first (n : Fin 50000) (j : Fin 128) :
    val_main_v71 (F := Ideal) x0 x1 x2 x3 x4 x5 (ix2 n j)
      = val_main_v58 (F := Ideal) x0 x1 x2 x3 x4 x5 (ix2 n j) - val_main_v62 (F := Ideal) x0 x1 x2 x3 x4 x5 (ix2 n (0 : Fin 1)) := by
  rw [val_main_v71_apply, val_main_v70_apply, idx_col'_first, Ideal.subf_def]

/-- The square of the deviation. -/
private theorem sq_first (n : Fin 50000) (k : Fin 128) :
    val_main_v65 (F := Ideal) x0 x1 x2 x3 x4 x5 (ix2 n k)
      = val_main_v64 (F := Ideal) x0 x1 x2 x3 x4 x5 (ix2 n k) * val_main_v64 (F := Ideal) x0 x1 x2 x3 x4 x5 (ix2 n k) := by
  rw [val_main_v65_apply, Ideal.mulf_def]

/-- The row's mean squared deviation. -/
private theorem var_first (n : Fin 50000) :
    val_main_v69 (F := Ideal) x0 x1 x2 x3 x4 x5 (ix2 n (0 : Fin 1))
      = Ideal.div (∑ k : Fin 128, val_main_v64 (F := Ideal) x0 x1 x2 x3 x4 x5 (ix2 n k) * val_main_v64 (F := Ideal) x0 x1 x2 x3 x4 x5 (ix2 n k))
          (Ideal.ofBits .f32 0x43000000#32) := by
  rw [val_main_v69_apply, val_main_v67_apply, val_main_v66_apply, val_main_v68_apply, val_main_cst_15_apply, val_main_cst_14_apply]
  simp only [idx_sum'_first, sq_first]
  rw [Ideal.hostDivf_def, Ideal.ofBits_def, Ideal.ofBits_def, Ideal.ofBits_zero_f32, zero_add]

/-- The inverse square root of the variance plus `ε`, broadcast along the row. -/
private theorem rstd_first (n : Fin 50000) (j : Fin 128) :
    val_main_v75 (F := Ideal) x0 x1 x2 x3 x4 x5 (ix2 n j)
      = Ideal.rsqrt (val_main_v69 (F := Ideal) x0 x1 x2 x3 x4 x5 (ix2 n (0 : Fin 1)) + Ideal.ofBits .f32 0x3727C5AC#32) := by
  rw [val_main_v75_apply, idx_col''_first, val_main_v74_apply, val_main_v73_apply, val_main_v72_apply, val_main_cst_16_apply, Ideal.hostUnary_rsqrt_def,
    Ideal.addf_def, Ideal.ofBits_def]

/-- The output: the normalized entry times the scale plus the shift. -/
private theorem out_first (n : Fin 50000) (j : Fin 128) :
    val_main_v82 (F := Ideal) x0 x1 x2 x3 x4 x5 x8 x9 (ix2 n j)
      = val_main_v71 (F := Ideal) x0 x1 x2 x3 x4 x5 (ix2 n j) * val_main_v75 (F := Ideal) x0 x1 x2 x3 x4 x5 (ix2 n j) * x8 (ix1 j) + x9 (ix1 j) := by
  rw [val_main_v82_apply, val_main_v81_apply, val_main_v80_apply, idx_shift_first, val_main_v79_apply, val_main_v78_apply, val_main_v77_apply, idx_scale_first, val_main_v76_apply,
    Ideal.addf_def, Ideal.mulf_def, Ideal.mulf_def]

end first

/-- The first layer norm of the reference is the specification's, of the lookup and the first aggregation. -/
theorem ln1_eq (x0 : (⟨S50000, .i32⟩ : BufTy).Contents (Elt Ideal)) (x1 : (⟨S2x600000, .i32⟩ : BufTy).Contents (Elt Ideal)) (x2 : (⟨S600000, .f32⟩ : BufTy).Contents (Elt Ideal))
    (x3 : (⟨S512x128, .f32⟩ : BufTy).Contents (Elt Ideal)) (x4 : (⟨S128x128, .f32⟩ : BufTy).Contents (Elt Ideal)) (x5 x8 x9 : (⟨S128, .f32⟩ : BufTy).Contents (Elt Ideal)) :
    val_main_v82 (F := Ideal) x0 x1 x2 x3 x4 x5 x8 x9
      = Spec.layerNorm (val_main_v10 (F := Ideal) x0 x3) (val_main_v54 (F := Ideal) x0 x1 x2 x3 x4)
          (row x5) (row x8) (row x9) := by
  funext i
  obtain ⟨n, j, rfl⟩ : ∃ (n : Fin 50000) (j : Fin 128), i = ix2 n j := ⟨i 0, i 1, eq_ix2 i⟩
  rw [out_first, dev'_first, rstd_first, var_first]
  simp only [dev_first, mean_first, resid_first]
  generalize val_main_v10 (F := Ideal) x0 x3 = X
  generalize val_main_v54 (F := Ideal) x0 x1 x2 x3 x4 = A
  exact entry_eq X A x5 x8 x9 n j

/-! ## The second layer norm

  Its layout operations, composed, at row `n` and column `j`; then its stages at an index, each from the stage before. -/

section second

variable (x0 : (⟨S50000, .i32⟩ : BufTy).Contents (Elt Ideal)) (x1 : (⟨S2x600000, .i32⟩ : BufTy).Contents (Elt Ideal)) (x2 : (⟨S600000, .f32⟩ : BufTy).Contents (Elt Ideal))
  (x3 : (⟨S512x128, .f32⟩ : BufTy).Contents (Elt Ideal)) (x4 : (⟨S128x128, .f32⟩ : BufTy).Contents (Elt Ideal)) (x5 : (⟨S128, .f32⟩ : BufTy).Contents (Elt Ideal))
  (x6 : (⟨S128x128, .f32⟩ : BufTy).Contents (Elt Ideal)) (x7 x8 x9 x10 x11 : (⟨S128, .f32⟩ : BufTy).Contents (Elt Ideal))

/-- The bias, broadcast over the rows, is read at the column. -/
private theorem idx_bias_second (n : Fin 50000) (j : Fin 128) : idx_main_v127 (idx_main_v128 (ix2 n j)) = ix1 j :=
  funext fun a => Fin.ext (by match a with | ⟨0, _⟩ => rfl)
/-- The scale, broadcast over the rows, is read at the column. -/
private theorem idx_scale_second (n : Fin 50000) (j : Fin 128) : idx_main_v149 (idx_main_v150 (ix2 n j)) = ix1 j :=
  funext fun a => Fin.ext (by match a with | ⟨0, _⟩ => rfl)
/-- The shift, broadcast over the rows, is read at the column. -/
private theorem idx_shift_second (n : Fin 50000) (j : Fin 128) : idx_main_v152 (idx_main_v153 (ix2 n j)) = ix1 j :=
  funext fun a => Fin.ext (by match a with | ⟨0, _⟩ => rfl)
/-- A column of per-row numbers, broadcast along the rows, is read at the row (for the deviations that are squared). -/
private theorem idx_col_second (n : Fin 50000) (j : Fin 128) : idx_main_v135 (ix2 n j) = ix2 n (0 : Fin 1) :=
  funext fun a => Fin.ext (by match a with | ⟨0, _⟩ => rfl | ⟨1, _⟩ => rfl)
/-- The same for the second broadcast of the mean (for the entry that is normalized). -/
private theorem idx_col'_second (n : Fin 50000) (j : Fin 128) : idx_main_v142 (ix2 n j) = ix2 n (0 : Fin 1) :=
  funext fun a => Fin.ext (by match a with | ⟨0, _⟩ => rfl | ⟨1, _⟩ => rfl)
/-- The same for the broadcast of the inverse square root. -/
private theorem idx_col''_second (n : Fin 50000) (j : Fin 128) : idx_main_v147 (ix2 n j) = ix2 n (0 : Fin 1) :=
  funext fun a => Fin.ext (by match a with | ⟨0, _⟩ => rfl | ⟨1, _⟩ => rfl)
/-- The first row sum, kept as a column, runs over row `n`. -/
private theorem idx_sum_second (n : Fin 50000) (k : Fin 128) : idx_main_v131 (idx_main_v132 (ix2 n (0 : Fin 1))) k = ix2 n k :=
  funext fun a => Fin.ext (by match a with | ⟨0, _⟩ => rfl | ⟨1, _⟩ => rfl)
/-- The second row sum, kept as a column, runs over row `n`. -/
private theorem idx_sum'_second (n : Fin 50000) (k : Fin 128) : idx_main_v138 (idx_main_v139 (ix2 n (0 : Fin 1))) k = ix2 n k :=
  funext fun a => Fin.ext (by match a with | ⟨0, _⟩ => rfl | ⟨1, _⟩ => rfl)

/-- The residual sum, associated as the reference has it: `x + (a + b)`. -/
private theorem resid_second (n : Fin 50000) (k : Fin 128) :
    val_main_v130 (F := Ideal) x0 x1 x2 x3 x4 x5 x6 x7 x8 x9 (ix2 n k)
      = val_main_v82 (F := Ideal) x0 x1 x2 x3 x4 x5 x8 x9 (ix2 n k) + (val_main_v126 (F := Ideal) x0 x1 x2 x3 x4 x5 x6 x8 x9 (ix2 n k) + x7 (ix1 k)) := by
  rw [val_main_v130_apply, val_main_v129_apply, val_main_v128_apply, val_main_v127_apply, idx_bias_second, Ideal.addf_def, Ideal.addf_def]

/-- The row mean: the row's sum (from the zero word) divided by the word `128`. -/
private theorem mean_second (n : Fin 50000) :
    val_main_v134 (F := Ideal) x0 x1 x2 x3 x4 x5 x6 x7 x8 x9 (ix2 n (0 : Fin 1))
      = Ideal.div (∑ k : Fin 128, val_main_v130 (F := Ideal) x0 x1 x2 x3 x4 x5 x6 x7 x8 x9 (ix2 n k)) (Ideal.ofBits .f32 0x43000000#32) := by
  rw [val_main_v134_apply, val_main_v132_apply, val_main_v131_apply, val_main_v133_apply, val_main_cst_30_apply, val_main_cst_29_apply]
  simp only [idx_sum_second]
  rw [Ideal.hostDivf_def, Ideal.ofBits_def, Ideal.ofBits_def, Ideal.ofBits_zero_f32, zero_add]

/-- The deviation from the mean (the copy that is squared). -/
private theorem dev_second (n : Fin 50000) (k : Fin 128) :
    val_main_v136 (F := Ideal) x0 x1 x2 x3 x4 x5 x6 x7 x8 x9 (ix2 n k)
      = val_main_v130 (F := Ideal) x0 x1 x2 x3 x4 x5 x6 x7 x8 x9 (ix2 n k) - val_main_v134 (F := Ideal) x0 x1 x2 x3 x4 x5 x6 x7 x8 x9 (ix2 n (0 : Fin 1)) := by
  rw [val_main_v136_apply, val_main_v135_apply, idx_col_second, Ideal.subf_def]

/-- The deviation from the mean (the copy that is normalized). -/
private theorem dev'_second (n : Fin 50000) (j : Fin 128) :
    val_main_v143 (F := Ideal) x0 x1 x2 x3 x4 x5 x6 x7 x8 x9 (ix2 n j)
      = val_main_v130 (F := Ideal) x0 x1 x2 x3 x4 x5 x6 x7 x8 x9 (ix2 n j) - val_main_v134 (F := Ideal) x0 x1 x2 x3 x4 x5 x6 x7 x8 x9 (ix2 n (0 : Fin 1)) := by
  rw [val_main_v143_apply, val_main_v142_apply, idx_col'_second, Ideal.subf_def]

/-- The square of the deviation. -/
private theorem sq_second (n : Fin 50000) (k : Fin 128) :
    val_main_v137 (F := Ideal) x0 x1 x2 x3 x4 x5 x6 x7 x8 x9 (ix2 n k)
      = val_main_v136 (F := Ideal) x0 x1 x2 x3 x4 x5 x6 x7 x8 x9 (ix2 n k) * val_main_v136 (F := Ideal) x0 x1 x2 x3 x4 x5 x6 x7 x8 x9 (ix2 n k) := by
  rw [val_main_v137_apply, Ideal.mulf_def]

/-- The row's mean squared deviation. -/
private theorem var_second (n : Fin 50000) :
    val_main_v141 (F := Ideal) x0 x1 x2 x3 x4 x5 x6 x7 x8 x9 (ix2 n (0 : Fin 1))
      = Ideal.div (∑ k : Fin 128, val_main_v136 (F := Ideal) x0 x1 x2 x3 x4 x5 x6 x7 x8 x9 (ix2 n k) * val_main_v136 (F := Ideal) x0 x1 x2 x3 x4 x5 x6 x7 x8 x9 (ix2 n k))
          (Ideal.ofBits .f32 0x43000000#32) := by
  rw [val_main_v141_apply, val_main_v139_apply, val_main_v138_apply, val_main_v140_apply, val_main_cst_32_apply, val_main_cst_31_apply]
  simp only [idx_sum'_second, sq_second]
  rw [Ideal.hostDivf_def, Ideal.ofBits_def, Ideal.ofBits_def, Ideal.ofBits_zero_f32, zero_add]

/-- The inverse square root of the variance plus `ε`, broadcast along the row. -/
private theorem rstd_second (n : Fin 50000) (j : Fin 128) :
    val_main_v147 (F := Ideal) x0 x1 x2 x3 x4 x5 x6 x7 x8 x9 (ix2 n j)
      = Ideal.rsqrt (val_main_v141 (F := Ideal) x0 x1 x2 x3 x4 x5 x6 x7 x8 x9 (ix2 n (0 : Fin 1)) + Ideal.ofBits .f32 0x3727C5AC#32) := by
  rw [val_main_v147_apply, idx_col''_second, val_main_v146_apply, val_main_v145_apply, val_main_v144_apply, val_main_cst_33_apply, Ideal.hostUnary_rsqrt_def,
    Ideal.addf_def, Ideal.ofBits_def]

/-- The output: the normalized entry times the scale plus the shift. -/
private theorem out_second (n : Fin 50000) (j : Fin 128) :
    val_main_v154 (F := Ideal) x0 x1 x2 x3 x4 x5 x6 x7 x8 x9 x10 x11 (ix2 n j)
      = val_main_v143 (F := Ideal) x0 x1 x2 x3 x4 x5 x6 x7 x8 x9 (ix2 n j) * val_main_v147 (F := Ideal) x0 x1 x2 x3 x4 x5 x6 x7 x8 x9 (ix2 n j) * x10 (ix1 j) + x11 (ix1 j) := by
  rw [val_main_v154_apply, val_main_v153_apply, val_main_v152_apply, idx_shift_second, val_main_v151_apply, val_main_v150_apply, val_main_v149_apply, idx_scale_second, val_main_v148_apply,
    Ideal.addf_def, Ideal.mulf_def, Ideal.mulf_def]

end second

/-- The second layer norm of the reference is the specification's, of the first layer's output and the second
    aggregation. -/
theorem ln2_eq (x0 : (⟨S50000, .i32⟩ : BufTy).Contents (Elt Ideal)) (x1 : (⟨S2x600000, .i32⟩ : BufTy).Contents (Elt Ideal)) (x2 : (⟨S600000, .f32⟩ : BufTy).Contents (Elt Ideal))
    (x3 : (⟨S512x128, .f32⟩ : BufTy).Contents (Elt Ideal)) (x4 : (⟨S128x128, .f32⟩ : BufTy).Contents (Elt Ideal)) (x5 : (⟨S128, .f32⟩ : BufTy).Contents (Elt Ideal))
    (x6 : (⟨S128x128, .f32⟩ : BufTy).Contents (Elt Ideal)) (x7 x8 x9 x10 x11 : (⟨S128, .f32⟩ : BufTy).Contents (Elt Ideal)) :
    val_main_v154 (F := Ideal) x0 x1 x2 x3 x4 x5 x6 x7 x8 x9 x10 x11
      = Spec.layerNorm (val_main_v82 (F := Ideal) x0 x1 x2 x3 x4 x5 x8 x9)
          (val_main_v126 (F := Ideal) x0 x1 x2 x3 x4 x5 x6 x8 x9) (row x7) (row x10) (row x11) := by
  funext i
  obtain ⟨n, j, rfl⟩ : ∃ (n : Fin 50000) (j : Fin 128), i = ix2 n j := ⟨i 0, i 1, eq_ix2 i⟩
  rw [out_second, dev'_second, rstd_second, var_second]
  simp only [dev_second, mean_second, resid_second]
  generalize val_main_v82 (F := Ideal) x0 x1 x2 x3 x4 x5 x8 x9 = X
  generalize val_main_v126 (F := Ideal) x0 x1 x2 x3 x4 x5 x6 x8 x9 = A
  exact entry_eq X A x7 x10 x11 n j

end Cert.ReferenceIdeal.RefLN

end
-- ==== Proof.RefValue.lean ====
/-
  The reference, stage by stage, is the composition `Chain.final`:
  its gather of the embedding table's rows is the lookup (every id a row number, by the precondition), each of its
  two `dot_general`s is row-times-matrix, each of its two layer norms is `Spec.layerNorm` of the residual sum
  (the reference adds `x + (a + b)`, the specification `(x + a) + b`: addition of extended reals is associative),
  and each of its two aggregations is `Chain.agg` of the product before it, by unfolding the stage functions.
-/
import proofs.«405743_j19215683682347_2_alg».proof.Proof.Chain
import proofs.«405743_j19215683682347_2_alg».proof.Proof.RefRead
import proofs.«405743_j19215683682347_2_alg».proof.Proof.RefLN
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.ReadP
open Idealize.ShloMosaic Idealize.ShloMosaic.TcCoe Idealize.ShloMosaic.ValueIdx Idealize.SL.Sem

/-! ## The aggregation's pieces, at any float family

Both sides are the same tree of host operations over equal shapes and dimension numbers; only the names differ. Each
piece is compared once, the later ones through the earlier. -/

section Generic

variable {F : FTy → Type} [FloatOps F]

/-- The sources with the self loops appended. -/
private theorem rowF_eq (x1 : (⟨S2x600000, .i32⟩ : BufTy).Contents (Elt F)) :
    val_main_v13 (F := F) x1 = Chain.rowF (F := F) x1 := by
  unfold val_main_v13 val_main_v1 val_main_v0 val_main_v12 Chain.rowF
  rfl

/-- The destinations with the self loops appended. -/
private theorem colF_eq (x1 : (⟨S2x600000, .i32⟩ : BufTy).Contents (Elt F)) :
    val_main_v14 (F := F) x1 = Chain.colF (F := F) x1 := by
  unfold val_main_v14 val_main_v3 val_main_v2 val_main_v12 Chain.colF
  rfl

/-- The weights with a one appended for every self loop. -/
private theorem ewF_eq (x2 : (⟨S600000, .f32⟩ : BufTy).Contents (Elt F)) :
    val_main_v16 (F := F) x2 = Chain.ewF (F := F) x2 := by
  unfold val_main_v16 val_main_v15 val_main_cst Chain.ewF
  rfl

/-- The degrees. -/
private theorem deg_eq (x1 : (⟨S2x600000, .i32⟩ : BufTy).Contents (Elt F)) (x2 : (⟨S600000, .f32⟩ : BufTy).Contents (Elt F)) :
    val_main_v19 (F := F) x1 x2 = Chain.deg (F := F) x1 x2 := by
  unfold val_main_v19 val_main_v18 val_main_v17 val_main_cst_1 Chain.deg
  rw [colF_eq, ewF_eq]
  rfl

/-- The inverse square roots of the degrees, zero where the degree is not positive. -/
private theorem dis_eq (x1 : (⟨S2x600000, .i32⟩ : BufTy).Contents (Elt F)) (x2 : (⟨S600000, .f32⟩ : BufTy).Contents (Elt F)) :
    val_main_v25 (F := F) x1 x2 = Chain.dis (F := F) x1 x2 := by
  unfold val_main_v25 val_main_v21 val_main_v24 val_main_v23 val_main_v22 val_main_cst_3 val_main_v20 val_main_cst_2
    val_main_call0_v1 val_main_call0_v0 val_main_cst_4 Chain.dis
  rw [deg_eq]

/-- The sources as a gather's index column (first use). -/
private theorem wrap_row_eq (x1 : (⟨S2x600000, .i32⟩ : BufTy).Contents (Elt F)) :
    val_main_v31 (F := F) x1 = Chain.wrap (F := F) (Chain.rowF (F := F) x1) := by
  unfold val_main_v31 val_main_v30 val_main_v27 val_main_v29 val_main_v26 val_main_c_5 val_main_v28 val_main_c_6 Chain.wrap
  rw [rowF_eq]

/-- The destinations as a gather's index column. -/
private theorem wrap_col_eq (x1 : (⟨S2x600000, .i32⟩ : BufTy).Contents (Elt F)) :
    val_main_v39 (F := F) x1 = Chain.wrap (F := F) (Chain.colF (F := F) x1) := by
  unfold val_main_v39 val_main_v38 val_main_v35 val_main_v37 val_main_v34 val_main_c_7 val_main_v36 val_main_c_8 Chain.wrap
  rw [colF_eq]

/-- The normalised weights. -/
private theorem norm_eq (x1 : (⟨S2x600000, .i32⟩ : BufTy).Contents (Elt F)) (x2 : (⟨S600000, .f32⟩ : BufTy).Contents (Elt F)) :
    val_main_v41 (F := F) x1 x2 = Chain.norm (F := F) x1 x2 := by
  unfold val_main_v41 val_main_v33 val_main_v32 val_main_v40 Chain.norm
  rw [dis_eq, wrap_row_eq, wrap_col_eq, ewF_eq]
  rfl

/-- The sources as a gather's index column (second use, for the rows of the product). -/
private theorem wrap_row_eq' (x1 : (⟨S2x600000, .i32⟩ : BufTy).Contents (Elt F)) :
    val_main_v48 (F := F) x1 = Chain.wrap (F := F) (Chain.rowF (F := F) x1) := by
  unfold val_main_v48 val_main_v47 val_main_v44 val_main_v46 val_main_v43 val_main_c_9 val_main_v45 val_main_c_10 Chain.wrap
  rw [rowF_eq]

/-- The first aggregation, at any float family. -/
private theorem agg1F (x0 : (⟨S50000, .i32⟩ : BufTy).Contents (Elt F)) (x1 : (⟨S2x600000, .i32⟩ : BufTy).Contents (Elt F)) (x2 : (⟨S600000, .f32⟩ : BufTy).Contents (Elt F))
    (x3 : (⟨S512x128, .f32⟩ : BufTy).Contents (Elt F)) (x4 : (⟨S128x128, .f32⟩ : BufTy).Contents (Elt F)) :
    val_main_v54 (F := F) x0 x1 x2 x3 x4
      = Chain.aggCore (F := F) (Host.gather gather_S50000x128_S650000x1_S650000x128_1_0_n_n_0_1_1128
          (val_main_v11 (F := F) x0 x3 x4) (Chain.wrap (F := F) (Chain.rowF (F := F) x1))) x1 x2 := by
  unfold val_main_v54 val_main_v53 val_main_v52 val_main_cst_11 val_main_v51 val_main_v50 val_main_v42 val_main_v49 Chain.aggCore
  rw [colF_eq, norm_eq, wrap_row_eq']
  rfl

/-! The second aggregation rebuilds every piece under new names. -/

private theorem rowF_eq2 (x1 : (⟨S2x600000, .i32⟩ : BufTy).Contents (Elt F)) :
    val_main_v85 (F := F) x1 = Chain.rowF (F := F) x1 := by
  unfold val_main_v85 val_main_v1 val_main_v0 val_main_v84 Chain.rowF
  rfl

private theorem colF_eq2 (x1 : (⟨S2x600000, .i32⟩ : BufTy).Contents (Elt F)) :
    val_main_v86 (F := F) x1 = Chain.colF (F := F) x1 := by
  unfold val_main_v86 val_main_v3 val_main_v2 val_main_v84 Chain.colF
  rfl

private theorem ewF_eq2 (x2 : (⟨S600000, .f32⟩ : BufTy).Contents (Elt F)) :
    val_main_v88 (F := F) x2 = Chain.ewF (F := F) x2 := by
  unfold val_main_v88 val_main_v87 val_main_cst_17 Chain.ewF
  rfl

private theorem deg_eq2 (x1 : (⟨S2x600000, .i32⟩ : BufTy).Contents (Elt F)) (x2 : (⟨S600000, .f32⟩ : BufTy).Contents (Elt F)) :
    val_main_v91 (F := F) x1 x2 = Chain.deg (F := F) x1 x2 := by
  unfold val_main_v91 val_main_v90 val_main_v89 val_main_cst_18 Chain.deg
  rw [colF_eq2, ewF_eq2]
  rfl

private theorem dis_eq2 (x1 : (⟨S2x600000, .i32⟩ : BufTy).Contents (Elt F)) (x2 : (⟨S600000, .f32⟩ : BufTy).Contents (Elt F)) :
    val_main_v97 (F := F) x1 x2 = Chain.dis (F := F) x1 x2 := by
  unfold val_main_v97 val_main_v93 val_main_v96 val_main_v95 val_main_v94 val_main_cst_20 val_main_v92 val_main_cst_19
    val_main_call1_v1 val_main_call1_v0 val_main_cst_21 Chain.dis
  rw [deg_eq2]

private theorem wrap_row_eq2 (x1 : (⟨S2x600000, .i32⟩ : BufTy).Contents (Elt F)) :
    val_main_v103 (F := F) x1 = Chain.wrap (F := F) (Chain.rowF (F := F) x1) := by
  unfold val_main_v103 val_main_v102 val_main_v99 val_main_v101 val_main_v98 val_main_c_22 val_main_v100 val_main_c_23 Chain.wrap
  rw [rowF_eq2]

private theorem wrap_col_eq2 (x1 : (⟨S2x600000, .i32⟩ : BufTy).Contents (Elt F)) :
    val_main_v111 (F := F) x1 = Chain.wrap (F := F) (Chain.colF (F := F) x1) := by
  unfold val_main_v111 val_main_v110 val_main_v107 val_main_v109 val_main_v106 val_main_c_24 val_main_v108 val_main_c_25 Chain.wrap
  rw [colF_eq2]

private theorem norm_eq2 (x1 : (⟨S2x600000, .i32⟩ : BufTy).Contents (Elt F)) (x2 : (⟨S600000, .f32⟩ : BufTy).Contents (Elt F)) :
    val_main_v113 (F := F) x1 x2 = Chain.norm (F := F) x1 x2 := by
  unfold val_main_v113 val_main_v105 val_main_v104 val_main_v112 Chain.norm
  rw [dis_eq2, wrap_row_eq2, wrap_col_eq2, ewF_eq2]
  rfl

private theorem wrap_row_eq2' (x1 : (⟨S2x600000, .i32⟩ : BufTy).Contents (Elt F)) :
    val_main_v120 (F := F) x1 = Chain.wrap (F := F) (Chain.rowF (F := F) x1) := by
  unfold val_main_v120 val_main_v119 val_main_v116 val_main_v118 val_main_v115 val_main_c_26 val_main_v117 val_main_c_27 Chain.wrap
  rw [rowF_eq2]

/-- The second aggregation, at any float family. -/
private theorem agg2F (x0 : (⟨S50000, .i32⟩ : BufTy).Contents (Elt F)) (x1 : (⟨S2x600000, .i32⟩ : BufTy).Contents (Elt F)) (x2 : (⟨S600000, .f32⟩ : BufTy).Contents (Elt F))
    (x3 : (⟨S512x128, .f32⟩ : BufTy).Contents (Elt F)) (x4 : (⟨S128x128, .f32⟩ : BufTy).Contents (Elt F)) (x5 : (⟨S128, .f32⟩ : BufTy).Contents (Elt F))
    (x6 : (⟨S128x128, .f32⟩ : BufTy).Contents (Elt F)) (x8 x9 : (⟨S128, .f32⟩ : BufTy).Contents (Elt F)) :
    val_main_v126 (F := F) x0 x1 x2 x3 x4 x5 x6 x8 x9
      = Chain.aggCore (F := F) (Host.gather gather_S50000x128_S650000x1_S650000x128_1_0_n_n_0_1_1128
          (val_main_v83 (F := F) x0 x1 x2 x3 x4 x5 x6 x8 x9) (Chain.wrap (F := F) (Chain.rowF (F := F) x1))) x1 x2 := by
  unfold val_main_v126 val_main_v125 val_main_v124 val_main_cst_28 val_main_v123 val_main_v122 val_main_v114 val_main_v121 Chain.aggCore
  rw [colF_eq2, norm_eq2, wrap_row_eq2']
  rfl

end Generic

/-! ## The lookup -/

/-- A word below `512` reads the same signed and unsigned. -/
private theorem toInt_small {a : BitVec 32} (ha : a.toNat < 512) : a.toInt = (a.toNat : Int) := by
  rw [BitVec.toInt_eq_msb_cond, BitVec.msb_eq_false_iff_two_mul_lt.mpr (by omega)]
  simp

/-- A word below `512` is not negative as a signed word. -/
private theorem slt_zero_small {a : BitVec 32} (ha : a.toNat < 512) : IntOp.cmpi .slt a 0#32 = 0#1 := by
  have h : a.slt 0#32 = false := by simp [BitVec.slt, toInt_small ha]
  unfold IntOp.cmpi
  show BitVec.ofBool (a.slt 0#32) = 0#1
  rw [h]
  rfl

/-- The row the gather reads for result index `j`: the start index at `(j 0, 0)`, read signed and clamped into the
    table. -/
private theorem gather_row_0 (idx : IVec S50000x1 32) (j : S50000x128.Idx) :
    (gather_S512x128_S50000x1_S50000x128_1_0_n_n_0_1_1128.operandIdx j idx 0).val = min (idx (ix2 (j 0) 0)).toInt.toNat (512 - 1) := by
  show gather_S512x128_S50000x1_S50000x128_1_0_n_n_0_1_1128.start j idx 0 + gather_S512x128_S50000x1_S50000x128_1_0_n_n_0_1_1128.batchCoord j 0 + gather_S512x128_S50000x1_S50000x128_1_0_n_n_0_1_1128.offCoord j 0 = _
  rw [GatherDims.batchCoord_eq_zero gather_S512x128_S50000x1_S50000x128_1_0_n_n_0_1_1128 j 0 (show (0 : Fin 2) ∉ ([] : List (Fin 2)) from List.not_mem_nil),
    GatherDims.offCoord_eq_zero gather_S512x128_S50000x1_S50000x128_1_0_n_n_0_1_1128 j 0 (fun h => ((GatherDims.mem_sKept _ _).mp h).1 (List.mem_singleton.mpr rfl))]
  simp only [Nat.add_zero]
  unfold GatherDims.start
  rw [dif_pos (show (0 : Fin 2) ∈ gather_S512x128_S50000x1_S50000x128_1_0_n_n_0_1_1128.startIndexMap from List.mem_singleton.mpr rfl)]
  have hsi : gather_S512x128_S50000x1_S50000x128_1_0_n_n_0_1_1128.siIdx j ⟨List.idxOf (0 : Fin 2) gather_S512x128_S50000x1_S50000x128_1_0_n_n_0_1_1128.startIndexMap,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The column the gather reads for result index `j`: `j`'s own. -/
private theorem gather_row_1 (idx : IVec S50000x1 32) (j : S50000x128.Idx) :
    (gather_S512x128_S50000x1_S50000x128_1_0_n_n_0_1_1128.operandIdx j idx 1).val = (j 1).val := by
  show gather_S512x128_S50000x1_S50000x128_1_0_n_n_0_1_1128.start j idx 1 + gather_S512x128_S50000x1_S50000x128_1_0_n_n_0_1_1128.batchCoord j 1 + gather_S512x128_S50000x1_S50000x128_1_0_n_n_0_1_1128.offCoord j 1 = _
  rw [GatherDims.batchCoord_eq_zero gather_S512x128_S50000x1_S50000x128_1_0_n_n_0_1_1128 j 1 (show (1 : Fin 2) ∉ ([] : List (Fin 2)) from List.not_mem_nil)]
  unfold GatherDims.start
  rw [dif_neg (show ¬ (1 : Fin 2) ∈ gather_S512x128_S50000x1_S50000x128_1_0_n_n_0_1_1128.startIndexMap by decide)]
  simp only [Nat.add_zero, Nat.zero_add]
  rfl

/-- The index column at row `n`: an id below `512` is not negative, so it is kept as it is. -/
private theorem ids_col (x0 : (⟨S50000, .i32⟩ : BufTy).Contents (Elt Ideal)) (n : Fin 50000) (hn : (x0 (ix1 n)).toNat < 512) :
    val_main_v9 (F := Ideal) x0 (ix2 n 0) = x0 (ix1 n) := by
  have ei : idx_main_v9 (ix2 n (0 : Fin 1)) = ix1 n :=
    funext fun a => Fin.ext (by match a with | ⟨0, _⟩ => rfl)
  rw [val_main_v9_apply, ei, val_main_v8_apply, val_main_v5_apply, val_main_v4_apply, val_main_c_apply,
    slt_zero_small hn, select_zero]

/-- With every id a row number of the table, the reference's gather (negative ids wrapped, then clamped into the
    table) reads exactly that row: it is the lookup. -/
theorem lookup_eq (x0 : (⟨S50000, .i32⟩ : BufTy).Contents (Elt Ideal)) (x3 : (⟨S512x128, .f32⟩ : BufTy).Contents (Elt Ideal))
    (hr : ∀ n : Fin 50000, (x0 (ix1 n)).toNat < 512) :
    val_main_v10 (F := Ideal) x0 x3 = Spec.takeRow (Chain.col x0) x3 := by
  funext i
  obtain ⟨n, k, rfl⟩ : ∃ (n : Fin 50000) (k : Fin 128), i = ix2 n k := ⟨i 0, i 1, eq_ix2 i⟩
  have hn := hr n
  unfold val_main_v10 Host.gather Spec.takeRow
  refine congrArg x3 (funext fun a => Fin.ext ?_)
  match a with
  | ⟨0, _⟩ =>
    refine (gather_row_0 _ _).trans ?_
    show min (val_main_v9 (F := Ideal) x0 (ix2 n 0)).toInt.toNat (512 - 1) = (x0 (ix1 n)).toNat % 512
    rw [ids_col x0 n hn, toInt_small hn, Int.toNat_natCast]
    omega
  | ⟨1, _⟩ => exact gather_row_1 _ _

/-! ## The products -/

/-- The host's `dot_general` of a 50000×128 array with a 128×128 matrix, contracting the inner axis, is row times
    matrix. -/
theorem dot_eq (x : (⟨S50000x128, .f32⟩ : BufTy).Contents (Elt Ideal)) (W : (⟨S128x128, .f32⟩ : BufTy).Contents (Elt Ideal)) :
    Host.dotGeneral (F := Ideal) (φ₁ := .f32) (φ₂ := .f32) dot_S50000x128_S128x128_S50000x128_1_0_0_1_n_n none x W = Spec.rowDot x W := by
  funext i
  simp only [Host.dotGeneral]
  rw [Ideal.dotGeneral_apply, ← Equiv.sum_comp (ValueIdx.contrEquiv1 dot_S50000x128_S128x128_S50000x128_1_0_0_1_n_n 128 rfl rfl).symm]
  unfold Spec.rowDot
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = ix2 (i 0) k := funext fun a => Fin.ext (by
    match a with
    | ⟨0, _⟩ => exact lhs_main_v11_0 _ _
    | ⟨1, _⟩ => exact (lhs_main_v11_1 _ _).trans hk)
  have er : dot_S50000x128_S128x128_S50000x128_1_0_0_1_n_n.rhsIdx i ((ValueIdx.contrEquiv1 dot_S50000x128_S128x128_S50000x128_1_0_0_1_n_n 128 rfl rfl).symm k) = ix2 k (i 1) := funext fun a => Fin.ext (by
    match a with
    | ⟨0, _⟩ => exact (rhs_main_v11_0 _ _).trans hk
    | ⟨1, _⟩ => exact rhs_main_v11_1 _ _)
  rw [el, er]
  rfl

/-! ## The aggregations -/

/-- The first aggregation is `Chain.agg` of the first product. -/
theorem agg1_eq (x0 : (⟨S50000, .i32⟩ : BufTy).Contents (Elt Ideal)) (x1 : (⟨S2x600000, .i32⟩ : BufTy).Contents (Elt Ideal)) (x2 : (⟨S600000, .f32⟩ : BufTy).Contents (Elt Ideal))
    (x3 : (⟨S512x128, .f32⟩ : BufTy).Contents (Elt Ideal)) (x4 : (⟨S128x128, .f32⟩ : BufTy).Contents (Elt Ideal)) :
    val_main_v54 (F := Ideal) x0 x1 x2 x3 x4 = Chain.agg (val_main_v11 (F := Ideal) x0 x3 x4) x1 x2 := by
  rw [agg1F]
  rfl

/-- The second aggregation (the reference rebuilds the edge weights with the same operations) is `Chain.agg` of the
    second product. -/
theorem agg2_eq (x0 : (⟨S50000, .i32⟩ : BufTy).Contents (Elt Ideal)) (x1 : (⟨S2x600000, .i32⟩ : BufTy).Contents (Elt Ideal)) (x2 : (⟨S600000, .f32⟩ : BufTy).Contents (Elt Ideal))
    (x3 : (⟨S512x128, .f32⟩ : BufTy).Contents (Elt Ideal)) (x4 : (⟨S128x128, .f32⟩ : BufTy).Contents (Elt Ideal)) (x5 : (⟨S128, .f32⟩ : BufTy).Contents (Elt Ideal))
    (x6 : (⟨S128x128, .f32⟩ : BufTy).Contents (Elt Ideal)) (x8 x9 : (⟨S128, .f32⟩ : BufTy).Contents (Elt Ideal)) :
    val_main_v126 (F := Ideal) x0 x1 x2 x3 x4 x5 x6 x8 x9
      = Chain.agg (val_main_v83 (F := Ideal) x0 x1 x2 x3 x4 x5 x6 x8 x9) x1 x2 := by
  rw [agg2F]
  rfl

/-! ## The whole reference -/

/-- The reference's last stage is the network's specification of the arguments. -/
theorem result_eq (x0 : (⟨S50000, .i32⟩ : BufTy).Contents (Elt Ideal)) (x1 : (⟨S2x600000, .i32⟩ : BufTy).Contents (Elt Ideal)) (x2 : (⟨S600000, .f32⟩ : BufTy).Contents (Elt Ideal))
    (x3 : (⟨S512x128, .f32⟩ : BufTy).Contents (Elt Ideal)) (x4 : (⟨S128x128, .f32⟩ : BufTy).Contents (Elt Ideal)) (x5 : (⟨S128, .f32⟩ : BufTy).Contents (Elt Ideal))
    (x6 : (⟨S128x128, .f32⟩ : BufTy).Contents (Elt Ideal)) (x7 x8 x9 x10 x11 : (⟨S128, .f32⟩ : BufTy).Contents (Elt Ideal))
    (hr : ∀ n : Fin 50000, (x0 (ix1 n)).toNat < 512) :
    val_main_v154 (F := Ideal) x0 x1 x2 x3 x4 x5 x6 x7 x8 x9 x10 x11
      = Chain.final x0 x1 x2 x3 x4 x5 x6 x7 x8 x9 x10 x11 := by
  have e83 : val_main_v83 (F := Ideal) x0 x1 x2 x3 x4 x5 x6 x8 x9
      = Spec.rowDot (val_main_v82 (F := Ideal) x0 x1 x2 x3 x4 x5 x8 x9) x6 := by
    unfold val_main_v83
    exact dot_eq _ _
  have e11 : val_main_v11 (F := Ideal) x0 x3 x4 = Spec.rowDot (val_main_v10 (F := Ideal) x0 x3) x4 := by
    unfold val_main_v11
    exact dot_eq _ _
  rw [RefLN.ln2_eq, agg2_eq, e83, RefLN.ln1_eq, agg1_eq, e11, lookup_eq x0 x3 hr]
  rfl

end Cert.ReferenceIdeal.RefValue

end
-- ==== Proof.PreDecode.lean ====
/-
  What the precondition says of the node ids: its last conjunct is the conjunction over all 50000 ids of
  `0 ≤ id` and `id < 512` as signed 32-bit comparisons, so every id, read as a natural number, is below 512.
-/
import proofs.«405743_j19215683682347_2_alg».proof.Pre_finite_inputs
import proofs.«405743_j19215683682347_2_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx Cert.Pre_finite_inputs

/-- The rank-0 shape has one index: the conjunction over all ids lands in a single word. -/
private instance : Subsingleton S_.Idx := ⟨fun a b => funext fun d => d.elim0⟩

/-- A 32-bit word that is at least 0 and below 512 as a signed number is below 512 as a natural number: were its top bit
    set, its signed value would be negative. -/
private theorem word_lt (w : BitVec 32) (h0 : IntOp.cmpi .sge w 0#32 = 1#1) (h1 : IntOp.cmpi .slt w 512#32 = 1#1) :
    w.toNat < 512 := by
  rw [IntOp.cmpi_sge] at h0
  rw [IntOp.cmpi_slt] at h1
  have e0 : (0#32 : BitVec 32).toInt = 0 := by decide
  have e1 : (512#32 : BitVec 32).toInt = 512 := by decide
  rw [e0] at h0
  rw [e1] at h1
  rw [BitVec.toInt_eq_toNat_cond] at h0 h1
  have := w.isLt
  split at h0 <;> omega

/-- Under the precondition every node id is a row number of the 512-row embedding table. -/
theorem ids_lt (x0 : IVec S50000 32) (x1 : IVec S2x600000 32) (x2 : FVec Ideal S600000 .f32) (x3 : FVec Ideal S512x128 .f32)
    (x4 : FVec Ideal S128x128 .f32) (x5 : FVec Ideal S128 .f32) (x6 : FVec Ideal S128x128 .f32)
    (x7 x8 x9 x10 x11 : FVec Ideal S128 .f32)
    (h : Cert.Pre_finite_inputs.fn (F := Ideal) x0 x1 x2 x3 x4 x5 x6 x7 x8 x9 x10 x11 = fun _ => 1#1) :
    ∀ n : Fin 50000, (x0 (ix1 n)).toNat < 512 := by
  intro n
  -- the precondition at its one index, its chain of operations laid out: a conjunction whose last term is the ids'
  have h' := congrFun h ix0
  dsimp only [Cert.Pre_finite_inputs.fn, fn_part1, fn_part2, fn_part3] at h'
  -- the last conjunct is 1; it is the conjunction over all ids, so its term at id n is 1
  have hr := (IntOp.andi_eq_one.1 h').2
  have hn := Host.reduce_andi_all _ _ _ _ _ hr (ix1 n)
  -- that term is (0 ≤ id n) and (id n < 512), signed, each against a constant laid out over the ids
  obtain ⟨h0, h1⟩ := IntOp.andi_eq_one.1 hn
  exact word_lt (x0 (ix1 n)) h0 h1

end Cert.PreDecode

end
-- ==== Proof.lean ====
/-
  A two-layer graph convolution with an embedding lookup in front: the kernel program (three kernel regions — lookup
  by a one-hot product, residual layer norm fused with the next product, residual layer norm — with the edge
  aggregation between them on the host) against the plain reference, over the extended reals.

  Under the precondition (the float inputs finite; every node id a row number of the 512-row embedding table) both
  programs end with the result array at ONE function of the arguments, `Chain.final`: lookup, then twice (product with
  a weight matrix, degree-normalised aggregation over the edges, residual sum, layer norm). The kernel side reads that
  off its run region by region (`Fold.result_eq`), the reference side off its straight line of host operations
  (`RunHand.run`, `RefValue.result_eq`). Only the id range is ever used of the precondition: outside it the kernel's one-hot row is
  all zeros while the reference wraps and clamps the id; finiteness is not needed, since the two sides differ only by
  the association of one sum, by a sum with a single non-zero term, and by the tiling.
  The three frames are the generated ones (the reference's is its run with the result dropped); the idealization
  rewrote nothing, so `preserves` has nothing to show.
-/
import proofs.«405743_j19215683682347_2_alg».proof.Defs
import proofs.«405743_j19215683682347_2_alg».proof.Proof.Gen.Kernel
import proofs.«405743_j19215683682347_2_alg».proof.Proof.Gen.Kernel.Frame
import proofs.«405743_j19215683682347_2_alg».proof.Proof.Gen.KernelIdeal
import proofs.«405743_j19215683682347_2_alg».proof.Proof.Gen.KernelIdeal.Frame
import proofs.«405743_j19215683682347_2_alg».proof.Proof.Gen.ReferenceIdeal
import proofs.«405743_j19215683682347_2_alg».proof.Proof.RefRunHand
import proofs.«405743_j19215683682347_2_alg».proof.Proof.Gen.Pre_finite_inputs
import proofs.«405743_j19215683682347_2_alg».proof.Proof.KernelRun
import proofs.«405743_j19215683682347_2_alg».proof.Proof.KernelFold
import proofs.«405743_j19215683682347_2_alg».proof.Proof.RefValue
import proofs.«405743_j19215683682347_2_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunHand.run (F := Ideal) m ρ)

/-- Both runs end at `Chain.final` of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr : ∀ (c : Dev Cert.KernelIdeal.nD) (n : Fin 50000),
      (m ((c.tc : Thread Cert.KernelIdeal.nD Cert.KernelIdeal.τ).loc Cert.KernelIdeal.main_arg0) (ix1 n)).toNat < 512 :=
    fun c => Cert.PreDecode.ids_lt _ _ _ _ _ _ _ _ _ _ _ _ (hpre c)
  refine ⟨fun c => Cert.Chain.final
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Fold.result_eq m ρ c (hr c)), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.RunHand.run (F := Ideal) m' ρ')
    obtain ⟨e0, e1, e2, e3, e4, e5, e6, e7, e8, e9, e10, e11⟩ := hagree c
    have hr' : ∀ n : Fin 50000,
        (m' ((c.tc : Thread Cert.ReferenceIdeal.nD Cert.ReferenceIdeal.τ).loc Cert.ReferenceIdeal.main_arg0) (ix1 n)).toNat < 512 := by
      intro n; rw [e0]; exact hr c n
    rw [Cert.ReferenceIdeal.RefValue.result_eq _ _ _ _ _ _ _ _ _ _ _ _ hr', e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
